-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024 : Shape := ⟨1, ![1024]⟩
abbrev S3072x1024 : Shape := ⟨2, ![3072, 1024]⟩
abbrev S3072 : Shape := ⟨1, ![3072]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S3072 .f32) (main_arg5 : FVec F S1024x1024 .f32) (main_arg6 : FVec F S1024 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S3072 .f32 := Host.absf main_arg4
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x4096x1024 .f32) (main_arg1 : FVec F S1024 .f32) (main_arg2 : FVec F S1024 .f32) (main_arg3 : FVec F S3072x1024 .f32) (main_arg4 : FVec F S3072 .f32) (main_arg5 : FVec F S1024x1024 .f32) (main_arg6 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S3072x1024 .f32 := Host.absf main_arg3
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg4 main_arg5 main_arg6 main_v13 main_v16
-- ==== Kernel.lean ====
abbrev S4x4096x1024 : Shape := ⟨3, ![4, 4096, 1024]⟩
abbrev S1024 : Shape := ⟨1, ![1024]⟩
abbrev S3072x1024 : Shape := ⟨2, ![3072, 1024]⟩
abbrev S3072 : Shape := ⟨1, ![3072]⟩
abbrev S1024x1024 : Shape := ⟨2, ![1024, 1024]⟩
abbrev S1024x3072 : Shape := ⟨2, ![1024, 3072]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S512x3072 : Shape := ⟨2, ![512, 3072]⟩
abbrev S1x3072 : Shape := ⟨2, ![1, 3072]⟩
abbrev S4x1024x1024 : Shape := ⟨3, ![4, 1024, 1024]⟩
abbrev S1x2048x1024 : Shape := ⟨3, ![1, 2048, 1024]⟩
abbrev S1x1024x1024 : Shape := ⟨3, ![1, 1024, 1024]⟩
abbrev S2048x1024 : Shape := ⟨2, ![2048, 1024]⟩

abbrev nBuf : Space → Nat
  | .hbm => 16
  | .vmem => 29
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024, .f32⟩
  | .hbm, ⟨3, _⟩ => ⟨S3072x1024, .f32⟩
  | .hbm, ⟨4, _⟩ => ⟨S3072, .f32⟩
  | .hbm, ⟨5, _⟩ => ⟨S1024x1024, .f32⟩
  | .hbm, ⟨6, _⟩ => ⟨S1024, .f32⟩
  | .hbm, ⟨7, _⟩ => ⟨S1024x3072, .f32⟩
  | .hbm, ⟨8, _⟩ => ⟨S1024x3072, .bf16⟩
  | .hbm, ⟨9, _⟩ => ⟨S1024x1024, .f32⟩
  | .hbm, ⟨10, _⟩ => ⟨S1024x1024, .bf16⟩
  | .hbm, ⟨11, _⟩ => ⟨S4x4096x1024, .bf16⟩
  | .hbm, ⟨12, _⟩ => ⟨S4x4096x1024, .bf16⟩
  | .hbm, ⟨13, _⟩ => ⟨S4x4096x1024, .bf16⟩
  | .hbm, ⟨14, _⟩ => ⟨S4x1024x1024, .bf16⟩
  | .hbm, ⟨15, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024, .f32⟩
  | .local _ .vmem, ⟨3, _⟩ => ⟨S1024, .f32⟩
  | .local _ .vmem, ⟨4, _⟩ => ⟨S1024x3072, .bf16⟩
  | .local _ .vmem, ⟨5, _⟩ => ⟨S3072, .f32⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1024x1024, .f32⟩
  | .local _ .vmem, ⟨19, _⟩ => ⟨S1x512x1024, .bf16⟩
  | .local _ .vmem, ⟨20, _⟩ => ⟨S1x512x1024, .bf16⟩
  | .local _ .vmem, ⟨21, _⟩ => ⟨S1x1024x1024, .bf16⟩
  | .local _ .vmem, ⟨22, _⟩ => ⟨S1x1024x1024, .bf16⟩
  | .local _ .vmem, ⟨23, _⟩ => ⟨S1024x1024, .bf16⟩
  | .local _ .vmem, ⟨24, _⟩ => ⟨S1024, .f32⟩
  | .local _ .vmem, ⟨25, _⟩ => ⟨S1x512x1024, .f32⟩
  | .local _ .vmem, ⟨26, _⟩ => ⟨S1x512x1024, .f32⟩
  | .local _ .vmem, ⟨27, _⟩ => ⟨S1x512x1024, .f32⟩
  | .local _ .vmem, ⟨28, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![4, 2], ![false, false]⟩

def k1_cond2 (i : grid1.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_10 : BitVec 32 := 0#32
  let v15 : BitVec 1 := Scalar.cmpi .ne v14 c0_i32_10
  v15

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  transposes_S3072x1024_S1024x3072_1_0 : S3072x1024.Transposes [1, 0] S1024x3072
  bitsLt_bf16_f32 : FTy.bits .bf16 < FTy.bits .f32
  transposes_S1024x1024_S1024x1024_1_0 : S1024x1024.Transposes [1, 0] S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  slices_S512x3072_o0_0_S512x1024 : S512x3072.Slices ![0, 0] S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  slices_S512x3072_o0_1024_S512x1024 : S512x3072.Slices ![0, 1024] S512x1024
  slices_S512x3072_o0_2048_S512x1024 : S512x3072.Slices ![0, 2048] S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  dot_S512x1024_S1024x3072_S512x3072_1_0_0_1_n_n_wf : DotDims.WF S512x1024 S1024x3072 S512x3072 [1] [0] [0] [1] [] []
  dot_S2048x1024_S2048x1024_S1024x1024_0_0_1_1_n_n_wf : DotDims.WF S2048x1024 S2048x1024 S1024x1024 [0] [0] [1] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072.size a ≤ S3072.size a
  hwx0_4 : ∀ i : grid0.Coords, EltTy.bits .f32 = 32 ∨ (Rect.block (s := S3072) S3072.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S4x4096x1024.size a
  hwx0_5 : ∀ i : grid0.Coords, EltTy.bits .bf16 = 32 ∨ (Rect.block (s := S4x4096x1024) S1x512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S4x4096x1024.size a
  hwx0_6 : ∀ i : grid0.Coords, EltTy.bits .bf16 = 32 ∨ (Rect.block (s := S4x4096x1024) S1x512x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S4x4096x1024.size a
  hwx0_7 : ∀ i : grid0.Coords, EltTy.bits .bf16 = 32 ∨ (Rect.block (s := S4x4096x1024) S1x512x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x1024.size a ≤ S4x4096x1024.size a
  hwx1_0 : ∀ i : grid1.Coords, EltTy.bits .bf16 = 32 ∨ (Rect.block (s := S4x4096x1024) S1x2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x4096x1024.size a
  hwx1_1 : ∀ i : grid1.Coords, EltTy.bits .bf16 = 32 ∨ (Rect.block (s := S4x4096x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x1024x1024.size a
  hwx1_2 : ∀ i : grid1.Coords, EltTy.bits .bf16 = 32 ∨ (Rect.block (s := S4x1024x1024) S1x1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S4x4096x1024.size a
  hwx2_0 : ∀ i : grid2.Coords, EltTy.bits .bf16 = 32 ∨ (Rect.block (s := S4x4096x1024) S1x512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x1024.size a ≤ S4x1024x1024.size a
  hwx2_1 : ∀ i : grid2.Coords, EltTy.bits .bf16 = 32 ∨ (Rect.block (s := S4x1024x1024) S1x1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S1024x1024.size a
  hwx2_2 : ∀ i : grid2.Coords, EltTy.bits .bf16 = 32 ∨ (Rect.block (s := S1024x1024) S1024x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024.size a ≤ S1024.size a
  hwx2_3 : ∀ i : grid2.Coords, EltTy.bits .f32 = 32 ∨ (Rect.block (s := S1024) S1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512x1024.size a ≤ S4x4096x1024.size a
  hwx2_4 : ∀ i : grid2.Coords, EltTy.bits .f32 = 32 ∨ (Rect.block (s := S4x4096x1024) S1x512x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x512x1024.size a ≤ S4x4096x1024.size a
  hwx2_5 : ∀ i : grid2.Coords, EltTy.bits .f32 = 32 ∨ (Rect.block (s := S4x4096x1024) S1x512x1024.size (cc2_transform_5 i) (hinb2_5 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S2048x1024_S2048x1024_S1024x1024_0_0_1_1_n_n : DotDims S2048x1024 S2048x1024 S1024x1024 where
  lhsContracting := [0]
  rhsContracting := [0]
  lhsNonContracting := [1]
  rhsNonContracting := [1]
  lhsBatch := []
  rhsBatch := []
  wf := dot_S2048x1024_S2048x1024_S1024x1024_0_0_1_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S1x512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S1x512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_2) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v4_1) S1x2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_2) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v4_0) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg0) S1x512x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v6) S1x512x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4x4096x1024 : Shape := ⟨3, ![4, 4096, 1024]⟩
abbrev S1024 : Shape := ⟨1, ![1024]⟩
abbrev S3072x1024 : Shape := ⟨2, ![3072, 1024]⟩
abbrev S3072 : Shape := ⟨1, ![3072]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3072 : Shape := ⟨3, ![4, 4096, 3072]⟩
abbrev S1x1x3072 : Shape := ⟨3, ![1, 1, 3072]⟩
abbrev S4x4096x4096 : Shape := ⟨3, ![4, 4096, 4096]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024, .f32⟩
  | .hbm, ⟨3, _⟩ => ⟨S3072x1024, .f32⟩
  | .hbm, ⟨4, _⟩ => ⟨S3072, .f32⟩
  | .hbm, ⟨5, _⟩ => ⟨S1024x1024, .f32⟩
  | .hbm, ⟨6, _⟩ => ⟨S1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x1024, .f32⟩
  | .hbm, ⟨29, _⟩ => ⟨S4x4096x1024, .f32⟩
  | .hbm, ⟨30, _⟩ => ⟨S1x1x1024, .f32⟩
  | .hbm, ⟨31, _⟩ => ⟨S4x4096x1024, .f32⟩
  | .hbm, ⟨32, _⟩ => ⟨S4x4096x1024, .f32⟩
  | .hbm, ⟨33, _⟩ => ⟨S1x1x1024, .f32⟩
  | .hbm, ⟨34, _⟩ => ⟨S4x4096x1024, .f32⟩
  | .hbm, ⟨35, _⟩ => ⟨S4x4096x1024, .f32⟩
  | .hbm, ⟨36, _⟩ => ⟨S4x4096x3072, .f32⟩
  | .hbm, ⟨37, _⟩ => ⟨S1x1x3072, .f32⟩
  | .hbm, ⟨38, _⟩ => ⟨S4x4096x3072, .f32⟩
  | .hbm, ⟨39, _⟩ => ⟨S4x4096x3072, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x4096, .f32⟩
  | .hbm, ⟨44, _⟩ => ⟨S_, .f32⟩
  | .hbm, ⟨45, _⟩ => ⟨S_, .f32⟩
  | .hbm, ⟨46, _⟩ => ⟨S4x4096x4096, .f32⟩
  | .hbm, ⟨47, _⟩ => ⟨S4x4096x4096, .f32⟩
  | .hbm, ⟨48, _⟩ => ⟨S4x4096x1024, .f32⟩
  | .hbm, ⟨49, _⟩ => ⟨S4x4096x1024, .f32⟩
  | .hbm, ⟨50, _⟩ => ⟨S1x1x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  reducesTo_S4x4096x1024_S4x4096_d2 : S4x4096x1024.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S3072_S1x1x3072_2 : S3072.BroadcastsInDim S1x1x3072 (![2] : Fin 1 → Fin S1x1x3072.rank)
  bcast_S1x1x3072_S4x4096x3072_0_1_2 : S1x1x3072.BroadcastsInDim S4x4096x3072 (![0, 1, 2] : Fin 3 → Fin S4x4096x3072.rank)
  slices_S4x4096x3072_S4x4096x1024_0_0_0 : S4x4096x3072.Slices ![0, 0, 0] S4x4096x1024
  slices_S4x4096x3072_S4x4096x1024_0_0_1024 : S4x4096x3072.Slices ![0, 0, 1024] S4x4096x1024
  slices_S4x4096x3072_S4x4096x1024_0_0_2048 : S4x4096x3072.Slices ![0, 0, 2048] S4x4096x1024
  bcast_S_S4x4096x4096 : S_.BroadcastsInDim S4x4096x4096 (![] : Fin 0 → Fin S4x4096x4096.rank)
  dot_S4x4096x1024_S3072x1024_S4x4096x3072_2_1_01_0_n_n_wf : DotDims.WF S4x4096x1024 S3072x1024 S4x4096x3072 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]
  dot_S4x4096x1024_S1024x1024_S4x4096x1024_2_1_01_0_n_n_wf : DotDims.WF S4x4096x1024 S1024x1024 S4x4096x1024 [2] [1] [0, 1] [0] [] []

variable [Facts₀]

def dot_S4x4096x1024_S3072x1024_S4x4096x3072_2_1_01_0_n_n : DotDims S4x4096x1024 S3072x1024 S4x4096x3072 where
  lhsContracting := [2]
  rhsContracting := [1]
  lhsNonContracting := [0, 1]
  rhsNonContracting := [0]
  lhsBatch := []
  rhsBatch := []
  wf := dot_S4x4096x1024_S3072x1024_S4x4096x3072_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf
def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.K.Reg0.lean ====
/-
  The first kernel region (the row normalisation and the projection to q, k, v), at any contents `V` of the core's buffers
  when the region is entered: each window's block at a grid point, what the body leaves in the three output windows'
  staging buffers as functions of the five input blocks, the region's proof data, and the body's obligation at every point.
-/
import proofs.«160551_j79027398246801_1_alg».proof.Proof.Gen.Kernel.Launch
import proofs.«160551_j79027398246801_1_alg».proof.Proof.Gen.Kernel.Skeleton
import proofs.«160551_j79027398246801_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The input windows' buffers hold their blocks -/

/-- Input window 0's current staging buffer holds its block at every point, fetched there or not, for any proof data
    whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

/-- The whole block of the rows, of the three projected outputs. -/
abbrev r0_rows : Rect S1x512x1024 := Rect.unit (s := S1x512x1024) ![0, 0, 0] S1x512x1024.size inb_S1x512x1024_S1x512x1024_0_0_0
/-- The whole scale and shift vectors. -/
abbrev r0_vec : Rect S1024 := Rect.unit (s := S1024) ![0] S1024.size inb_S1024_S1024_0
/-- The whole projection matrix. -/
abbrev r0_mat : Rect S1024x3072 := Rect.unit (s := S1024x3072) ![0, 0] S1024x3072.size inb_S1024x3072_S1024x3072_0_0
/-- The whole bias vector. -/
abbrev r0_bias : Rect S3072 := Rect.unit (s := S3072) ![0] S3072.size inb_S3072_S3072_0

/-- The offsets of each access are zero. -/
theorem hz0_1 : (![0] : Fin 1 → Nat) = fun _ => 0 := funext fun a => by fin_cases a <;> rfl
theorem hz0_2 : (![0, 0] : Fin 2 → Nat) = fun _ => 0 := funext fun a => by fin_cases a <;> rfl
theorem hz0_3 : (![0, 0, 0] : Fin 3 → Nat) = fun _ => 0 := funext fun a => by fin_cases a <;> rfl

/-- One store of the whole block covers it. -/
theorem cover0 (p : Vec F S1x512x1024 .bf16) (y : S1x512x1024.Idx) :
    ∃ pc ∈ ([⟨r0_rows, p⟩] : List (View.Piece (Elt F) S1x512x1024 .bf16)), y ∈ pc.1.set :=
  ⟨_, List.mem_singleton_self _, View.mem_set_unit_zero hz0_3 inb_S1x512x1024_S1x512x1024_0_0_0 y⟩

/-! ## What the body leaves in each output window's buffer, as the canon of its one store over the loaded blocks -/

def can0_5 (x0 : Vec F S1x512x1024 .f32) (x1 x2 : Vec F S1024 .f32) (x3 : Vec F S1024x3072 .bf16) (x4 : Vec F S3072 .f32) :
    Vec F S1x512x1024 .bf16 :=
  View.canon [⟨r0_rows, k0_pay4 (View.ld x0 r0_rows) (View.ld x1 r0_vec) (View.ld x2 r0_vec) (View.ld x3 r0_mat) (View.ld x4 r0_bias)⟩]
def can0_6 (x0 : Vec F S1x512x1024 .f32) (x1 x2 : Vec F S1024 .f32) (x3 : Vec F S1024x3072 .bf16) (x4 : Vec F S3072 .f32) :
    Vec F S1x512x1024 .bf16 :=
  View.canon [⟨r0_rows, k0_pay1 (k0_pay5 (View.ld x0 r0_rows) (View.ld x1 r0_vec) (View.ld x2 r0_vec) (View.ld x3 r0_mat) (View.ld x4 r0_bias))⟩]
def can0_7 (x0 : Vec F S1x512x1024 .f32) (x1 x2 : Vec F S1024 .f32) (x3 : Vec F S1024x3072 .bf16) (x4 : Vec F S3072 .f32) :
    Vec F S1x512x1024 .bf16 :=
  View.canon [⟨r0_rows, k0_pay2 (k0_pay3 (View.ld x0 r0_rows) (View.ld x1 r0_vec) (View.ld x2 r0_vec) (View.ld x3 r0_mat) (View.ld x4 r0_bias))⟩]

/-- The block of `q` the body stores: the first 1024 columns of the projected rows. -/
def out0_5 (x0 : Vec F S1x512x1024 .f32) (x1 x2 : Vec F S1024 .f32) (x3 : Vec F S1024x3072 .bf16) (x4 : Vec F S3072 .f32) :
    Vec F S1x512x1024 .bf16 := k0_pay4 x0 x1 x2 x3 x4
/-- The block of `k`: the middle 1024 columns. -/
def out0_6 (x0 : Vec F S1x512x1024 .f32) (x1 x2 : Vec F S1024 .f32) (x3 : Vec F S1024x3072 .bf16) (x4 : Vec F S3072 .f32) :
    Vec F S1x512x1024 .bf16 := k0_pay1 (k0_pay5 x0 x1 x2 x3 x4)
/-- The block of `v`: the last 1024 columns. -/
def out0_7 (x0 : Vec F S1x512x1024 .f32) (x1 x2 : Vec F S1024 .f32) (x3 : Vec F S1024x3072 .bf16) (x4 : Vec F S3072 .f32) :
    Vec F S1x512x1024 .bf16 := k0_pay2 (k0_pay3 x0 x1 x2 x3 x4)

/-! ## The canon of the one whole-block store is its payload at the whole blocks -/

theorem can0_5_eq (x0 : Vec F S1x512x1024 .f32) (x1 x2 : Vec F S1024 .f32) (x3 : Vec F S1024x3072 .bf16) (x4 : Vec F S3072 .f32) :
    can0_5 x0 x1 x2 x3 x4 = out0_5 x0 x1 x2 x3 x4 := by
  unfold can0_5 out0_5
  rw [View.canon_unit_zero hz0_3]
  simp only [View.ld_unit_zero (S := S1x512x1024) hz0_3, View.ld_unit_zero (S := S1024) hz0_1,
    View.ld_unit_zero (S := S1024x3072) hz0_2, View.ld_unit_zero (S := S3072) hz0_1]

theorem can0_6_eq (x0 : Vec F S1x512x1024 .f32) (x1 x2 : Vec F S1024 .f32) (x3 : Vec F S1024x3072 .bf16) (x4 : Vec F S3072 .f32) :
    can0_6 x0 x1 x2 x3 x4 = out0_6 x0 x1 x2 x3 x4 := by
  unfold can0_6 out0_6
  rw [View.canon_unit_zero hz0_3]
  simp only [View.ld_unit_zero (S := S1x512x1024) hz0_3, View.ld_unit_zero (S := S1024) hz0_1,
    View.ld_unit_zero (S := S1024x3072) hz0_2, View.ld_unit_zero (S := S3072) hz0_1]

theorem can0_7_eq (x0 : Vec F S1x512x1024 .f32) (x1 x2 : Vec F S1024 .f32) (x3 : Vec F S1024x3072 .bf16) (x4 : Vec F S3072 .f32) :
    can0_7 x0 x1 x2 x3 x4 = out0_7 x0 x1 x2 x3 x4 := by
  unfold can0_7 out0_7
  rw [View.canon_unit_zero hz0_3]
  simp only [View.ld_unit_zero (S := S1x512x1024) hz0_3, View.ld_unit_zero (S := S1024) hz0_1,
    View.ld_unit_zero (S := S1024x3072) hz0_2, View.ld_unit_zero (S := S3072) hz0_1]

/-! ## The body's triple -/

set_option maxHeartbeats 1000000 in
/-- The kernel body on whole staging memrefs, the inputs' at read contents `x0 … x4` and the outputs' at anything, runs to
    the continuation holding the inputs' as they were and each output's at its function of the inputs': the printed
    function and its printed part are their skeletons of memory operations, run operation by operation. -/
theorem sound_kernel0 (c : Dev nD) (E : Set ℕ) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x512x1024 .bf16) (harg9 : arg9.IsWhole)
    (x0 : Vec F S1x512x1024 .f32) (x1 x2 : Vec F S1024 .f32) (x3 : Vec F S1024x3072 .bf16) (x4 : Vec F S3072 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out0_5 x0 x1 x2 x3 x4) ∗ owns (c : Thread nD τ) arg8 fullShare (out0_6 x0 x1 x2 x3 x4) ∗ owns (c : Thread nD τ) arg9 fullShare (out0_7 x0 x1 x2 x3 x4)) -∗ K ⟨⟩))
      ⊢ wp frame (wpE (defs₀ (F := F)) Variants.none c none) E (cc0_kernel i arg2 harg2 arg3 harg3 arg4 harg4 arg5 harg5 arg6 harg6 arg7 harg7 arg8 harg8 arg9 harg9) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (View.read_writes_eq_canon _ _ _ (cover0 _)).trans (can0_5_eq _ _ _ _ _)
  isplitl [H6]
  · iexists _; isplitr
    swap; · iexact H6
    ipureintro
    exact (View.read_writes_eq_canon _ _ _ (cover0 _)).trans (can0_6_eq _ _ _ _ _)
  iexists _; isplitr
  swap; · iexact H7
  ipureintro
  exact (View.read_writes_eq_canon _ _ _ (cover0 _)).trans (can0_7_eq _ _ _ _ _)

/-! ## The pipeline's proof data -/

/-- The region's proof data on core `c`: the arrays as the region finds them; after the body at point `t` each input's
    buffer at its block and each output's at its function of the input blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`: the invariant, the core's debt, and the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body's obligation at every point of the region. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  The second kernel region (per batch, kᵀ v accumulated over the two halves of the 4096 rows in a scratch buffer the kernel
  keeps between grid points, and stored to the output at the second half), at any contents `V` of the core's buffers when
  the region is entered: each window's block at a grid point, what the scratch holds after each point, what the output
  window's staging buffer holds, the invariant that carries the scratch from point to point, the region's proof data, and
  the body's obligation at every point.
-/
import proofs.«160551_j79027398246801_1_alg».proof.Proof.Gen.Kernel.Launch
import proofs.«160551_j79027398246801_1_alg».proof.Proof.Gen.Kernel.Skeleton
import proofs.«160551_j79027398246801_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator, a whole scoped buffer of the kernel's own. -/
abbrev scM1 : Memref sig .tc .vmem S1024x1024 .f32 := Memref.whole cc1_scratch0

/-- The scratch after the first half of a batch: zeroed, then this half's product added. -/
def accFirst (x0 x1 : Vec F S1x2048x1024 .bf16) : Vec F S1024x1024 .f32 := k1_pay2 x0 x1 (k1_pay1 (F := F))
/-- The scratch after the second half: this half's product added to what the first half left. -/
def accNext (x0 x1 : Vec F S1x2048x1024 .bf16) (xs : Vec F S1024x1024 .f32) : Vec F S1024x1024 .f32 := k1_pay2 x0 x1 xs
/-- The output block stored at the second half: the accumulator, reshaped. -/
def kvOut (acc : Vec F S1024x1024 .f32) : Vec F S1x1024x1024 .bf16 := k1_pay3 acc

/-- What the scratch holds after the body at position `n`: at an even position (the first half of a batch) the reset and
    this half's product, at an odd one this half's product over what the position before left. -/
def accAt (c : Dev nD) : (n : ℕ) → n < cfg1.N → Vec F S1024x1024 .f32
  | 0, hn => accFirst (iblk1 V c 0 ⟨0, hn⟩) (iblk1 V c 1 ⟨0, hn⟩)
  | n + 1, hn =>
    if (n + 1) % 2 = 0 then accFirst (iblk1 V c 0 ⟨n + 1, hn⟩) (iblk1 V c 1 ⟨n + 1, hn⟩)
    else accNext (iblk1 V c 0 ⟨n + 1, hn⟩) (iblk1 V c 1 ⟨n + 1, hn⟩) (accAt c n (Nat.lt_of_succ_lt hn))

theorem accAt_first (c : Dev nD) (t : Fin cfg1.N) (h : t.val % 2 = 0) :
    accAt V c t.val t.isLt = accFirst (iblk1 V c 0 t) (iblk1 V c 1 t) := by
  obtain ⟨n, hn⟩ := t
  cases n with
  | zero => rfl
  | succ n => exact if_pos h

theorem accAt_next (c : Dev nD) (t : Fin cfg1.N) (h : t.val % 2 = 1) :
    accAt V c t.val t.isLt = accNext (iblk1 V c 0 t) (iblk1 V c 1 t)
      (accAt V c (t.val - 1) (Nat.lt_of_le_of_lt (Nat.sub_le _ _) t.isLt)) := by
  obtain ⟨n, hn⟩ := t
  cases n with
  | zero => exact absurd (show 0 % 2 = 1 from h) (by decide)
  | succ n => exact (if_neg (fun h0 => by dsimp only at h h0; omega)).trans rfl

/-! ## The two conditions of the body, and where the output window is idle -/

/-- The first conditional's condition, from the grid coordinates: the half is the first of its batch. -/
abbrev cond1_0 (i : grid1.Coords) : Prop := (Scalar.cmpi .ne (Scalar.extui (Scalar.cmpi .eq (BitVec.ofNat 32 (i 1).val) 0#32)) 0#32) = 1#1
/-- It holds at the even positions. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional's condition: the half is the second of its batch. -/
abbrev cond1_1 (i : grid1.Coords) : Prop := k1_cond2 i = 1#1
/-- It holds at the odd positions. -/
theorem hcond1_1 : ∀ t : Fin cfg1.N, cond1_1 (grid1.coords t) ↔ t.val % 2 = 1 :=
  (by decide +kernel : ∀ t : Fin grid1.N, cond1_1 (grid1.coords t) ↔ t.val % 2 = 1)

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At the first half of a batch the output window is idle (nothing is stored into it), -/
theorem idleAt1_2_first : ∀ t : Fin cfg1.N, cond1_0 (grid1.coords t) → ¬cond1_1 (grid1.coords t) → cfg1.idle 2 (grid1.coords t) = true := by decide +kernel
/-- and its block is not written back there. -/
theorem noFlush1_2_first : ∀ t : Fin cfg1.N, cond1_0 (grid1.coords t) → ¬cond1_1 (grid1.coords t) → (cfg1.win 2).flush t = false := by decide +kernel
/-- At the second half it is live. -/
theorem liveAt1_2_second : ∀ t : Fin cfg1.N, ¬cond1_0 (grid1.coords t) → cond1_1 (grid1.coords t) → cfg1.idle 2 (grid1.coords t) = false := by decide +kernel

/-! ## The invariant -/

/-- The scoped buffers that neither a window of this region stages nor the kernel uses as its scratch (the staging
    buffers of the other two regions), each whole at some contents. -/
def others1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg7_1), ((c : Thread nD τ).loc cc0_stg7_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg4_1), ((c : Thread nD τ).loc cc2_stg4_1) ↦{fullShare} f)
      ∗ (∃ f : Buf (Elt F) ((c : Thread nD τ).loc cc2_stg5_0), ((c : Thread nD τ).loc cc2_stg5_0) ↦{fullShare} f)
      ∗ (∃ f : Buf (Elt F) ((c : Thread nD τ).loc cc2_stg5_1), ((c : Thread nD τ).loc cc2_stg5_1) ↦{fullShare} f))

/-- What the launch hands the region, with the scratch taken out in front: the scratch at some contents, the other
    scoped buffers at some contents each, the generator register at some state (`∗` is commutative and associative). -/
theorem PhiA1_eq (c : Dev nD) :
    (Pipeline.ΦA spec1 c : sProp 𝕄)
      = iprop((∃ d, owns (c : Thread nD τ) scM1 fullShare d) ∗ others1 c ∗ (∃ r, prngReg c r)) := by
  unfold Pipeline.ΦA others1; rw [scopedRest1_eq]; simp only [scM1, owns_whole]
  refine BI.equiv_iff.mp ⟨?_, ?_⟩
  · show (_ : sProp 𝕄) ⊢ _
    iintro ⟨⟨H1, H2, H3, H4, H5, H6, H7, H8, H9, H10, H11, H12, H13, H14, H15, H16, H17, H18, H19, H20, H21, H22, H23⟩, Hr⟩
    iframe
  · show (_ : sProp 𝕄) ⊢ _
    iintro ⟨H13, ⟨H1, H2, H3, H4, H5, H6, H7, H8, H9, H10, H11, H12, H14, H15, H16, H17, H18, H19, H20, H21, H22, H23⟩, Hr⟩
    iframe

/-- The region invariant before position `n`: before the first point what the launch hands the region (every scoped buffer no
    window stages at anything, the generator register at some state); afterwards the same with the scratch at what the
    position before left in it. -/
def Phi1 (c : Dev nD) : (n : ℕ) → n ≤ cfg1.N → sProp 𝕄
  | 0, _ => Pipeline.ΦA spec1 c
  | n + 1, hn => iprop(owns (c : Thread nD τ) scM1 fullShare (accAt V c n hn) ∗ others1 c ∗ (∃ r, prngReg c r))

theorem Phi1_zero' (c : Dev nD) (n : ℕ) (h : n ≤ cfg1.N) (hz : n = 0) : Phi1 V c n h = Pipeline.ΦA spec1 c := by
  subst hz; rfl

/-- After point `n` (before point `n + 1`): the scratch at that point's contents. -/
theorem Phi1_succ (c : Dev nD) (n : ℕ) (hn : n < cfg1.N) :
    Phi1 V c (n + 1) hn = iprop(owns (c : Thread nD τ) scM1 fullShare (accAt V c n hn) ∗ others1 c ∗ (∃ r, prngReg c r)) := rfl

/-- Before a point that is not the first: the scratch at what the point before left. -/
theorem Phi1_pos (c : Dev nD) (n : ℕ) (h : n ≤ cfg1.N) (hz : n ≠ 0) :
    Phi1 V c n h = iprop(owns (c : Thread nD τ) scM1 fullShare (accAt V c (n - 1) (by omega)) ∗ others1 c ∗ (∃ r, prngReg c r)) := by
  cases n with
  | zero => exact absurd rfl hz
  | succ n => rfl

/-- The region's proof data on core `c`: the arrays as the region finds them; after the body at point `t` each input's
    buffer at its block and the output's at the accumulator reshaped (consulted only at the points that store it); the
    invariant carrying the scratch. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => kvOut (accAt V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = kvOut (accAt V c t.val t.isLt) := by dsimp only [dat1]

/-- Before the first point the invariant is what the launch hands the region. -/
theorem Phi1_zero (c : Dev nD) : (dat1 V c).Φ 0 = Pipeline.ΦA spec1 c := rfl

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-- After any point but the first the invariant gives back what the launch handed over: the scratch's named contents are
    forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨HS, Hr⟩
  isplitl [HS]
  · iexists _; iexact HS
  iexact Hr

/-- After the last point the invariant gives that back: the scratch's named contents are forgotten. -/
theorem hout1 (c : Dev nD) : (dat1 V c).Φ (Fin.last cfg1.N) ⊢ Pipeline.ΦA spec1 c :=
  Phi1_out V c _ (by rw [Fin.val_last]; have : cfg1.N = 8 := N_1; omega)

/-! ## The inputs' buffers hold their blocks -/

/-- An input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- The zero offsets of a whole-buffer access, as the constant function. -/
theorem zeroOffs1_2 : (![0, 0] : Fin 2 → Nat) = fun _ => 0 := funext fun a => by fin_cases a <;> rfl
theorem zeroOffs1_3 : (![0, 0, 0] : Fin 3 → Nat) = fun _ => 0 := funext fun a => by fin_cases a <;> rfl

/-! ## The body's two runs -/

set_option maxHeartbeats 1000000 in
/-- THE FIRST HALF of a batch (the first conditional taken, the second not): on whole memrefs, the inputs' at `x0`, `x1`,
    the output's at `xi`, the scratch at anything, the body runs to the continuation holding the inputs' and the output's as
    they were and the scratch at the reset plus this half's product. The scratch is stored whole twice, so it reads back the
    later store; that store's payload adds to what a load after the first store read, which is the stored zeros. -/
theorem run1_first (c : Dev nD) (E : Set ℕ) (i : grid1.Coords)
    (arg2 : Memref sig .tc .vmem S1x2048x1024 .bf16) (harg2 : arg2.IsWhole) (arg3 : Memref sig .tc .vmem S1x2048x1024 .bf16) (harg3 : arg3.IsWhole)
    (arg4 : Memref sig .tc .vmem S1x1024x1024 .bf16) (harg4 : arg4.IsWhole) (arg5 : Memref sig .tc .vmem S1024x1024 .f32) (harg5 : arg5.IsWhole)
    (hc0 : cond1_0 i) (hc1 : ¬cond1_1 i)
    (x0 x1 : Vec F S1x2048x1024 .bf16) (xi : Vec F S1x1024x1024 .bf16) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (accFirst x0 x1)) -∗ K ⟨⟩))
      ⊢ wp frame (wpE (defs₀ (F := F)) Variants.none c none) E (cc1_kv_kernel i arg2 harg2 arg3 harg3 arg4 harg4 arg5 harg5) K := by
  simp only [cc1_kv_kernel_eq_skeleton]; unfold cc1_kv_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  rw [View.read_writes_eq_canon _ _ _ (fun y => ⟨_, List.Mem.head _, View.mem_set_unit_zero zeroOffs1_2 inb_S1024x1024_S1024x1024_0_0 y⟩)]
  rw [View.canon_cons_unit_zero (S := S1024x1024) zeroOffs1_2]
  sl_unfold_words
  rw [View.readCov_unit_zero (S := S1024x1024) _ zeroOffs1_2]
  unfold accFirst
  simp only [View.readAt_eq_ld, harg2.read_unread, harg3.read_unread, View.ld_unit_zero (S := S1x2048x1024) zeroOffs1_3]

set_option maxHeartbeats 1000000 in
/-- THE SECOND HALF of a batch (the first conditional not taken, the second taken): on whole memrefs, the inputs' at `x0`,
    `x1`, the output's at anything, the scratch at `xs`, the body runs to the continuation holding the inputs' as they
    were, the scratch at `xs` plus this half's product, and the output's at that sum reshaped. The load before the store
    reads `xs`; the load after it reads what was stored. -/
theorem run1_second (c : Dev nD) (E : Set ℕ) (i : grid1.Coords)
    (arg2 : Memref sig .tc .vmem S1x2048x1024 .bf16) (harg2 : arg2.IsWhole) (arg3 : Memref sig .tc .vmem S1x2048x1024 .bf16) (harg3 : arg3.IsWhole)
    (arg4 : Memref sig .tc .vmem S1x1024x1024 .bf16) (harg4 : arg4.IsWhole) (arg5 : Memref sig .tc .vmem S1024x1024 .f32) (harg5 : arg5.IsWhole)
    (hc0 : ¬cond1_0 i) (hc1 : cond1_1 i)
    (x0 x1 : Vec F S1x2048x1024 .bf16) (xs : Vec F S1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (kvOut (accNext x0 x1 xs))
            ∗ owns (c : Thread nD τ) arg5 fullShare (accNext x0 x1 xs)) -∗ K ⟨⟩))
      ⊢ wp frame (wpE (defs₀ (F := F)) Variants.none c none) E (cc1_kv_kernel i arg2 harg2 arg3 harg3 arg4 harg4 arg5 harg5) K := by
  simp only [cc1_kv_kernel_eq_skeleton]; unfold cc1_kv_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (fun y => ⟨_, List.Mem.head _, View.mem_set_unit_zero zeroOffs1_3 inb_S1x1024x1024_S1x1024x1024_0_0_0 y⟩)]
    rw [View.canon_unit_zero (S := S1x1024x1024) zeroOffs1_3]
    sl_unfold_words
    rw [View.readCov_unit_zero (S := S1024x1024) _ zeroOffs1_2]
    unfold kvOut accNext
    simp only [View.readAt_eq_ld, harg2.read_unread, harg3.read_unread, harg5.read_unread, View.ld_unit_zero (S := S1x2048x1024) zeroOffs1_3, View.ld_unit_zero (S := S1024x1024) zeroOffs1_2]
  iexists _; isplitr
  swap; · iexact HS
  ipureintro
  sl_unfold_words
  rw [View.read_writes_eq_canon _ _ _ (fun y => ⟨_, List.Mem.head _, View.mem_set_unit_zero zeroOffs1_2 inb_S1024x1024_S1024x1024_0_0 y⟩)]
  rw [View.canon_unit_zero (S := S1024x1024) zeroOffs1_2]
  unfold accNext
  simp only [View.readAt_eq_ld, harg2.read_unread, harg3.read_unread, harg5.read_unread, View.ld_unit_zero (S := S1x2048x1024) zeroOffs1_3, View.ld_unit_zero (S := S1024x1024) zeroOffs1_2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the position's parity says which half of its batch the
    point is. At a first half the output window is idle and not written back, so its buffer is handed back as found, and
    the invariant takes the scratch back at the reset plus this half's product (whatever it held: anything at the very
    first point, the previous batch's sum afterwards). At a second half the invariant hands the body the scratch at what
    the first half left, and takes it back with this half's product added; the output's buffer holds that sum, reshaped.
    The other scoped buffers, the generator register and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 8 := lt_of_lt_of_eq t.isLt (show cfg1.N = 8 from N_1)
  by_cases h0 : t.val % 2 = 0
  · have h1 : ¬t.val % 2 = 1 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2_first t hc0 hc1) (noFlush1_2_first t hc0 hc1)]
    rw [accAt_first V c t h0]
    by_cases hz : t.val = 0
    · rw [Phi1_castSucc V c t, Phi1_zero' V c _ _ hz, PhiA1_eq]
      iintro ⟨⟨HS, Hoth, Hg⟩, Ho, ⟨%d0, H0⟩, ⟨%d1, H1⟩, ⟨%d2, H2⟩⟩
      iapply (run1_first c Set.univ (grid1.coords t) _ _ _ _ _ _ _ _ hc0 hc1 (iblk1 V c 0 t) (iblk1 V c 1 t) ((dat1 V c).before 2 t d2) _)
      isplitl [H0]; · iexact H0
      isplitl [H1]; · iexact H1
      isplitl [H2]; · iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexists _; iexact H2
    · rw [Phi1_castSucc V c t, Phi1_pos V c _ _ hz]
      iintro ⟨⟨HS, Hoth, Hg⟩, Ho, ⟨%d0, H0⟩, ⟨%d1, H1⟩, ⟨%d2, H2⟩⟩
      iapply (run1_first c Set.univ (grid1.coords t) _ _ _ _ _ _ _ _ hc0 hc1 (iblk1 V c 0 t) (iblk1 V c 1 t) ((dat1 V c).before 2 t d2) _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexists _; iexact H2
  · have h1 : t.val % 2 = 1 := by omega
    have hc0 : ¬cond1_0 (grid1.coords t) := fun h => h0 ((hcond1_0 t).mp h)
    have hc1 : cond1_1 (grid1.coords t) := (hcond1_1 t).mpr h1
    have hz : t.val ≠ 0 := by omega
    rw [show (dat1 V c).leavesExact 2 t = owns (c : Thread nD τ) (st1_2 t) fullShare ((dat1 V c).after 2 t) from by
      unfold Dat.leavesExact; rw [liveAt1_2_second t hc0 hc1], after1_2]
    rw [accAt_next V c t h1]
    rw [Phi1_castSucc V c t, Phi1_pos V c _ _ hz]
    iintro ⟨⟨HS, Hoth, Hg⟩, Ho, ⟨%d0, H0⟩, ⟨%d1, H1⟩, ⟨%d2, H2⟩⟩
    iapply (run1_second c Set.univ (grid1.coords t) _ _ _ _ _ _ _ _ hc0 hc1 (iblk1 V c 0 t) (iblk1 V c 1 t)
      (accAt V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    iexact H2

/-- The body's obligation at every point of the region. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  The third kernel region (a row of q times the per-batch matrix, scaled, projected, its bias and the row of x added), at
  any contents `V` of the core's buffers when the region is entered: each window's block at a grid point, what the body
  leaves in the output window's staging buffer as a function of the five input blocks, the region's proof data, and the
  body's obligation at every point.
-/
import proofs.«160551_j79027398246801_1_alg».proof.Proof.Gen.Kernel.Launch
import proofs.«160551_j79027398246801_1_alg».proof.Proof.Gen.Kernel.Skeleton
import proofs.«160551_j79027398246801_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place: unfetched, the block index has not moved; the
    window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place: unfetched, the block index has not moved; the
    window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s and whose body leaves the block in place: unfetched, the block index has not moved; the
    window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is `V`'s and whose body leaves the block in place: unfetched, the block index has not moved; the
    window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is `V`'s and whose body leaves the block in place: unfetched, the block index has not moved; the
    window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store go through the whole buffer, the unit rectangle at zero offsets -/

abbrev r2_a : Rect S1x512x1024 := Rect.unit (s := S1x512x1024) ![0, 0, 0] S1x512x1024.size inb_S1x512x1024_S1x512x1024_0_0_0
abbrev r2_b : Rect S1x1024x1024 := Rect.unit (s := S1x1024x1024) ![0, 0, 0] S1x1024x1024.size inb_S1x1024x1024_S1x1024x1024_0_0_0
abbrev r2_c : Rect S1024x1024 := Rect.unit (s := S1024x1024) ![0, 0] S1024x1024.size inb_S1024x1024_S1024x1024_0_0
abbrev r2_d : Rect S1024 := Rect.unit (s := S1024) ![0] S1024.size inb_S1024_S1024_0

/-- The offsets of those rectangles are zero on every axis. -/
theorem zero_off3 : (![0, 0, 0] : Fin 3 → Nat) = fun _ => 0 := funext fun a => by fin_cases a <;> rfl
theorem zero_off2 : (![0, 0] : Fin 2 → Nat) = fun _ => 0 := funext fun a => by fin_cases a <;> rfl
theorem zero_off1 : (![0] : Fin 1 → Nat) = fun _ => 0 := funext fun a => by fin_cases a <;> rfl

/-- The block of the result the body stores. -/
def out2_5 (x0 : Vec F S1x512x1024 .bf16) (x1 : Vec F S1x1024x1024 .bf16) (x2 : Vec F S1024x1024 .bf16) (x3 : Vec F S1024 .f32)
    (x4 : Vec F S1x512x1024 .f32) : Vec F S1x512x1024 .f32 := k2_pay1 x0 x1 x2 x3 x4

/-- The output window's staging buffer after the body as its one store leaves it: the payload of the five loads,
    through the whole-buffer rectangle. -/
def out2_5_pieces (x0 : Vec F S1x512x1024 .bf16) (x1 : Vec F S1x1024x1024 .bf16) (x2 : Vec F S1024x1024 .bf16) (x3 : Vec F S1024 .f32)
    (x4 : Vec F S1x512x1024 .f32) : Vec F S1x512x1024 .f32 :=
  View.canon [⟨r2_a, k2_pay1 (View.ld x0 r2_a) (View.ld x1 r2_b) (View.ld x2 r2_c) (View.ld x3 r2_d) (View.ld x4 r2_a)⟩]

/-- One store over the whole buffer leaves its payload, and a load of the whole buffer reads the contents: the
    buffer after the body is the payload of the five input blocks. -/
theorem out2_5_pieces_eq (x0 : Vec F S1x512x1024 .bf16) (x1 : Vec F S1x1024x1024 .bf16) (x2 : Vec F S1024x1024 .bf16) (x3 : Vec F S1024 .f32)
    (x4 : Vec F S1x512x1024 .f32) : out2_5_pieces x0 x1 x2 x3 x4 = out2_5 x0 x1 x2 x3 x4 := by
  unfold out2_5_pieces out2_5
  rw [View.canon_unit_zero zero_off3]
  simp only [View.ld_unit_zero (S := S1x512x1024) zero_off3, View.ld_unit_zero (S := S1x1024x1024) zero_off3,
    View.ld_unit_zero (S := S1024x1024) zero_off2, View.ld_unit_zero (S := S1024) zero_off1]

/-- The one store covers the buffer. -/
theorem cover2_5 (p0 : Vec F S1x512x1024 .f32) (y : S1x512x1024.Idx) :
    ∃ pc ∈ ([⟨r2_a, p0⟩] : List (View.Piece (Elt F) S1x512x1024 .f32)), y ∈ pc.1.set :=
  ⟨_, List.mem_singleton_self _, View.mem_set_unit_zero zero_off3 inb_S1x512x1024_S1x512x1024_0_0_0 y⟩

/-! ## The body's triple -/

set_option maxHeartbeats 1000000 in
/-- The kernel body on whole staging memrefs, the inputs' at read contents `x0 … x4` and the output's at anything, runs
    to the continuation holding the inputs' as they were and the output's at `out2_5` of the inputs'. The body also
    loads the output's buffer before it stores it; the loaded value is not used. -/
theorem sound_kernel2 (c : Dev nD) (E : Set ℕ) (i : grid2.Coords)
    (arg2 : Memref sig .tc .vmem S1x512x1024 .bf16) (harg2 : arg2.IsWhole) (arg3 : Memref sig .tc .vmem S1x1024x1024 .bf16) (harg3 : arg3.IsWhole)
    (arg4 : Memref sig .tc .vmem S1024x1024 .bf16) (harg4 : arg4.IsWhole) (arg5 : Memref sig .tc .vmem S1024 .f32) (harg5 : arg5.IsWhole)
    (arg6 : Memref sig .tc .vmem S1x512x1024 .f32) (harg6 : arg6.IsWhole) (arg7 : Memref sig .tc .vmem S1x512x1024 .f32) (harg7 : arg7.IsWhole)
    (x0 : Vec F S1x512x1024 .bf16) (x1 : Vec F S1x1024x1024 .bf16) (x2 : Vec F S1024x1024 .bf16) (x3 : Vec F S1024 .f32) (x4 : Vec F S1x512x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out2_5 x0 x1 x2 x3 x4)) -∗ K ⟨⟩))
      ⊢ wp frame (wpE (defs₀ (F := F)) Variants.none c none) E (cc2_kernel i arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover2_5 _)).trans (out2_5_pieces_eq _ _ _ _ _)

/-- The region's proof data on core `c`: the arrays as the region finds them; after the body at point `t` each input's
    buffer at its block and the output's at its function of the input blocks; nothing carried between points. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, what the core owes, and the six windows' current staging
    buffers one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation at every point of the region. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The whole program as a run of segments: the four host operations, then the three kernel regions. The contents of the
  core's buffers at each boundary are a fold from the launch memory (after the host operations; then, region by region, the
  region's arrays at what its write-backs leave and every other buffer as it was); every region's proof data is taken at
  its entry contents; and every weakly fair execution terminates with every unscoped buffer at the last boundary's contents.
-/
import proofs.«160551_j79027398246801_1_alg».proof.Proof.Gen.Kernel.Launch
import proofs.«160551_j79027398246801_1_alg».proof.Proof.Gen.Kernel.Skeleton
import proofs.«160551_j79027398246801_1_alg».proof.Proof.Gen.Kernel.Points
import proofs.«160551_j79027398246801_1_alg».proof.Proof.K.Reg0
import proofs.«160551_j79027398246801_1_alg».proof.Proof.K.Reg1
import proofs.«160551_j79027398246801_1_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the host operations (the first region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b

/-- At region 0's exit: its arrays at what the pipeline's write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- An array the region only reads ends as it was entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline's write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- An array the region only reads ends as it was entered. -/
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (V2 m) c).arrAt_in w hw _).trans (A_eq1 (V2 m) c w))
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At region 2's exit: its arrays at what the pipeline's write-backs leave, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- An array the region only reads ends as it was entered. -/
theorem W4_in (c : Dev nD) (w : Fin cfg2.W) (hw : (cfg2.win w).isOut = false) :
    W4 m c (Proc.devRef .tc (Pipeline.arrRef spec2 w)) = W3 m c (Proc.devRef .tc (Pipeline.arrRef spec2 w)) :=
  (W4_arr m c w).trans (((dat2 (V3 m) c).arrAt_in w hw _).trans (A_eq2 (V3 m) c w))
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- No host operation writes a buffer outside its own results. -/
theorem W1_of (c : Dev nD) (b : Ref sig .tc) (hb : b ∉ ([main_v0, main_v1, main_v2, main_v3] : List (Ref sig .tc))) :
    W1 m c (Proc.devRef .tc b) = m ((c : Thread nD τ).loc b) :=
  by
  refine StableHlo.after_of_forall_not_mem (b := Proc.devRef .tc b) _ _ (List.forall_iff_forall_mem.mp ?_)
  simp only [hostOps0, List.Forall, StableHlo.unary_writes, Finset.mem_singleton]
  refine ⟨?_, ?_, ?_, ?_⟩ <;> exact StableHlo.devRef_ne_of_ne (fun e => hb (by rw [e]; simp))

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the register at some state. -/
abbrev Tₙ (c : Dev nD) : sProp 𝕄 := iprop(StableHlo.held (c : Thread nD τ) (Pipeline.ucRefs τ sig) (W4 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered with every unscoped buffer at `W1`, left with them at `W2`. Its arrays
    are split out of the unscoped buffers and put back at what the write-backs leave; the generator register goes into
    the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W2`, left with them at `W3`. Its arrays
    are split out of the unscoped buffers and put back at what the write-backs leave; the generator register goes into
    the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W3`, left with them at `W4`. Its arrays
    are split out of the unscoped buffers and put back at what the write-backs leave; the generator register goes into
    the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m), .region (reg1 m), .region (reg2 m) ]
theorem main_run (c : Dev nD) : main (F := F) c = Pipeline.Seg.run (segs m) := (main_chain c).trans (by chain_rfl)

set_option backward.isDefEq.respectTransparency.types false in
/-- From any memory with zero counters every weakly fair execution terminates, nothing faulting, and every final state
    has every unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.Kernel.Hand

end
-- ==== Proof.K.Frame.lean ====
/-
  The argument arrays at the end of the run: each walks back through the boundaries to the launch memory, since a region
  changes only the arrays of its output windows and the host operations only their own results. Hence the frame claim.
-/
import proofs.«160551_j79027398246801_1_alg».proof.Proof.Gen.Kernel.Launch
import proofs.«160551_j79027398246801_1_alg».proof.Proof.Gen.Kernel.Skeleton
import proofs.«160551_j79027398246801_1_alg».proof.Proof.Gen.Kernel.Points
import proofs.«160551_j79027398246801_1_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- `main_arg0` ends as launched: no host operation writes it and no region stores to it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_in m c 4 rfl
    _ = W2 m c (Proc.devRef .tc main_arg0) := W3_of_ne m c main_arg0 (by decide)
    _ = W1 m c (Proc.devRef .tc main_arg0) := W2_in m c 0 rfl
    _ = m ((c : Thread nD τ).loc main_arg0) := W1_of m c main_arg0 (by decide)

/-- `main_arg1` ends as launched: no host operation writes it and no region stores to it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_in m c 1 rfl
    _ = m ((c : Thread nD τ).loc main_arg1) := W1_of m c main_arg1 (by decide)

/-- `main_arg2` ends as launched: no host operation writes it and no region stores to it. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_in m c 2 rfl
    _ = m ((c : Thread nD τ).loc main_arg2) := W1_of m c main_arg2 (by decide)

/-- `main_arg3` ends as launched: no host operation writes it and no region stores to it. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of m c main_arg3 (by decide)

/-- `main_arg4` ends as launched: no host operation writes it and no region stores to it. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_in m c 4 rfl
    _ = m ((c : Thread nD τ).loc main_arg4) := W1_of m c main_arg4 (by decide)

/-- `main_arg5` ends as launched: no host operation writes it and no region stores to it. -/
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = m ((c : Thread nD τ).loc main_arg5) := W1_of m c main_arg5 (by decide)

/-- `main_arg6` ends as launched: no host operation writes it and no region stores to it. -/
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_in m c 3 rfl
    _ = W2 m c (Proc.devRef .tc main_arg6) := W3_of_ne m c main_arg6 (by decide)
    _ = W1 m c (Proc.devRef .tc main_arg6) := W2_of_ne m c main_arg6 (by decide)
    _ = m ((c : Thread nD τ).loc main_arg6) := W1_of m c main_arg6 (by decide)

/-- From any memory with zero counters every weakly fair execution terminates, nothing faulting, with the seven argument
    arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

end Cert.Kernel.Hand

end
-- ==== Proof.KI.Reg0.lean ====
/-
  The first kernel region (the row normalisation and the projection to q, k, v), at any contents `V` of the core's buffers
  when the region is entered: each window's block at a grid point, what the body leaves in the three output windows'
  staging buffers as functions of the five input blocks, the region's proof data, and the body's obligation at every point.
-/
import proofs.«160551_j79027398246801_1_alg».proof.Proof.Gen.KernelIdeal.Launch
import proofs.«160551_j79027398246801_1_alg».proof.Proof.Gen.KernelIdeal.Skeleton
import proofs.«160551_j79027398246801_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The input windows' buffers hold their blocks -/

/-- Input window 0's current staging buffer holds its block at every point, fetched there or not, for any proof data
    whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

/-- The whole block of the rows, of the three projected outputs. -/
abbrev r0_rows : Rect S1x512x1024 := Rect.unit (s := S1x512x1024) ![0, 0, 0] S1x512x1024.size inb_S1x512x1024_S1x512x1024_0_0_0
/-- The whole scale and shift vectors. -/
abbrev r0_vec : Rect S1024 := Rect.unit (s := S1024) ![0] S1024.size inb_S1024_S1024_0
/-- The whole projection matrix. -/
abbrev r0_mat : Rect S1024x3072 := Rect.unit (s := S1024x3072) ![0, 0] S1024x3072.size inb_S1024x3072_S1024x3072_0_0
/-- The whole bias vector. -/
abbrev r0_bias : Rect S3072 := Rect.unit (s := S3072) ![0] S3072.size inb_S3072_S3072_0

/-- The offsets of each access are zero. -/
theorem hz0_1 : (![0] : Fin 1 → Nat) = fun _ => 0 := funext fun a => by fin_cases a <;> rfl
theorem hz0_2 : (![0, 0] : Fin 2 → Nat) = fun _ => 0 := funext fun a => by fin_cases a <;> rfl
theorem hz0_3 : (![0, 0, 0] : Fin 3 → Nat) = fun _ => 0 := funext fun a => by fin_cases a <;> rfl

/-- One store of the whole block covers it. -/
theorem cover0 (p : Vec F S1x512x1024 .bf16) (y : S1x512x1024.Idx) :
    ∃ pc ∈ ([⟨r0_rows, p⟩] : List (View.Piece (Elt F) S1x512x1024 .bf16)), y ∈ pc.1.set :=
  ⟨_, List.mem_singleton_self _, View.mem_set_unit_zero hz0_3 inb_S1x512x1024_S1x512x1024_0_0_0 y⟩

/-! ## What the body leaves in each output window's buffer, as the canon of its one store over the loaded blocks -/

def can0_5 (x0 : Vec F S1x512x1024 .f32) (x1 x2 : Vec F S1024 .f32) (x3 : Vec F S1024x3072 .bf16) (x4 : Vec F S3072 .f32) :
    Vec F S1x512x1024 .bf16 :=
  View.canon [⟨r0_rows, k0_pay4 (View.ld x0 r0_rows) (View.ld x1 r0_vec) (View.ld x2 r0_vec) (View.ld x3 r0_mat) (View.ld x4 r0_bias)⟩]
def can0_6 (x0 : Vec F S1x512x1024 .f32) (x1 x2 : Vec F S1024 .f32) (x3 : Vec F S1024x3072 .bf16) (x4 : Vec F S3072 .f32) :
    Vec F S1x512x1024 .bf16 :=
  View.canon [⟨r0_rows, k0_pay1 (k0_pay5 (View.ld x0 r0_rows) (View.ld x1 r0_vec) (View.ld x2 r0_vec) (View.ld x3 r0_mat) (View.ld x4 r0_bias))⟩]
def can0_7 (x0 : Vec F S1x512x1024 .f32) (x1 x2 : Vec F S1024 .f32) (x3 : Vec F S1024x3072 .bf16) (x4 : Vec F S3072 .f32) :
    Vec F S1x512x1024 .bf16 :=
  View.canon [⟨r0_rows, k0_pay2 (k0_pay3 (View.ld x0 r0_rows) (View.ld x1 r0_vec) (View.ld x2 r0_vec) (View.ld x3 r0_mat) (View.ld x4 r0_bias))⟩]

/-- The block of `q` the body stores: the first 1024 columns of the projected rows. -/
def out0_5 (x0 : Vec F S1x512x1024 .f32) (x1 x2 : Vec F S1024 .f32) (x3 : Vec F S1024x3072 .bf16) (x4 : Vec F S3072 .f32) :
    Vec F S1x512x1024 .bf16 := k0_pay4 x0 x1 x2 x3 x4
/-- The block of `k`: the middle 1024 columns. -/
def out0_6 (x0 : Vec F S1x512x1024 .f32) (x1 x2 : Vec F S1024 .f32) (x3 : Vec F S1024x3072 .bf16) (x4 : Vec F S3072 .f32) :
    Vec F S1x512x1024 .bf16 := k0_pay1 (k0_pay5 x0 x1 x2 x3 x4)
/-- The block of `v`: the last 1024 columns. -/
def out0_7 (x0 : Vec F S1x512x1024 .f32) (x1 x2 : Vec F S1024 .f32) (x3 : Vec F S1024x3072 .bf16) (x4 : Vec F S3072 .f32) :
    Vec F S1x512x1024 .bf16 := k0_pay2 (k0_pay3 x0 x1 x2 x3 x4)

/-! ## The canon of the one whole-block store is its payload at the whole blocks -/

theorem can0_5_eq (x0 : Vec F S1x512x1024 .f32) (x1 x2 : Vec F S1024 .f32) (x3 : Vec F S1024x3072 .bf16) (x4 : Vec F S3072 .f32) :
    can0_5 x0 x1 x2 x3 x4 = out0_5 x0 x1 x2 x3 x4 := by
  unfold can0_5 out0_5
  rw [View.canon_unit_zero hz0_3]
  simp only [View.ld_unit_zero (S := S1x512x1024) hz0_3, View.ld_unit_zero (S := S1024) hz0_1,
    View.ld_unit_zero (S := S1024x3072) hz0_2, View.ld_unit_zero (S := S3072) hz0_1]

theorem can0_6_eq (x0 : Vec F S1x512x1024 .f32) (x1 x2 : Vec F S1024 .f32) (x3 : Vec F S1024x3072 .bf16) (x4 : Vec F S3072 .f32) :
    can0_6 x0 x1 x2 x3 x4 = out0_6 x0 x1 x2 x3 x4 := by
  unfold can0_6 out0_6
  rw [View.canon_unit_zero hz0_3]
  simp only [View.ld_unit_zero (S := S1x512x1024) hz0_3, View.ld_unit_zero (S := S1024) hz0_1,
    View.ld_unit_zero (S := S1024x3072) hz0_2, View.ld_unit_zero (S := S3072) hz0_1]

theorem can0_7_eq (x0 : Vec F S1x512x1024 .f32) (x1 x2 : Vec F S1024 .f32) (x3 : Vec F S1024x3072 .bf16) (x4 : Vec F S3072 .f32) :
    can0_7 x0 x1 x2 x3 x4 = out0_7 x0 x1 x2 x3 x4 := by
  unfold can0_7 out0_7
  rw [View.canon_unit_zero hz0_3]
  simp only [View.ld_unit_zero (S := S1x512x1024) hz0_3, View.ld_unit_zero (S := S1024) hz0_1,
    View.ld_unit_zero (S := S1024x3072) hz0_2, View.ld_unit_zero (S := S3072) hz0_1]

/-! ## The body's triple -/

set_option maxHeartbeats 1000000 in
/-- The kernel body on whole staging memrefs, the inputs' at read contents `x0 … x4` and the outputs' at anything, runs to
    the continuation holding the inputs' as they were and each output's at its function of the inputs': the printed
    function and its printed part are their skeletons of memory operations, run operation by operation. -/
theorem sound_kernel0 (c : Dev nD) (E : Set ℕ) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x512x1024 .bf16) (harg9 : arg9.IsWhole)
    (x0 : Vec F S1x512x1024 .f32) (x1 x2 : Vec F S1024 .f32) (x3 : Vec F S1024x3072 .bf16) (x4 : Vec F S3072 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out0_5 x0 x1 x2 x3 x4) ∗ owns (c : Thread nD τ) arg8 fullShare (out0_6 x0 x1 x2 x3 x4) ∗ owns (c : Thread nD τ) arg9 fullShare (out0_7 x0 x1 x2 x3 x4)) -∗ K ⟨⟩))
      ⊢ wp frame (wpE (defs₀ (F := F)) Variants.none c none) E (cc0_kernel i arg2 harg2 arg3 harg3 arg4 harg4 arg5 harg5 arg6 harg6 arg7 harg7 arg8 harg8 arg9 harg9) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (View.read_writes_eq_canon _ _ _ (cover0 _)).trans (can0_5_eq _ _ _ _ _)
  isplitl [H6]
  · iexists _; isplitr
    swap; · iexact H6
    ipureintro
    exact (View.read_writes_eq_canon _ _ _ (cover0 _)).trans (can0_6_eq _ _ _ _ _)
  iexists _; isplitr
  swap; · iexact H7
  ipureintro
  exact (View.read_writes_eq_canon _ _ _ (cover0 _)).trans (can0_7_eq _ _ _ _ _)

/-! ## The pipeline's proof data -/

/-- The region's proof data on core `c`: the arrays as the region finds them; after the body at point `t` each input's
    buffer at its block and each output's at its function of the input blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`: the invariant, the core's debt, and the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body's obligation at every point of the region. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The second kernel region (per batch, kᵀ v accumulated over the two halves of the 4096 rows in a scratch buffer the kernel
  keeps between grid points, and stored to the output at the second half), at any contents `V` of the core's buffers when
  the region is entered: each window's block at a grid point, what the scratch holds after each point, what the output
  window's staging buffer holds, the invariant that carries the scratch from point to point, the region's proof data, and
  the body's obligation at every point.
-/
import proofs.«160551_j79027398246801_1_alg».proof.Proof.Gen.KernelIdeal.Launch
import proofs.«160551_j79027398246801_1_alg».proof.Proof.Gen.KernelIdeal.Skeleton
import proofs.«160551_j79027398246801_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator, a whole scoped buffer of the kernel's own. -/
abbrev scM1 : Memref sig .tc .vmem S1024x1024 .f32 := Memref.whole cc1_scratch0

/-- The scratch after the first half of a batch: zeroed, then this half's product added. -/
def accFirst (x0 x1 : Vec F S1x2048x1024 .bf16) : Vec F S1024x1024 .f32 := k1_pay2 x0 x1 (k1_pay1 (F := F))
/-- The scratch after the second half: this half's product added to what the first half left. -/
def accNext (x0 x1 : Vec F S1x2048x1024 .bf16) (xs : Vec F S1024x1024 .f32) : Vec F S1024x1024 .f32 := k1_pay2 x0 x1 xs
/-- The output block stored at the second half: the accumulator, reshaped. -/
def kvOut (acc : Vec F S1024x1024 .f32) : Vec F S1x1024x1024 .bf16 := k1_pay3 acc

/-- What the scratch holds after the body at position `n`: at an even position (the first half of a batch) the reset and
    this half's product, at an odd one this half's product over what the position before left. -/
def accAt (c : Dev nD) : (n : ℕ) → n < cfg1.N → Vec F S1024x1024 .f32
  | 0, hn => accFirst (iblk1 V c 0 ⟨0, hn⟩) (iblk1 V c 1 ⟨0, hn⟩)
  | n + 1, hn =>
    if (n + 1) % 2 = 0 then accFirst (iblk1 V c 0 ⟨n + 1, hn⟩) (iblk1 V c 1 ⟨n + 1, hn⟩)
    else accNext (iblk1 V c 0 ⟨n + 1, hn⟩) (iblk1 V c 1 ⟨n + 1, hn⟩) (accAt c n (Nat.lt_of_succ_lt hn))

theorem accAt_first (c : Dev nD) (t : Fin cfg1.N) (h : t.val % 2 = 0) :
    accAt V c t.val t.isLt = accFirst (iblk1 V c 0 t) (iblk1 V c 1 t) := by
  obtain ⟨n, hn⟩ := t
  cases n with
  | zero => rfl
  | succ n => exact if_pos h

theorem accAt_next (c : Dev nD) (t : Fin cfg1.N) (h : t.val % 2 = 1) :
    accAt V c t.val t.isLt = accNext (iblk1 V c 0 t) (iblk1 V c 1 t)
      (accAt V c (t.val - 1) (Nat.lt_of_le_of_lt (Nat.sub_le _ _) t.isLt)) := by
  obtain ⟨n, hn⟩ := t
  cases n with
  | zero => exact absurd (show 0 % 2 = 1 from h) (by decide)
  | succ n => exact (if_neg (fun h0 => by dsimp only at h h0; omega)).trans rfl

/-! ## The two conditions of the body, and where the output window is idle -/

/-- The first conditional's condition, from the grid coordinates: the half is the first of its batch. -/
abbrev cond1_0 (i : grid1.Coords) : Prop := (Scalar.cmpi .ne (Scalar.extui (Scalar.cmpi .eq (BitVec.ofNat 32 (i 1).val) 0#32)) 0#32) = 1#1
/-- It holds at the even positions. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional's condition: the half is the second of its batch. -/
abbrev cond1_1 (i : grid1.Coords) : Prop := k1_cond2 i = 1#1
/-- It holds at the odd positions. -/
theorem hcond1_1 : ∀ t : Fin cfg1.N, cond1_1 (grid1.coords t) ↔ t.val % 2 = 1 :=
  (by decide +kernel : ∀ t : Fin grid1.N, cond1_1 (grid1.coords t) ↔ t.val % 2 = 1)

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At the first half of a batch the output window is idle (nothing is stored into it), -/
theorem idleAt1_2_first : ∀ t : Fin cfg1.N, cond1_0 (grid1.coords t) → ¬cond1_1 (grid1.coords t) → cfg1.idle 2 (grid1.coords t) = true := by decide +kernel
/-- and its block is not written back there. -/
theorem noFlush1_2_first : ∀ t : Fin cfg1.N, cond1_0 (grid1.coords t) → ¬cond1_1 (grid1.coords t) → (cfg1.win 2).flush t = false := by decide +kernel
/-- At the second half it is live. -/
theorem liveAt1_2_second : ∀ t : Fin cfg1.N, ¬cond1_0 (grid1.coords t) → cond1_1 (grid1.coords t) → cfg1.idle 2 (grid1.coords t) = false := by decide +kernel

/-! ## The invariant -/

/-- The scoped buffers that neither a window of this region stages nor the kernel uses as its scratch (the staging
    buffers of the other two regions), each whole at some contents. -/
def others1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg7_1), ((c : Thread nD τ).loc cc0_stg7_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg4_1), ((c : Thread nD τ).loc cc2_stg4_1) ↦{fullShare} f)
      ∗ (∃ f : Buf (Elt F) ((c : Thread nD τ).loc cc2_stg5_0), ((c : Thread nD τ).loc cc2_stg5_0) ↦{fullShare} f)
      ∗ (∃ f : Buf (Elt F) ((c : Thread nD τ).loc cc2_stg5_1), ((c : Thread nD τ).loc cc2_stg5_1) ↦{fullShare} f))

/-- What the launch hands the region, with the scratch taken out in front: the scratch at some contents, the other
    scoped buffers at some contents each, the generator register at some state (`∗` is commutative and associative). -/
theorem PhiA1_eq (c : Dev nD) :
    (Pipeline.ΦA spec1 c : sProp 𝕄)
      = iprop((∃ d, owns (c : Thread nD τ) scM1 fullShare d) ∗ others1 c ∗ (∃ r, prngReg c r)) := by
  unfold Pipeline.ΦA others1; rw [scopedRest1_eq]; simp only [scM1, owns_whole]
  refine BI.equiv_iff.mp ⟨?_, ?_⟩
  · show (_ : sProp 𝕄) ⊢ _
    iintro ⟨⟨H1, H2, H3, H4, H5, H6, H7, H8, H9, H10, H11, H12, H13, H14, H15, H16, H17, H18, H19, H20, H21, H22, H23⟩, Hr⟩
    iframe
  · show (_ : sProp 𝕄) ⊢ _
    iintro ⟨H13, ⟨H1, H2, H3, H4, H5, H6, H7, H8, H9, H10, H11, H12, H14, H15, H16, H17, H18, H19, H20, H21, H22, H23⟩, Hr⟩
    iframe

/-- The region invariant before position `n`: before the first point what the launch hands the region (every scoped buffer no
    window stages at anything, the generator register at some state); afterwards the same with the scratch at what the
    position before left in it. -/
def Phi1 (c : Dev nD) : (n : ℕ) → n ≤ cfg1.N → sProp 𝕄
  | 0, _ => Pipeline.ΦA spec1 c
  | n + 1, hn => iprop(owns (c : Thread nD τ) scM1 fullShare (accAt V c n hn) ∗ others1 c ∗ (∃ r, prngReg c r))

theorem Phi1_zero' (c : Dev nD) (n : ℕ) (h : n ≤ cfg1.N) (hz : n = 0) : Phi1 V c n h = Pipeline.ΦA spec1 c := by
  subst hz; rfl

/-- After point `n` (before point `n + 1`): the scratch at that point's contents. -/
theorem Phi1_succ (c : Dev nD) (n : ℕ) (hn : n < cfg1.N) :
    Phi1 V c (n + 1) hn = iprop(owns (c : Thread nD τ) scM1 fullShare (accAt V c n hn) ∗ others1 c ∗ (∃ r, prngReg c r)) := rfl

/-- Before a point that is not the first: the scratch at what the point before left. -/
theorem Phi1_pos (c : Dev nD) (n : ℕ) (h : n ≤ cfg1.N) (hz : n ≠ 0) :
    Phi1 V c n h = iprop(owns (c : Thread nD τ) scM1 fullShare (accAt V c (n - 1) (by omega)) ∗ others1 c ∗ (∃ r, prngReg c r)) := by
  cases n with
  | zero => exact absurd rfl hz
  | succ n => rfl

/-- The region's proof data on core `c`: the arrays as the region finds them; after the body at point `t` each input's
    buffer at its block and the output's at the accumulator reshaped (consulted only at the points that store it); the
    invariant carrying the scratch. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => kvOut (accAt V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = kvOut (accAt V c t.val t.isLt) := by dsimp only [dat1]

/-- Before the first point the invariant is what the launch hands the region. -/
theorem Phi1_zero (c : Dev nD) : (dat1 V c).Φ 0 = Pipeline.ΦA spec1 c := rfl

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-- After any point but the first the invariant gives back what the launch handed over: the scratch's named contents are
    forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨HS, Hr⟩
  isplitl [HS]
  · iexists _; iexact HS
  iexact Hr

/-- After the last point the invariant gives that back: the scratch's named contents are forgotten. -/
theorem hout1 (c : Dev nD) : (dat1 V c).Φ (Fin.last cfg1.N) ⊢ Pipeline.ΦA spec1 c :=
  Phi1_out V c _ (by rw [Fin.val_last]; have : cfg1.N = 8 := N_1; omega)

/-! ## The inputs' buffers hold their blocks -/

/-- An input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- The zero offsets of a whole-buffer access, as the constant function. -/
theorem zeroOffs1_2 : (![0, 0] : Fin 2 → Nat) = fun _ => 0 := funext fun a => by fin_cases a <;> rfl
theorem zeroOffs1_3 : (![0, 0, 0] : Fin 3 → Nat) = fun _ => 0 := funext fun a => by fin_cases a <;> rfl

/-! ## The body's two runs -/

set_option maxHeartbeats 1000000 in
/-- THE FIRST HALF of a batch (the first conditional taken, the second not): on whole memrefs, the inputs' at `x0`, `x1`,
    the output's at `xi`, the scratch at anything, the body runs to the continuation holding the inputs' and the output's as
    they were and the scratch at the reset plus this half's product. The scratch is stored whole twice, so it reads back the
    later store; that store's payload adds to what a load after the first store read, which is the stored zeros. -/
theorem run1_first (c : Dev nD) (E : Set ℕ) (i : grid1.Coords)
    (arg2 : Memref sig .tc .vmem S1x2048x1024 .bf16) (harg2 : arg2.IsWhole) (arg3 : Memref sig .tc .vmem S1x2048x1024 .bf16) (harg3 : arg3.IsWhole)
    (arg4 : Memref sig .tc .vmem S1x1024x1024 .bf16) (harg4 : arg4.IsWhole) (arg5 : Memref sig .tc .vmem S1024x1024 .f32) (harg5 : arg5.IsWhole)
    (hc0 : cond1_0 i) (hc1 : ¬cond1_1 i)
    (x0 x1 : Vec F S1x2048x1024 .bf16) (xi : Vec F S1x1024x1024 .bf16) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (accFirst x0 x1)) -∗ K ⟨⟩))
      ⊢ wp frame (wpE (defs₀ (F := F)) Variants.none c none) E (cc1_kv_kernel i arg2 harg2 arg3 harg3 arg4 harg4 arg5 harg5) K := by
  simp only [cc1_kv_kernel_eq_skeleton]; unfold cc1_kv_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  rw [View.read_writes_eq_canon _ _ _ (fun y => ⟨_, List.Mem.head _, View.mem_set_unit_zero zeroOffs1_2 inb_S1024x1024_S1024x1024_0_0 y⟩)]
  rw [View.canon_cons_unit_zero (S := S1024x1024) zeroOffs1_2]
  sl_unfold_words
  rw [View.readCov_unit_zero (S := S1024x1024) _ zeroOffs1_2]
  unfold accFirst
  simp only [View.readAt_eq_ld, harg2.read_unread, harg3.read_unread, View.ld_unit_zero (S := S1x2048x1024) zeroOffs1_3]

set_option maxHeartbeats 1000000 in
/-- THE SECOND HALF of a batch (the first conditional not taken, the second taken): on whole memrefs, the inputs' at `x0`,
    `x1`, the output's at anything, the scratch at `xs`, the body runs to the continuation holding the inputs' as they
    were, the scratch at `xs` plus this half's product, and the output's at that sum reshaped. The load before the store
    reads `xs`; the load after it reads what was stored. -/
theorem run1_second (c : Dev nD) (E : Set ℕ) (i : grid1.Coords)
    (arg2 : Memref sig .tc .vmem S1x2048x1024 .bf16) (harg2 : arg2.IsWhole) (arg3 : Memref sig .tc .vmem S1x2048x1024 .bf16) (harg3 : arg3.IsWhole)
    (arg4 : Memref sig .tc .vmem S1x1024x1024 .bf16) (harg4 : arg4.IsWhole) (arg5 : Memref sig .tc .vmem S1024x1024 .f32) (harg5 : arg5.IsWhole)
    (hc0 : ¬cond1_0 i) (hc1 : cond1_1 i)
    (x0 x1 : Vec F S1x2048x1024 .bf16) (xs : Vec F S1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (kvOut (accNext x0 x1 xs))
            ∗ owns (c : Thread nD τ) arg5 fullShare (accNext x0 x1 xs)) -∗ K ⟨⟩))
      ⊢ wp frame (wpE (defs₀ (F := F)) Variants.none c none) E (cc1_kv_kernel i arg2 harg2 arg3 harg3 arg4 harg4 arg5 harg5) K := by
  simp only [cc1_kv_kernel_eq_skeleton]; unfold cc1_kv_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (fun y => ⟨_, List.Mem.head _, View.mem_set_unit_zero zeroOffs1_3 inb_S1x1024x1024_S1x1024x1024_0_0_0 y⟩)]
    rw [View.canon_unit_zero (S := S1x1024x1024) zeroOffs1_3]
    sl_unfold_words
    rw [View.readCov_unit_zero (S := S1024x1024) _ zeroOffs1_2]
    unfold kvOut accNext
    simp only [View.readAt_eq_ld, harg2.read_unread, harg3.read_unread, harg5.read_unread, View.ld_unit_zero (S := S1x2048x1024) zeroOffs1_3, View.ld_unit_zero (S := S1024x1024) zeroOffs1_2]
  iexists _; isplitr
  swap; · iexact HS
  ipureintro
  sl_unfold_words
  rw [View.read_writes_eq_canon _ _ _ (fun y => ⟨_, List.Mem.head _, View.mem_set_unit_zero zeroOffs1_2 inb_S1024x1024_S1024x1024_0_0 y⟩)]
  rw [View.canon_unit_zero (S := S1024x1024) zeroOffs1_2]
  unfold accNext
  simp only [View.readAt_eq_ld, harg2.read_unread, harg3.read_unread, harg5.read_unread, View.ld_unit_zero (S := S1x2048x1024) zeroOffs1_3, View.ld_unit_zero (S := S1024x1024) zeroOffs1_2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the position's parity says which half of its batch the
    point is. At a first half the output window is idle and not written back, so its buffer is handed back as found, and
    the invariant takes the scratch back at the reset plus this half's product (whatever it held: anything at the very
    first point, the previous batch's sum afterwards). At a second half the invariant hands the body the scratch at what
    the first half left, and takes it back with this half's product added; the output's buffer holds that sum, reshaped.
    The other scoped buffers, the generator register and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 8 := lt_of_lt_of_eq t.isLt (show cfg1.N = 8 from N_1)
  by_cases h0 : t.val % 2 = 0
  · have h1 : ¬t.val % 2 = 1 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2_first t hc0 hc1) (noFlush1_2_first t hc0 hc1)]
    rw [accAt_first V c t h0]
    by_cases hz : t.val = 0
    · rw [Phi1_castSucc V c t, Phi1_zero' V c _ _ hz, PhiA1_eq]
      iintro ⟨⟨HS, Hoth, Hg⟩, Ho, ⟨%d0, H0⟩, ⟨%d1, H1⟩, ⟨%d2, H2⟩⟩
      iapply (run1_first c Set.univ (grid1.coords t) _ _ _ _ _ _ _ _ hc0 hc1 (iblk1 V c 0 t) (iblk1 V c 1 t) ((dat1 V c).before 2 t d2) _)
      isplitl [H0]; · iexact H0
      isplitl [H1]; · iexact H1
      isplitl [H2]; · iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexists _; iexact H2
    · rw [Phi1_castSucc V c t, Phi1_pos V c _ _ hz]
      iintro ⟨⟨HS, Hoth, Hg⟩, Ho, ⟨%d0, H0⟩, ⟨%d1, H1⟩, ⟨%d2, H2⟩⟩
      iapply (run1_first c Set.univ (grid1.coords t) _ _ _ _ _ _ _ _ hc0 hc1 (iblk1 V c 0 t) (iblk1 V c 1 t) ((dat1 V c).before 2 t d2) _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexists _; iexact H2
  · have h1 : t.val % 2 = 1 := by omega
    have hc0 : ¬cond1_0 (grid1.coords t) := fun h => h0 ((hcond1_0 t).mp h)
    have hc1 : cond1_1 (grid1.coords t) := (hcond1_1 t).mpr h1
    have hz : t.val ≠ 0 := by omega
    rw [show (dat1 V c).leavesExact 2 t = owns (c : Thread nD τ) (st1_2 t) fullShare ((dat1 V c).after 2 t) from by
      unfold Dat.leavesExact; rw [liveAt1_2_second t hc0 hc1], after1_2]
    rw [accAt_next V c t h1]
    rw [Phi1_castSucc V c t, Phi1_pos V c _ _ hz]
    iintro ⟨⟨HS, Hoth, Hg⟩, Ho, ⟨%d0, H0⟩, ⟨%d1, H1⟩, ⟨%d2, H2⟩⟩
    iapply (run1_second c Set.univ (grid1.coords t) _ _ _ _ _ _ _ _ hc0 hc1 (iblk1 V c 0 t) (iblk1 V c 1 t)
      (accAt V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    iexact H2

/-- The body's obligation at every point of the region. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  The third kernel region (a row of q times the per-batch matrix, scaled, projected, its bias and the row of x added), at
  any contents `V` of the core's buffers when the region is entered: each window's block at a grid point, what the body
  leaves in the output window's staging buffer as a function of the five input blocks, the region's proof data, and the
  body's obligation at every point.
-/
import proofs.«160551_j79027398246801_1_alg».proof.Proof.Gen.KernelIdeal.Launch
import proofs.«160551_j79027398246801_1_alg».proof.Proof.Gen.KernelIdeal.Skeleton
import proofs.«160551_j79027398246801_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place: unfetched, the block index has not moved; the
    window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place: unfetched, the block index has not moved; the
    window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s and whose body leaves the block in place: unfetched, the block index has not moved; the
    window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is `V`'s and whose body leaves the block in place: unfetched, the block index has not moved; the
    window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is `V`'s and whose body leaves the block in place: unfetched, the block index has not moved; the
    window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store go through the whole buffer, the unit rectangle at zero offsets -/

abbrev r2_a : Rect S1x512x1024 := Rect.unit (s := S1x512x1024) ![0, 0, 0] S1x512x1024.size inb_S1x512x1024_S1x512x1024_0_0_0
abbrev r2_b : Rect S1x1024x1024 := Rect.unit (s := S1x1024x1024) ![0, 0, 0] S1x1024x1024.size inb_S1x1024x1024_S1x1024x1024_0_0_0
abbrev r2_c : Rect S1024x1024 := Rect.unit (s := S1024x1024) ![0, 0] S1024x1024.size inb_S1024x1024_S1024x1024_0_0
abbrev r2_d : Rect S1024 := Rect.unit (s := S1024) ![0] S1024.size inb_S1024_S1024_0

/-- The offsets of those rectangles are zero on every axis. -/
theorem zero_off3 : (![0, 0, 0] : Fin 3 → Nat) = fun _ => 0 := funext fun a => by fin_cases a <;> rfl
theorem zero_off2 : (![0, 0] : Fin 2 → Nat) = fun _ => 0 := funext fun a => by fin_cases a <;> rfl
theorem zero_off1 : (![0] : Fin 1 → Nat) = fun _ => 0 := funext fun a => by fin_cases a <;> rfl

/-- The block of the result the body stores. -/
def out2_5 (x0 : Vec F S1x512x1024 .bf16) (x1 : Vec F S1x1024x1024 .bf16) (x2 : Vec F S1024x1024 .bf16) (x3 : Vec F S1024 .f32)
    (x4 : Vec F S1x512x1024 .f32) : Vec F S1x512x1024 .f32 := k2_pay1 x0 x1 x2 x3 x4

/-- The output window's staging buffer after the body as its one store leaves it: the payload of the five loads,
    through the whole-buffer rectangle. -/
def out2_5_pieces (x0 : Vec F S1x512x1024 .bf16) (x1 : Vec F S1x1024x1024 .bf16) (x2 : Vec F S1024x1024 .bf16) (x3 : Vec F S1024 .f32)
    (x4 : Vec F S1x512x1024 .f32) : Vec F S1x512x1024 .f32 :=
  View.canon [⟨r2_a, k2_pay1 (View.ld x0 r2_a) (View.ld x1 r2_b) (View.ld x2 r2_c) (View.ld x3 r2_d) (View.ld x4 r2_a)⟩]

/-- One store over the whole buffer leaves its payload, and a load of the whole buffer reads the contents: the
    buffer after the body is the payload of the five input blocks. -/
theorem out2_5_pieces_eq (x0 : Vec F S1x512x1024 .bf16) (x1 : Vec F S1x1024x1024 .bf16) (x2 : Vec F S1024x1024 .bf16) (x3 : Vec F S1024 .f32)
    (x4 : Vec F S1x512x1024 .f32) : out2_5_pieces x0 x1 x2 x3 x4 = out2_5 x0 x1 x2 x3 x4 := by
  unfold out2_5_pieces out2_5
  rw [View.canon_unit_zero zero_off3]
  simp only [View.ld_unit_zero (S := S1x512x1024) zero_off3, View.ld_unit_zero (S := S1x1024x1024) zero_off3,
    View.ld_unit_zero (S := S1024x1024) zero_off2, View.ld_unit_zero (S := S1024) zero_off1]

/-- The one store covers the buffer. -/
theorem cover2_5 (p0 : Vec F S1x512x1024 .f32) (y : S1x512x1024.Idx) :
    ∃ pc ∈ ([⟨r2_a, p0⟩] : List (View.Piece (Elt F) S1x512x1024 .f32)), y ∈ pc.1.set :=
  ⟨_, List.mem_singleton_self _, View.mem_set_unit_zero zero_off3 inb_S1x512x1024_S1x512x1024_0_0_0 y⟩

/-! ## The body's triple -/

set_option maxHeartbeats 1000000 in
/-- The kernel body on whole staging memrefs, the inputs' at read contents `x0 … x4` and the output's at anything, runs
    to the continuation holding the inputs' as they were and the output's at `out2_5` of the inputs'. The body also
    loads the output's buffer before it stores it; the loaded value is not used. -/
theorem sound_kernel2 (c : Dev nD) (E : Set ℕ) (i : grid2.Coords)
    (arg2 : Memref sig .tc .vmem S1x512x1024 .bf16) (harg2 : arg2.IsWhole) (arg3 : Memref sig .tc .vmem S1x1024x1024 .bf16) (harg3 : arg3.IsWhole)
    (arg4 : Memref sig .tc .vmem S1024x1024 .bf16) (harg4 : arg4.IsWhole) (arg5 : Memref sig .tc .vmem S1024 .f32) (harg5 : arg5.IsWhole)
    (arg6 : Memref sig .tc .vmem S1x512x1024 .f32) (harg6 : arg6.IsWhole) (arg7 : Memref sig .tc .vmem S1x512x1024 .f32) (harg7 : arg7.IsWhole)
    (x0 : Vec F S1x512x1024 .bf16) (x1 : Vec F S1x1024x1024 .bf16) (x2 : Vec F S1024x1024 .bf16) (x3 : Vec F S1024 .f32) (x4 : Vec F S1x512x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out2_5 x0 x1 x2 x3 x4)) -∗ K ⟨⟩))
      ⊢ wp frame (wpE (defs₀ (F := F)) Variants.none c none) E (cc2_kernel i arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover2_5 _)).trans (out2_5_pieces_eq _ _ _ _ _)

/-- The region's proof data on core `c`: the arrays as the region finds them; after the body at point `t` each input's
    buffer at its block and the output's at its function of the input blocks; nothing carried between points. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, what the core owes, and the six windows' current staging
    buffers one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation at every point of the region. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The whole program as a run of segments: the four host operations, then the three kernel regions. The contents of the
  core's buffers at each boundary are a fold from the launch memory (after the host operations; then, region by region, the
  region's arrays at what its write-backs leave and every other buffer as it was); every region's proof data is taken at
  its entry contents; and every weakly fair execution terminates with every unscoped buffer at the last boundary's contents.
-/
import proofs.«160551_j79027398246801_1_alg».proof.Proof.Gen.KernelIdeal.Launch
import proofs.«160551_j79027398246801_1_alg».proof.Proof.Gen.KernelIdeal.Skeleton
import proofs.«160551_j79027398246801_1_alg».proof.Proof.Gen.KernelIdeal.Points
import proofs.«160551_j79027398246801_1_alg».proof.Proof.KI.Reg0
import proofs.«160551_j79027398246801_1_alg».proof.Proof.KI.Reg1
import proofs.«160551_j79027398246801_1_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the host operations (the first region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b

/-- At region 0's exit: its arrays at what the pipeline's write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- An array the region only reads ends as it was entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline's write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- An array the region only reads ends as it was entered. -/
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (V2 m) c).arrAt_in w hw _).trans (A_eq1 (V2 m) c w))
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At region 2's exit: its arrays at what the pipeline's write-backs leave, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- An array the region only reads ends as it was entered. -/
theorem W4_in (c : Dev nD) (w : Fin cfg2.W) (hw : (cfg2.win w).isOut = false) :
    W4 m c (Proc.devRef .tc (Pipeline.arrRef spec2 w)) = W3 m c (Proc.devRef .tc (Pipeline.arrRef spec2 w)) :=
  (W4_arr m c w).trans (((dat2 (V3 m) c).arrAt_in w hw _).trans (A_eq2 (V3 m) c w))
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- No host operation writes a buffer outside its own results. -/
theorem W1_of (c : Dev nD) (b : Ref sig .tc) (hb : b ∉ ([main_v0, main_v1, main_v2, main_v3] : List (Ref sig .tc))) :
    W1 m c (Proc.devRef .tc b) = m ((c : Thread nD τ).loc b) :=
  by
  refine StableHlo.after_of_forall_not_mem (b := Proc.devRef .tc b) _ _ (List.forall_iff_forall_mem.mp ?_)
  simp only [hostOps0, List.Forall, StableHlo.unary_writes, Finset.mem_singleton]
  refine ⟨?_, ?_, ?_, ?_⟩ <;> exact StableHlo.devRef_ne_of_ne (fun e => hb (by rw [e]; simp))

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the register at some state. -/
abbrev Tₙ (c : Dev nD) : sProp 𝕄 := iprop(StableHlo.held (c : Thread nD τ) (Pipeline.ucRefs τ sig) (W4 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered with every unscoped buffer at `W1`, left with them at `W2`. Its arrays
    are split out of the unscoped buffers and put back at what the write-backs leave; the generator register goes into
    the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W2`, left with them at `W3`. Its arrays
    are split out of the unscoped buffers and put back at what the write-backs leave; the generator register goes into
    the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W3`, left with them at `W4`. Its arrays
    are split out of the unscoped buffers and put back at what the write-backs leave; the generator register goes into
    the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m), .region (reg1 m), .region (reg2 m) ]
theorem main_run (c : Dev nD) : main (F := F) c = Pipeline.Seg.run (segs m) := (main_chain c).trans (by chain_rfl)

set_option backward.isDefEq.respectTransparency.types false in
/-- From any memory with zero counters every weakly fair execution terminates, nothing faulting, and every final state
    has every unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.KernelIdeal.Hand

end
-- ==== Proof.KI.Frame.lean ====
/-
  The argument arrays at the end of the run: each walks back through the boundaries to the launch memory, since a region
  changes only the arrays of its output windows and the host operations only their own results. Hence the frame claim.
-/
import proofs.«160551_j79027398246801_1_alg».proof.Proof.Gen.KernelIdeal.Launch
import proofs.«160551_j79027398246801_1_alg».proof.Proof.Gen.KernelIdeal.Skeleton
import proofs.«160551_j79027398246801_1_alg».proof.Proof.Gen.KernelIdeal.Points
import proofs.«160551_j79027398246801_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- `main_arg0` ends as launched: no host operation writes it and no region stores to it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_in m c 4 rfl
    _ = W2 m c (Proc.devRef .tc main_arg0) := W3_of_ne m c main_arg0 (by decide)
    _ = W1 m c (Proc.devRef .tc main_arg0) := W2_in m c 0 rfl
    _ = m ((c : Thread nD τ).loc main_arg0) := W1_of m c main_arg0 (by decide)

/-- `main_arg1` ends as launched: no host operation writes it and no region stores to it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_in m c 1 rfl
    _ = m ((c : Thread nD τ).loc main_arg1) := W1_of m c main_arg1 (by decide)

/-- `main_arg2` ends as launched: no host operation writes it and no region stores to it. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_in m c 2 rfl
    _ = m ((c : Thread nD τ).loc main_arg2) := W1_of m c main_arg2 (by decide)

/-- `main_arg3` ends as launched: no host operation writes it and no region stores to it. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of m c main_arg3 (by decide)

/-- `main_arg4` ends as launched: no host operation writes it and no region stores to it. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_in m c 4 rfl
    _ = m ((c : Thread nD τ).loc main_arg4) := W1_of m c main_arg4 (by decide)

/-- `main_arg5` ends as launched: no host operation writes it and no region stores to it. -/
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = m ((c : Thread nD τ).loc main_arg5) := W1_of m c main_arg5 (by decide)

/-- `main_arg6` ends as launched: no host operation writes it and no region stores to it. -/
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_in m c 3 rfl
    _ = W2 m c (Proc.devRef .tc main_arg6) := W3_of_ne m c main_arg6 (by decide)
    _ = W1 m c (Proc.devRef .tc main_arg6) := W2_of_ne m c main_arg6 (by decide)
    _ = m ((c : Thread nD τ).loc main_arg6) := W1_of m c main_arg6 (by decide)

/-- From any memory with zero counters every weakly fair execution terminates, nothing faulting, with the seven argument
    arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

end Cert.KernelIdeal.Hand

end
-- ==== Proof.Spec.lean ====
/-
  The mathematics both programs compute, as functions of coordinates over the extended reals, with no program imported.

  A row of `x` is normalised (its mean and mean square deviation taken over the 1024 columns, the deviation scaled by the
  inverse square root of the variance plus a small constant, then by a weight and shifted by a bias), projected to 3072
  columns by a matrix given transposed and a bias, and cut into three blocks of 1024 columns `q`, `k`, `v`. One side then
  forms, per batch, the 1024 by 1024 matrix `kᵀ v` summed over the 4096 rows, multiplies each row of `q` by it and scales
  by `1/32`; the other forms the 4096 by 4096 matrix `q kᵀ` divided by `sqrt 1024` and multiplies it by `v`. A last
  projection, a bias and the row of `x` itself are added, in one order on one side and the other order on the other.
  For finite inputs the two agree (`kernelArr_eq_refArr`): the double sum over rows and columns is reassociated, which on
  the extended reals needs every term finite.
-/
import Idealize.ShloMosaic.PureOps.Ideal
import Idealize.ShloMosaic.Lib.ValueIdx

noncomputable section

open scoped BigOperators

namespace Cert.Spec

open Idealize.ShloMosaic Idealize.ShloMosaic.ValueIdx

/-- The row length 1024 as the single-precision literal both sides divide by. -/
abbrev cN : EReal := Ideal.ofBits .f32 0x44800000#32
/-- The small constant added to the variance. -/
abbrev cEps : EReal := Ideal.ofBits .f32 0x3727C5AC#32
/-- The literal `1/32` one side multiplies by. -/
abbrev cScale : EReal := Ideal.ofBits .f32 0x3D000000#32

/-! ## Arrays read by coordinates -/

abbrev cur1 {n : Nat} (X : (⟨1, ![n]⟩ : Shape).Idx → EReal) : Fin n → EReal := fun a => X (ix1 a)
abbrev cur2 {n0 n1 : Nat} (X : (⟨2, ![n0, n1]⟩ : Shape).Idx → EReal) : Fin n0 → Fin n1 → EReal := fun a b => X (ix2 a b)
abbrev cur3 {n0 n1 n2 : Nat} (X : (⟨3, ![n0, n1, n2]⟩ : Shape).Idx → EReal) : Fin n0 → Fin n1 → Fin n2 → EReal :=
  fun a b c => X (ix3 a b c)
/-- A matrix read transposed. -/
def tr {n0 n1 : Nat} (X : (⟨2, ![n0, n1]⟩ : Shape).Idx → EReal) : (⟨2, ![n1, n0]⟩ : Shape).Idx → EReal :=
  fun i => X (ix2 (i 1) (i 0))

/-! ## By coordinates -/

/-- The mean of row `(b, t)`. -/
def mean (x : Fin 4 → Fin 4096 → Fin 1024 → EReal) (b : Fin 4) (t : Fin 4096) : EReal :=
  Ideal.div (∑ j : Fin 1024, x b t j) cN
/-- The mean square deviation of row `(b, t)`. -/
def var (x : Fin 4 → Fin 4096 → Fin 1024 → EReal) (b : Fin 4) (t : Fin 4096) : EReal :=
  Ideal.div (∑ j : Fin 1024, (x b t j - mean x b t) * (x b t j - mean x b t)) cN
/-- The normalised row, scaled and shifted. -/
def ln (x : Fin 4 → Fin 4096 → Fin 1024 → EReal) (w bb : Fin 1024 → EReal) (b : Fin 4) (t : Fin 4096) (c : Fin 1024) : EReal :=
  (x b t c - mean x b t) * Ideal.rsqrt (var x b t + cEps) * w c + bb c
/-- The projection to 3072 columns, the matrix given transposed (`WT c o`). -/
def qkv (x : Fin 4 → Fin 4096 → Fin 1024 → EReal) (w bb : Fin 1024 → EReal) (WT : Fin 1024 → Fin 3072 → EReal)
    (B : Fin 3072 → EReal) (b : Fin 4) (t : Fin 4096) (o : Fin 3072) : EReal :=
  (∑ c : Fin 1024, ln x w bb b t c * WT c o) + B o
/-- Its three blocks of 1024 columns. -/
def qS (x : Fin 4 → Fin 4096 → Fin 1024 → EReal) (w bb : Fin 1024 → EReal) (WT : Fin 1024 → Fin 3072 → EReal)
    (B : Fin 3072 → EReal) (b : Fin 4) (t : Fin 4096) (c : Fin 1024) : EReal :=
  qkv x w bb WT B b t ⟨c.val, Nat.lt_of_lt_of_le c.isLt (by decide)⟩
def kS (x : Fin 4 → Fin 4096 → Fin 1024 → EReal) (w bb : Fin 1024 → EReal) (WT : Fin 1024 → Fin 3072 → EReal)
    (B : Fin 3072 → EReal) (b : Fin 4) (t : Fin 4096) (c : Fin 1024) : EReal :=
  qkv x w bb WT B b t ⟨1024 + c.val, by have := c.isLt; omega⟩
def vS (x : Fin 4 → Fin 4096 → Fin 1024 → EReal) (w bb : Fin 1024 → EReal) (WT : Fin 1024 → Fin 3072 → EReal)
    (B : Fin 3072 → EReal) (b : Fin 4) (t : Fin 4096) (c : Fin 1024) : EReal :=
  qkv x w bb WT B b t ⟨2048 + c.val, by have := c.isLt; omega⟩
/-- `kᵀ v` of batch `b`, summed over all 4096 rows. -/
def kvK (k v : Fin 4 → Fin 4096 → Fin 1024 → EReal) (b : Fin 4) (c1 c2 : Fin 1024) : EReal :=
  ∑ s : Fin 4096, k b s c1 * v b s c2
/-- A row of `q` times that matrix, scaled by the literal `1/32`. -/
def oK (q : Fin 4 → Fin 4096 → Fin 1024 → EReal) (kv : Fin 4 → Fin 1024 → Fin 1024 → EReal) (b : Fin 4) (t : Fin 4096)
    (c2 : Fin 1024) : EReal :=
  (∑ c1 : Fin 1024, q b t c1 * kv b c1 c2) * cScale
/-- `q kᵀ` divided by `sqrt 1024`, times `v`. -/
def oR (q k v : Fin 4 → Fin 4096 → Fin 1024 → EReal) (b : Fin 4) (t : Fin 4096) (c2 : Fin 1024) : EReal :=
  ∑ s : Fin 4096, Ideal.div (∑ c : Fin 1024, q b t c * k b s c) (Ideal.sqrt cN) * v b s c2
/-- The last projection (matrix given transposed), its bias, then the row of `x`. -/
def outK (o x : Fin 4 → Fin 4096 → Fin 1024 → EReal) (PWT : Fin 1024 → Fin 1024 → EReal) (PB : Fin 1024 → EReal)
    (b : Fin 4) (t : Fin 4096) (j : Fin 1024) : EReal :=
  ((∑ c : Fin 1024, o b t c * PWT c j) + PB j) + x b t j
/-- The same with the row of `x` first. -/
def outR (o x : Fin 4 → Fin 4096 → Fin 1024 → EReal) (PWT : Fin 1024 → Fin 1024 → EReal) (PB : Fin 1024 → EReal)
    (b : Fin 4) (t : Fin 4096) (j : Fin 1024) : EReal :=
  x b t j + ((∑ c : Fin 1024, o b t c * PWT c j) + PB j)

/-! ## As whole arrays -/

abbrev A3 : Type := (⟨3, ![4, 4096, 1024]⟩ : Shape).Idx → EReal
abbrev AKV : Type := (⟨3, ![4, 1024, 1024]⟩ : Shape).Idx → EReal
abbrev A1 (n : Nat) : Type := (⟨1, ![n]⟩ : Shape).Idx → EReal
abbrev A2 (a b : Nat) : Type := (⟨2, ![a, b]⟩ : Shape).Idx → EReal

def qArr (X : A3) (NW NB : A1 1024) (WT : A2 1024 3072) (QB : A1 3072) : A3 :=
  fun i => qS (cur3 X) (cur1 NW) (cur1 NB) (cur2 WT) (cur1 QB) (i 0) (i 1) (i 2)
def kArr (X : A3) (NW NB : A1 1024) (WT : A2 1024 3072) (QB : A1 3072) : A3 :=
  fun i => kS (cur3 X) (cur1 NW) (cur1 NB) (cur2 WT) (cur1 QB) (i 0) (i 1) (i 2)
def vArr (X : A3) (NW NB : A1 1024) (WT : A2 1024 3072) (QB : A1 3072) : A3 :=
  fun i => vS (cur3 X) (cur1 NW) (cur1 NB) (cur2 WT) (cur1 QB) (i 0) (i 1) (i 2)
def kvArr (K V : A3) : AKV := fun i => kvK (cur3 K) (cur3 V) (i 0) (i 1) (i 2)
def outArr (Q : A3) (KV : AKV) (PWT : A2 1024 1024) (PB : A1 1024) (X : A3) : A3 :=
  fun i => outK (oK (cur3 Q) (cur3 KV)) (cur3 X) (cur2 PWT) (cur1 PB) (i 0) (i 1) (i 2)

/-- What the side that forms `kᵀ v` first ends with, from the seven inputs. -/
def kernelArr (X : A3) (NW NB : A1 1024) (QW : A2 3072 1024) (QB : A1 3072) (PW : A2 1024 1024) (PB : A1 1024) : A3 :=
  outArr (qArr X NW NB (tr QW) QB) (kvArr (kArr X NW NB (tr QW) QB) (vArr X NW NB (tr QW) QB)) (tr PW) PB X
/-- What the side that forms `q kᵀ` first ends with. -/
def refArr (X : A3) (NW NB : A1 1024) (QW : A2 3072 1024) (QB : A1 3072) (PW : A2 1024 1024) (PB : A1 1024) : A3 :=
  fun i => outR (oR (cur3 (qArr X NW NB (tr QW) QB)) (cur3 (kArr X NW NB (tr QW) QB)) (cur3 (vArr X NW NB (tr QW) QB)))
    (cur3 X) (cur2 (tr PW)) (cur1 PB) (i 0) (i 1) (i 2)

end Cert.Spec

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.KI.Val0.lean ====
/-
  The first region's three output arrays after the region, at the ideal values, as the specification's functions of the
  arrays the region is entered with: block `t` of each is the body's stored block at point `t`, and the 32 blocks tile the array.

  One block of 512 rows is normalised row by row (mean and mean square deviation over the 1024 columns, the inverse square
  root of the deviation plus a small constant, a weight and a shift), multiplied by the 1024 by 3072 matrix, the bias row
  added; the three outputs are the three groups of 1024 columns of these projected rows. Read at an index, every stage is
  the specification's function of coordinates; the block of point `t = 8·b + s` lies at batch `b`, rows `512·s … 512·s + 511`.
-/
import proofs.«160551_j79027398246801_1_alg».proof.Proof.Gen.KernelIdeal.Launch
import proofs.«160551_j79027398246801_1_alg».proof.Proof.Gen.KernelIdeal.Skeleton
import proofs.«160551_j79027398246801_1_alg».proof.Proof.Gen.KernelIdeal.Points
import proofs.«160551_j79027398246801_1_alg».proof.Proof.KI.Reg0
import proofs.«160551_j79027398246801_1_alg».proof.Proof.Spec
import proofs.«160551_j79027398246801_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

namespace Val0

/-! ## The projected rows of one block, read at an index -/

/-- The block with its leading unit axis dropped: 512 rows of 1024 columns. -/
def rows (x0 : Vec Ideal S1x512x1024 .f32) : FVec Ideal S512x1024 .f32 :=
  shapeCast S512x1024 x0 shapeCasts_S1x512x1024_S512x1024

theorem rows_apply (x0 : Vec Ideal S1x512x1024 .f32) (r : Fin 512) (j : Fin 1024) :
    rows x0 (ix2 r j) = x0 (ix3 (0 : Fin 1) r j) :=
  shapeCast_1ab_ab_apply x0 _ r j

/-- A vector of 512 row values as a column `[512, 1]`, read at `(r, 0)`. -/
theorem column_apply {α : Type} (v : (⟨1, ![512]⟩ : Shape).Idx → α) (h : (⟨1, ![512]⟩ : Shape).ShapeCasts ⟨2, ![512, 1]⟩)
    (r : Fin 512) (u : Fin 1) : shapeCast ⟨2, ![512, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A column `[512, 1]` spread over 1024 columns reads, at `(r, j)`, the column's entry of row `r`. -/
theorem spread_apply {α : Type} (v : (⟨2, ![512, 1]⟩ : Shape).Idx → α) (h : (⟨2, ![512, 1]⟩ : Shape).Broadcasts ⟨2, ![512, 1024]⟩)
    (r : Fin 512) (j : Fin 1024) : broadcastTo ⟨2, ![512, 1024]⟩ v h (ix2 r j) = v (ix2 r (0 : Fin 1)) := by
  refine broadcastTo_apply v h (ix2 r j) (ix2 r (0 : Fin 1)) fun ax => ?_
  match ax with
  | ⟨0, _⟩ => rfl
  | ⟨1, _⟩ => rfl

/-- The sum of a row of a `[512, 1024]` block. -/
theorem rowsum_apply (v : FVec Ideal S512x1024 .f32) (h : S512x1024.Reduces [1] S512) (hφ : FKind.Formats .f32)
    (hacc : (0x00000000#32 : BitVec 32) = FKind.add.neutral .f32 hφ) (r : Fin 512) :
    multiReduction .add [1] S512 v 0x00000000#32 h hφ hacc (ix1 r) = ∑ j : Fin 1024, v (ix2 r j) := by
  refine (Ideal.multiReduction_add_single v _ h hφ hacc (ix1 r)).trans ?_
  refine Finset.sum_congr rfl fun j _ => congrArg v ?_
  funext a
  match a with
  | ⟨0, _⟩ => rfl
  | ⟨1, _⟩ => rfl

/-- The inverse square root of a block, read at an index. -/
theorem rsqrt_apply {s : Shape} {φ : FTy} (a : FVec Ideal s φ) (i : s.Idx) : rsqrt a i = Ideal.rsqrt (a i) := rfl

/-- The column of row means: each row's sum divided by the literal 1024. -/
def meanCol (x0 : Vec Ideal S1x512x1024 .f32) : FVec Ideal S512x1 .f32 :=
  divf (shapeCast S512x1 (multiReduction .add [1] S512 (rows x0) 0x00000000#32 reduces_S512x1024_S512 (.inl rfl) rfl) shapeCasts_S512_S512x1)
    (broadcast S512x1 (Scalar.ofBits .f32 0x44800000#32))

/-- The rows with their means taken off. -/
def centred (x0 : Vec Ideal S1x512x1024 .f32) : FVec Ideal S512x1024 .f32 :=
  subf (rows x0) (broadcastTo S512x1024 (meanCol x0) broadcasts_S512x1_S512x1024)

/-- The column of inverse deviations: one over the square root of the mean square deviation plus the small constant. -/
def rstdCol (x0 : Vec Ideal S1x512x1024 .f32) : FVec Ideal S512x1 .f32 :=
  rsqrt (addf
    (divf (shapeCast S512x1 (multiReduction .add [1] S512 (mulf (centred x0) (centred x0)) 0x00000000#32 reduces_S512x1024_S512 (.inl rfl) rfl) shapeCasts_S512_S512x1)
      (broadcast S512x1 (Scalar.ofBits .f32 0x44800000#32)))
    (broadcast S512x1 (Scalar.ofBits .f32 0x3727C5AC#32)))

/-- The normalised rows, scaled by the weights and shifted. -/
def normed (x0 : Vec Ideal S1x512x1024 .f32) (x1 x2 : Vec Ideal S1024 .f32) : FVec Ideal S512x1024 .f32 :=
  addf
    (mulf (mulf (centred x0) (broadcastTo S512x1024 (rstdCol x0) broadcasts_S512x1_S512x1024))
      (broadcastTo S512x1024 (shapeCast S1x1024 x1 shapeCasts_S1024_S1x1024 : FVec Ideal S1x1024 .f32) broadcasts_S1x1024_S512x1024))
    (broadcastTo S512x1024 (shapeCast S1x1024 x2 shapeCasts_S1024_S1x1024 : FVec Ideal S1x1024 .f32) broadcasts_S1x1024_S512x1024)

/-- The projected rows are the normalised rows (narrowed) times the matrix, plus the bias row. -/
theorem pay3_eq (x0 : Vec Ideal S1x512x1024 .f32) (x1 x2 : Vec Ideal S1024 .f32) (x3 : Vec Ideal S1024x3072 .bf16)
    (x4 : Vec Ideal S3072 .f32) :
    k0_pay3 x0 x1 x2 x3 x4
      = addf (matmul dot_S512x1024_S1024x3072_S512x3072_1_0_0_1_n_n none (truncf .bf16 (normed x0 x1 x2) bitsLt_bf16_f32)
            (shapeCast S1024x3072 x3 shapeCasts_S1024x3072_S1024x3072 : FVec Ideal S1024x3072 .bf16) (constant S512x3072 .f32 0x00000000#32))
          (broadcastTo S512x3072 (shapeCast S1x3072 x4 shapeCasts_S3072_S1x3072 : FVec Ideal S1x3072 .f32) broadcasts_S1x3072_S512x3072) := rfl

section AtRow

variable (x0 : Vec Ideal S1x512x1024 .f32) (x1 x2 : Vec Ideal S1024 .f32) (x3 : Vec Ideal S1024x3072 .bf16) (x4 : Vec Ideal S3072 .f32)
variable (X : Fin 4 → Fin 4096 → Fin 1024 → EReal) (w bb : Fin 1024 → EReal) (WT : Fin 1024 → Fin 3072 → EReal) (B : Fin 3072 → EReal)
variable (b : Fin 4) (t : Fin 4096) (r : Fin 512)

/-- Row `r` of the block being row `(b, t)` of `X`, its mean is the specification's. -/
theorem meanCol_spec (hx : ∀ j : Fin 1024, x0 (ix3 (0 : Fin 1) r j) = X b t j) (u : Fin 1) :
    meanCol x0 (ix2 r u) = Cert.Spec.mean X b t := by
  unfold meanCol Cert.Spec.mean
  refine (divf_apply _ _ _).trans ?_
  refine congrArg₂ Ideal.div ?_ rfl
  refine (column_apply _ _ r u).trans ?_
  refine (rowsum_apply _ _ _ _ r).trans ?_
  exact Finset.sum_congr rfl fun j _ => (rows_apply x0 r j).trans (hx j)

theorem centred_spec (hx : ∀ j : Fin 1024, x0 (ix3 (0 : Fin 1) r j) = X b t j) (j : Fin 1024) :
    centred x0 (ix2 r j) = X b t j - Cert.Spec.mean X b t := by
  unfold centred
  refine (subf_apply _ _ _).trans ?_
  exact congrArg₂ (· - ·) ((rows_apply x0 r j).trans (hx j))
    ((spread_apply _ _ r j).trans (meanCol_spec x0 X b t r hx 0))

theorem rstdCol_spec (hx : ∀ j : Fin 1024, x0 (ix3 (0 : Fin 1) r j) = X b t j) (u : Fin 1) :
    rstdCol x0 (ix2 r u) = Ideal.rsqrt (Cert.Spec.var X b t + Cert.Spec.cEps) := by
  unfold rstdCol Cert.Spec.var
  refine (rsqrt_apply _ _).trans ?_
  refine congrArg Ideal.rsqrt ?_
  refine (addf_apply _ _ _).trans ?_
  refine congrArg₂ (· + ·) ?_ rfl
  refine (divf_apply _ _ _).trans ?_
  refine congrArg₂ Ideal.div ?_ rfl
  refine (column_apply _ _ r u).trans ?_
  refine (rowsum_apply _ _ _ _ r).trans ?_
  refine Finset.sum_congr rfl fun j _ => ?_
  refine (mulf_apply _ _ _).trans ?_
  exact congrArg₂ (· * ·) (centred_spec x0 X b t r hx j) (centred_spec x0 X b t r hx j)

theorem normed_spec (hx : ∀ j : Fin 1024, x0 (ix3 (0 : Fin 1) r j) = X b t j) (hw : ∀ j : Fin 1024, x1 (ix1 j) = w j)
    (hb : ∀ j : Fin 1024, x2 (ix1 j) = bb j) (j : Fin 1024) :
    normed x0 x1 x2 (ix2 r j) = Cert.Spec.ln X w bb b t j := by
  unfold normed Cert.Spec.ln
  refine (addf_apply _ _ _).trans ?_
  refine congrArg₂ (· + ·) ?_ ?_
  · refine (mulf_apply _ _ _).trans ?_
    refine congrArg₂ (· * ·) ?_ ?_
    · refine (mulf_apply _ _ _).trans ?_
      exact congrArg₂ (· * ·) (centred_spec x0 X b t r hx j) ((spread_apply _ _ r j).trans (rstdCol_spec x0 X b t r hx 0))
    · exact ((broadcastTo_1b_ab_apply _ _ r j).trans (shapeCast_a_1a_apply x1 _ 0 j)).trans (hw j)
  · exact ((broadcastTo_1b_ab_apply _ _ r j).trans (shapeCast_a_1a_apply x2 _ 0 j)).trans (hb j)

/-- The projected rows at `(r, o)`: the specification's projection of row `(b, t)` at column `o`. -/
theorem pay3_spec (hx : ∀ j : Fin 1024, x0 (ix3 (0 : Fin 1) r j) = X b t j) (hw : ∀ j : Fin 1024, x1 (ix1 j) = w j)
    (hb : ∀ j : Fin 1024, x2 (ix1 j) = bb j) (hW : ∀ (j : Fin 1024) (o : Fin 3072), x3 (ix2 j o) = WT j o)
    (hB : ∀ o : Fin 3072, x4 (ix1 o) = B o) (o : Fin 3072) :
    k0_pay3 x0 x1 x2 x3 x4 (ix2 r o) = Cert.Spec.qkv X w bb WT B b t o := by
  rw [pay3_eq]
  unfold Cert.Spec.qkv
  refine (addf_apply _ _ _).trans ?_
  refine congrArg₂ (· + ·) ?_ ?_
  · show matmul (DotDims.plain 512 1024 3072) none _ _ _ (ix2 r o) = _
    refine (PlainDot.matmul_zero_apply 512 1024 3072 none _ _ (ix2 r o)).trans ?_
    refine Finset.sum_congr rfl fun j _ => ?_
    refine congrArg₂ (· * ·) ?_ ?_
    · exact (truncf_apply (ψ := .bf16) (normed x0 x1 x2) bitsLt_bf16_f32 _).trans (normed_spec x0 x1 x2 X w bb b t r hx hw hb j)
    · exact (congrFun (shapeCast_self x3 _) _).trans (hW j o)
  · exact ((broadcastTo_1b_ab_apply _ _ r o).trans (shapeCast_a_1a_apply x4 _ 0 o)).trans (hB o)

end AtRow

section Outputs

variable (x0 : Vec Ideal S1x512x1024 .f32) (x1 x2 : Vec Ideal S1024 .f32) (x3 : Vec Ideal S1024x3072 .bf16) (x4 : Vec Ideal S3072 .f32)
variable (X : Fin 4 → Fin 4096 → Fin 1024 → EReal) (w bb : Fin 1024 → EReal) (WT : Fin 1024 → Fin 3072 → EReal) (B : Fin 3072 → EReal)
variable (b : Fin 4) (t : Fin 4096) (r : Fin 512)

/-- The stored block of `q` at `(u, r, j)`: column `j` of the projection of row `(b, t)`. -/
theorem out5_spec (hx : ∀ j : Fin 1024, x0 (ix3 (0 : Fin 1) r j) = X b t j) (hw : ∀ j : Fin 1024, x1 (ix1 j) = w j)
    (hb : ∀ j : Fin 1024, x2 (ix1 j) = bb j) (hW : ∀ (j : Fin 1024) (o : Fin 3072), x3 (ix2 j o) = WT j o)
    (hB : ∀ o : Fin 3072, x4 (ix1 o) = B o) (u : Fin 1) (j : Fin 1024) :
    out0_5 x0 x1 x2 x3 x4 (ix3 u r j) = Cert.Spec.qS X w bb WT B b t j := by
  unfold out0_5 k0_pay4 Cert.Spec.qS
  refine (shapeCast_ab_1ab_apply _ _ u r j).trans ?_
  refine (truncf_apply (ψ := .bf16) _ bitsLt_bf16_f32 _).trans ?_
  refine (slice2_axis1_apply 0 _ _ r j (⟨j.val, by have := j.isLt; omega⟩ : Fin 3072) (Nat.zero_add _).symm).trans ?_
  exact pay3_spec x0 x1 x2 x3 x4 X w bb WT B b t r hx hw hb hW hB _

/-- The stored block of `k` at `(u, r, j)`: column `1024 + j`. -/
theorem out6_spec (hx : ∀ j : Fin 1024, x0 (ix3 (0 : Fin 1) r j) = X b t j) (hw : ∀ j : Fin 1024, x1 (ix1 j) = w j)
    (hb : ∀ j : Fin 1024, x2 (ix1 j) = bb j) (hW : ∀ (j : Fin 1024) (o : Fin 3072), x3 (ix2 j o) = WT j o)
    (hB : ∀ o : Fin 3072, x4 (ix1 o) = B o) (u : Fin 1) (j : Fin 1024) :
    out0_6 x0 x1 x2 x3 x4 (ix3 u r j) = Cert.Spec.kS X w bb WT B b t j := by
  unfold out0_6 k0_pay1 k0_pay5 Cert.Spec.kS
  refine (shapeCast_ab_1ab_apply _ _ u r j).trans ?_
  refine (truncf_apply (ψ := .bf16) _ bitsLt_bf16_f32 _).trans ?_
  refine (slice2_axis1_apply 1024 _ _ r j (⟨1024 + j.val, by have := j.isLt; omega⟩ : Fin 3072) rfl).trans ?_
  exact pay3_spec x0 x1 x2 x3 x4 X w bb WT B b t r hx hw hb hW hB _

/-- The stored block of `v` at `(u, r, j)`: column `2048 + j`. -/
theorem out7_spec (hx : ∀ j : Fin 1024, x0 (ix3 (0 : Fin 1) r j) = X b t j) (hw : ∀ j : Fin 1024, x1 (ix1 j) = w j)
    (hb : ∀ j : Fin 1024, x2 (ix1 j) = bb j) (hW : ∀ (j : Fin 1024) (o : Fin 3072), x3 (ix2 j o) = WT j o)
    (hB : ∀ o : Fin 3072, x4 (ix1 o) = B o) (u : Fin 1) (j : Fin 1024) :
    out0_7 x0 x1 x2 x3 x4 (ix3 u r j) = Cert.Spec.vS X w bb WT B b t j := by
  unfold out0_7 k0_pay2 Cert.Spec.vS
  refine (shapeCast_ab_1ab_apply _ _ u r j).trans ?_
  refine (truncf_apply (ψ := .bf16) _ bitsLt_bf16_f32 _).trans ?_
  refine (slice2_axis1_apply 2048 _ _ r j (⟨2048 + j.val, by have := j.isLt; omega⟩ : Fin 3072) rfl).trans ?_
  exact pay3_spec x0 x1 x2 x3 x4 X w bb WT B b t r hx hw hb hW hB _

end Outputs

/-! ## From blocks to the arrays -/

/-- The printed index maps, decided over the grid: at point `t = 8·b + tt` the rows' window and the three output windows sit
    at block `(b, tt, 0)`, and the scale, the shift, the matrix and the bias are staged whole. -/
theorem index_facts : ∀ t : Fin cfg0.N,
    (win0_0.index t (0 : Fin 3) = t.val / 8 ∧ win0_0.index t (1 : Fin 3) = t.val % 8 ∧ win0_0.index t (2 : Fin 3) = 0)
    ∧ win0_1.index t (0 : Fin 1) = 0 ∧ win0_2.index t (0 : Fin 1) = 0
    ∧ (win0_3.index t (0 : Fin 2) = 0 ∧ win0_3.index t (1 : Fin 2) = 0) ∧ win0_4.index t (0 : Fin 1) = 0
    ∧ (win0_5.index t (0 : Fin 3) = t.val / 8 ∧ win0_5.index t (1 : Fin 3) = t.val % 8 ∧ win0_5.index t (2 : Fin 3) = 0)
    ∧ (win0_6.index t (0 : Fin 3) = t.val / 8 ∧ win0_6.index t (1 : Fin 3) = t.val % 8 ∧ win0_6.index t (2 : Fin 3) = 0)
    ∧ (win0_7.index t (0 : Fin 3) = t.val / 8 ∧ win0_7.index t (1 : Fin 3) = t.val % 8 ∧ win0_7.index t (2 : Fin 3) = 0) :=
  (by decide +kernel : ∀ t : Fin grid0.N, _)

/-- The rows' block at point `t`, at `(0, r, j)`, is the array `x` at row `512·(t % 8) + r` of batch `t / 8`. -/
theorem iblk0_0_apply (c : Dev nD) (t : Fin cfg0.N) (r : Fin 512) (j : Fin 1024) (i : S4x4096x1024.Idx)
    (h0 : (i 0).val = t.val / 8) (h1 : (i 1).val = 512 * (t.val % 8) + r.val) (h2 : (i 2).val = j.val) :
    (iblk0 V c 0 t : Vec Ideal S1x512x1024 .f32) (ix3 (0 : Fin 1) r j) = V c main_arg0 i := by
  obtain ⟨⟨a0, a1, a2⟩, -⟩ := index_facts t
  unfold iblk0
  rw [View.read_apply]
  show V c main_arg0 (((cfg0.win 0).blk t).view.emb (ix3 (0 : Fin 1) r j)) = V c main_arg0 i
  refine congrArg (V c main_arg0) (funext fun a => Fin.ext ?_)
  match a with
  | ⟨0, _⟩ => show win0_0.index t (0 : Fin 3) * 1 + 1 * 0 = (i 0).val; omega
  | ⟨1, _⟩ => show win0_0.index t (1 : Fin 3) * 512 + 1 * r.val = (i 1).val; omega
  | ⟨2, _⟩ => show win0_0.index t (2 : Fin 3) * 1024 + 1 * j.val = (i 2).val; omega

/-- The scale is staged whole. -/
theorem iblk0_1_apply (c : Dev nD) (t : Fin cfg0.N) (j : Fin 1024) :
    (iblk0 V c 1 t : Vec Ideal S1024 .f32) (ix1 j) = V c main_arg1 (ix1 j) := by
  obtain ⟨-, a0, -⟩ := index_facts t
  unfold iblk0
  rw [View.read_apply]
  show V c main_arg1 (((cfg0.win 1).blk t).view.emb (ix1 j)) = V c main_arg1 (ix1 j)
  refine congrArg (V c main_arg1) (funext fun a => Fin.ext ?_)
  match a with
  | ⟨0, _⟩ => show win0_1.index t (0 : Fin 1) * 1024 + 1 * j.val = j.val; omega

/-- The shift is staged whole. -/
theorem iblk0_2_apply (c : Dev nD) (t : Fin cfg0.N) (j : Fin 1024) :
    (iblk0 V c 2 t : Vec Ideal S1024 .f32) (ix1 j) = V c main_arg2 (ix1 j) := by
  obtain ⟨-, -, a0, -⟩ := index_facts t
  unfold iblk0
  rw [View.read_apply]
  show V c main_arg2 (((cfg0.win 2).blk t).view.emb (ix1 j)) = V c main_arg2 (ix1 j)
  refine congrArg (V c main_arg2) (funext fun a => Fin.ext ?_)
  match a with
  | ⟨0, _⟩ => show win0_2.index t (0 : Fin 1) * 1024 + 1 * j.val = j.val; omega

/-- The matrix is staged whole. -/
theorem iblk0_3_apply (c : Dev nD) (t : Fin cfg0.N) (j : Fin 1024) (o : Fin 3072) :
    (iblk0 V c 3 t : Vec Ideal S1024x3072 .bf16) (ix2 j o) = V c main_v1 (ix2 j o) := by
  obtain ⟨-, -, -, ⟨a0, a1⟩, -⟩ := index_facts t
  unfold iblk0
  rw [View.read_apply]
  show V c main_v1 (((cfg0.win 3).blk t).view.emb (ix2 j o)) = V c main_v1 (ix2 j o)
  refine congrArg (V c main_v1) (funext fun a => Fin.ext ?_)
  match a with
  | ⟨0, _⟩ => show win0_3.index t (0 : Fin 2) * 1024 + 1 * j.val = j.val; omega
  | ⟨1, _⟩ => show win0_3.index t (1 : Fin 2) * 3072 + 1 * o.val = o.val; omega

/-- The bias is staged whole. -/
theorem iblk0_4_apply (c : Dev nD) (t : Fin cfg0.N) (o : Fin 3072) :
    (iblk0 V c 4 t : Vec Ideal S3072 .f32) (ix1 o) = V c main_arg4 (ix1 o) := by
  obtain ⟨-, -, -, -, a0, -⟩ := index_facts t
  unfold iblk0
  rw [View.read_apply]
  show V c main_arg4 (((cfg0.win 4).blk t).view.emb (ix1 o)) = V c main_arg4 (ix1 o)
  refine congrArg (V c main_arg4) (funext fun a => Fin.ext ?_)
  match a with
  | ⟨0, _⟩ => show win0_4.index t (0 : Fin 1) * 3072 + 1 * o.val = o.val; omega

/-! ### The array q -/

/-- What point `t` leaves of `q` at `(u, r, j)` is the specification's `q` at the array index under it: batch `t / 8`,
    row `512·(t % 8) + r`, column `j`. -/
theorem qblk_apply (c : Dev nD) (t : Fin cfg0.N) (u : Fin 1) (r : Fin 512) (j : Fin 1024) (i : S4x4096x1024.Idx)
    (h0 : (i 0).val = t.val / 8) (h1 : (i 1).val = 512 * (t.val % 8) + r.val) (h2 : (i 2).val = j.val) :
    out0_5 (iblk0 V c 0 t) (iblk0 V c 1 t) (iblk0 V c 2 t) (iblk0 V c 3 t) (iblk0 V c 4 t) (ix3 u r j)
      = Cert.Spec.qArr (V c main_arg0) (V c main_arg1) (V c main_arg2) (V c main_v1) (V c main_arg4) i := by
  have e2 : (i 2 : Fin 1024) = j := Fin.ext h2
  refine (out5_spec (iblk0 V c 0 t) (iblk0 V c 1 t) (iblk0 V c 2 t) (iblk0 V c 3 t) (iblk0 V c 4 t)
    (Cert.Spec.cur3 (n0 := 4) (n1 := 4096) (n2 := 1024) (V c main_arg0)) (Cert.Spec.cur1 (n := 1024) (V c main_arg1))
    (Cert.Spec.cur1 (n := 1024) (V c main_arg2)) (Cert.Spec.cur2 (n0 := 1024) (n1 := 3072) (V c main_v1))
    (Cert.Spec.cur1 (n := 3072) (V c main_arg4)) (i 0) (i 1) r
    (fun j' => iblk0_0_apply V c t r j' (ix3 (i 0 : Fin 4) (i 1 : Fin 4096) j') h0 h1 rfl)
    (fun j' => iblk0_1_apply V c t j') (fun j' => iblk0_2_apply V c t j') (fun j' o => iblk0_3_apply V c t j' o)
    (fun o => iblk0_4_apply V c t o) u j).trans ?_
  unfold Cert.Spec.qArr
  exact congrArg (Cert.Spec.qS _ _ _ _ _ (i 0) (i 1)) e2.symm

/-- What point `t` writes back of `q` is block `t` of the specification's array. -/
theorem qflushed_eq (c : Dev nD) (t : Fin cfg0.N) :
    (dat0 V c).flushed 5 t = ((cfg0.win 5).blk t).view.read (Elt Ideal)
      (Cert.Spec.qArr (V c main_arg0) (V c main_arg1) (V c main_arg2) (V c main_v1) (V c main_arg4)) := by
  show (cfg0.win 5).cut (grid0.coords t) ((dat0 V c).after 5 t) = _
  rw [after0_5]
  obtain ⟨-, -, -, -, -, ⟨e0, e1, e2⟩, -⟩ := index_facts t
  funext y
  have hy0 : (y 0).val < 1 := (y 0).isLt
  have hy1 : (y 1).val < 512 := (y 1).isLt
  have hy2 : (y 2).val < 1024 := (y 2).isLt
  have hxinj : (cfg0.win 5).xinj (grid0.coords t) y
      = ix3 (⟨(y 0).val, hy0⟩ : Fin 1) (⟨(y 1).val, hy1⟩ : Fin 512) (⟨(y 2).val, hy2⟩ : Fin 1024) :=
    funext fun a => by match a with | ⟨0, _⟩ => rfl | ⟨1, _⟩ => rfl | ⟨2, _⟩ => rfl
  refine (congrArg (out0_5 (iblk0 V c 0 t) (iblk0 V c 1 t) (iblk0 V c 2 t) (iblk0 V c 3 t) (iblk0 V c 4 t)) hxinj).trans ?_
  rw [View.read_apply]
  show _ = Cert.Spec.qArr _ _ _ _ _ (((cfg0.win 5).blk t).view.emb y)
  refine qblk_apply V c t _ _ _ _ ?_ ?_ ?_
  · show win0_5.index t (0 : Fin 3) * 1 + 1 * (y 0).val = t.val / 8; omega
  · show win0_5.index t (1 : Fin 3) * 512 + 1 * (y 1).val = 512 * (t.val % 8) + (y 1).val; omega
  · show win0_5.index t (2 : Fin 3) * 1024 + 1 * (y 2).val = (y 2).val; omega

/-- An index of the array is in point `t`'s block iff each coordinate is in the block's range on its axis. -/
theorem qmem_blk (t : Fin cfg0.N) (i : S4x4096x1024.Idx) :
    i ∈ ((cfg0.win 5).blk t).view.set ↔ ∀ a : Fin 3, win0_5.index t a * S1x512x1024.size a ≤ (i a).val
      ∧ (i a).val < win0_5.index t a * S1x512x1024.size a + S1x512x1024.size a := by
  show i ∈ ((View.whole main_v4_0).slice (win0_5.rect t)).set ↔ _
  rw [View.set_slice_whole, Rect.mem_set_unit]
  exact Iff.rfl

/-- The 32 blocks tile the array: index `(b, s, j)` is in the block of point `8·b + s / 512`. -/
theorem qcover (i : S4x4096x1024.Idx) :
    ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 1024 := (i 2).isLt
  obtain ⟨t, ht⟩ : ∃ t : Fin cfg0.N, t.val = 8 * (i 0).val + (i 1).val / 512 :=
    ⟨⟨8 * (i 0).val + (i 1).val / 512, lt_of_lt_of_eq (by omega : 8 * (i 0).val + (i 1).val / 512 < 32) N_0.symm⟩, rfl⟩
  obtain ⟨-, -, -, -, -, ⟨e0, e1, e2⟩, -⟩ := index_facts t
  refine ⟨t, flush0_5 t, ?_⟩
  rw [qmem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-! ### The array k -/

/-- What point `t` leaves of `k` at `(u, r, j)` is the specification's `k` at the array index under it: batch `t / 8`,
    row `512·(t % 8) + r`, column `j`. -/
theorem kblk_apply (c : Dev nD) (t : Fin cfg0.N) (u : Fin 1) (r : Fin 512) (j : Fin 1024) (i : S4x4096x1024.Idx)
    (h0 : (i 0).val = t.val / 8) (h1 : (i 1).val = 512 * (t.val % 8) + r.val) (h2 : (i 2).val = j.val) :
    out0_6 (iblk0 V c 0 t) (iblk0 V c 1 t) (iblk0 V c 2 t) (iblk0 V c 3 t) (iblk0 V c 4 t) (ix3 u r j)
      = Cert.Spec.kArr (V c main_arg0) (V c main_arg1) (V c main_arg2) (V c main_v1) (V c main_arg4) i := by
  have e2 : (i 2 : Fin 1024) = j := Fin.ext h2
  refine (out6_spec (iblk0 V c 0 t) (iblk0 V c 1 t) (iblk0 V c 2 t) (iblk0 V c 3 t) (iblk0 V c 4 t)
    (Cert.Spec.cur3 (n0 := 4) (n1 := 4096) (n2 := 1024) (V c main_arg0)) (Cert.Spec.cur1 (n := 1024) (V c main_arg1))
    (Cert.Spec.cur1 (n := 1024) (V c main_arg2)) (Cert.Spec.cur2 (n0 := 1024) (n1 := 3072) (V c main_v1))
    (Cert.Spec.cur1 (n := 3072) (V c main_arg4)) (i 0) (i 1) r
    (fun j' => iblk0_0_apply V c t r j' (ix3 (i 0 : Fin 4) (i 1 : Fin 4096) j') h0 h1 rfl)
    (fun j' => iblk0_1_apply V c t j') (fun j' => iblk0_2_apply V c t j') (fun j' o => iblk0_3_apply V c t j' o)
    (fun o => iblk0_4_apply V c t o) u j).trans ?_
  unfold Cert.Spec.kArr
  exact congrArg (Cert.Spec.kS _ _ _ _ _ (i 0) (i 1)) e2.symm

/-- What point `t` writes back of `k` is block `t` of the specification's array. -/
theorem kflushed_eq (c : Dev nD) (t : Fin cfg0.N) :
    (dat0 V c).flushed 6 t = ((cfg0.win 6).blk t).view.read (Elt Ideal)
      (Cert.Spec.kArr (V c main_arg0) (V c main_arg1) (V c main_arg2) (V c main_v1) (V c main_arg4)) := by
  show (cfg0.win 6).cut (grid0.coords t) ((dat0 V c).after 6 t) = _
  rw [after0_6]
  obtain ⟨-, -, -, -, -, -, ⟨e0, e1, e2⟩, -⟩ := index_facts t
  funext y
  have hy0 : (y 0).val < 1 := (y 0).isLt
  have hy1 : (y 1).val < 512 := (y 1).isLt
  have hy2 : (y 2).val < 1024 := (y 2).isLt
  have hxinj : (cfg0.win 6).xinj (grid0.coords t) y
      = ix3 (⟨(y 0).val, hy0⟩ : Fin 1) (⟨(y 1).val, hy1⟩ : Fin 512) (⟨(y 2).val, hy2⟩ : Fin 1024) :=
    funext fun a => by match a with | ⟨0, _⟩ => rfl | ⟨1, _⟩ => rfl | ⟨2, _⟩ => rfl
  refine (congrArg (out0_6 (iblk0 V c 0 t) (iblk0 V c 1 t) (iblk0 V c 2 t) (iblk0 V c 3 t) (iblk0 V c 4 t)) hxinj).trans ?_
  rw [View.read_apply]
  show _ = Cert.Spec.kArr _ _ _ _ _ (((cfg0.win 6).blk t).view.emb y)
  refine kblk_apply V c t _ _ _ _ ?_ ?_ ?_
  · show win0_6.index t (0 : Fin 3) * 1 + 1 * (y 0).val = t.val / 8; omega
  · show win0_6.index t (1 : Fin 3) * 512 + 1 * (y 1).val = 512 * (t.val % 8) + (y 1).val; omega
  · show win0_6.index t (2 : Fin 3) * 1024 + 1 * (y 2).val = (y 2).val; omega

/-- An index of the array is in point `t`'s block iff each coordinate is in the block's range on its axis. -/
theorem kmem_blk (t : Fin cfg0.N) (i : S4x4096x1024.Idx) :
    i ∈ ((cfg0.win 6).blk t).view.set ↔ ∀ a : Fin 3, win0_6.index t a * S1x512x1024.size a ≤ (i a).val
      ∧ (i a).val < win0_6.index t a * S1x512x1024.size a + S1x512x1024.size a := by
  show i ∈ ((View.whole main_v4_1).slice (win0_6.rect t)).set ↔ _
  rw [View.set_slice_whole, Rect.mem_set_unit]
  exact Iff.rfl

/-- The 32 blocks tile the array: index `(b, s, j)` is in the block of point `8·b + s / 512`. -/
theorem kcover (i : S4x4096x1024.Idx) :
    ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 1024 := (i 2).isLt
  obtain ⟨t, ht⟩ : ∃ t : Fin cfg0.N, t.val = 8 * (i 0).val + (i 1).val / 512 :=
    ⟨⟨8 * (i 0).val + (i 1).val / 512, lt_of_lt_of_eq (by omega : 8 * (i 0).val + (i 1).val / 512 < 32) N_0.symm⟩, rfl⟩
  obtain ⟨-, -, -, -, -, -, ⟨e0, e1, e2⟩, -⟩ := index_facts t
  refine ⟨t, flush0_6 t, ?_⟩
  rw [kmem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 1024 ≤ (i 2).val ∧ (i 2).val < win0_6.index t (2 : Fin 3) * 1024 + 1024; omega

/-! ### The array v -/

/-- What point `t` leaves of `v` at `(u, r, j)` is the specification's `v` at the array index under it: batch `t / 8`,
    row `512·(t % 8) + r`, column `j`. -/
theorem vblk_apply (c : Dev nD) (t : Fin cfg0.N) (u : Fin 1) (r : Fin 512) (j : Fin 1024) (i : S4x4096x1024.Idx)
    (h0 : (i 0).val = t.val / 8) (h1 : (i 1).val = 512 * (t.val % 8) + r.val) (h2 : (i 2).val = j.val) :
    out0_7 (iblk0 V c 0 t) (iblk0 V c 1 t) (iblk0 V c 2 t) (iblk0 V c 3 t) (iblk0 V c 4 t) (ix3 u r j)
      = Cert.Spec.vArr (V c main_arg0) (V c main_arg1) (V c main_arg2) (V c main_v1) (V c main_arg4) i := by
  have e2 : (i 2 : Fin 1024) = j := Fin.ext h2
  refine (out7_spec (iblk0 V c 0 t) (iblk0 V c 1 t) (iblk0 V c 2 t) (iblk0 V c 3 t) (iblk0 V c 4 t)
    (Cert.Spec.cur3 (n0 := 4) (n1 := 4096) (n2 := 1024) (V c main_arg0)) (Cert.Spec.cur1 (n := 1024) (V c main_arg1))
    (Cert.Spec.cur1 (n := 1024) (V c main_arg2)) (Cert.Spec.cur2 (n0 := 1024) (n1 := 3072) (V c main_v1))
    (Cert.Spec.cur1 (n := 3072) (V c main_arg4)) (i 0) (i 1) r
    (fun j' => iblk0_0_apply V c t r j' (ix3 (i 0 : Fin 4) (i 1 : Fin 4096) j') h0 h1 rfl)
    (fun j' => iblk0_1_apply V c t j') (fun j' => iblk0_2_apply V c t j') (fun j' o => iblk0_3_apply V c t j' o)
    (fun o => iblk0_4_apply V c t o) u j).trans ?_
  unfold Cert.Spec.vArr
  exact congrArg (Cert.Spec.vS _ _ _ _ _ (i 0) (i 1)) e2.symm

/-- What point `t` writes back of `v` is block `t` of the specification's array. -/
theorem vflushed_eq (c : Dev nD) (t : Fin cfg0.N) :
    (dat0 V c).flushed 7 t = ((cfg0.win 7).blk t).view.read (Elt Ideal)
      (Cert.Spec.vArr (V c main_arg0) (V c main_arg1) (V c main_arg2) (V c main_v1) (V c main_arg4)) := by
  show (cfg0.win 7).cut (grid0.coords t) ((dat0 V c).after 7 t) = _
  rw [after0_7]
  obtain ⟨-, -, -, -, -, -, -, e0, e1, e2⟩ := index_facts t
  funext y
  have hy0 : (y 0).val < 1 := (y 0).isLt
  have hy1 : (y 1).val < 512 := (y 1).isLt
  have hy2 : (y 2).val < 1024 := (y 2).isLt
  have hxinj : (cfg0.win 7).xinj (grid0.coords t) y
      = ix3 (⟨(y 0).val, hy0⟩ : Fin 1) (⟨(y 1).val, hy1⟩ : Fin 512) (⟨(y 2).val, hy2⟩ : Fin 1024) :=
    funext fun a => by match a with | ⟨0, _⟩ => rfl | ⟨1, _⟩ => rfl | ⟨2, _⟩ => rfl
  refine (congrArg (out0_7 (iblk0 V c 0 t) (iblk0 V c 1 t) (iblk0 V c 2 t) (iblk0 V c 3 t) (iblk0 V c 4 t)) hxinj).trans ?_
  rw [View.read_apply]
  show _ = Cert.Spec.vArr _ _ _ _ _ (((cfg0.win 7).blk t).view.emb y)
  refine vblk_apply V c t _ _ _ _ ?_ ?_ ?_
  · show win0_7.index t (0 : Fin 3) * 1 + 1 * (y 0).val = t.val / 8; omega
  · show win0_7.index t (1 : Fin 3) * 512 + 1 * (y 1).val = 512 * (t.val % 8) + (y 1).val; omega
  · show win0_7.index t (2 : Fin 3) * 1024 + 1 * (y 2).val = (y 2).val; omega

/-- An index of the array is in point `t`'s block iff each coordinate is in the block's range on its axis. -/
theorem vmem_blk (t : Fin cfg0.N) (i : S4x4096x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v4_2).slice (win0_7.rect t)).set ↔ _
  rw [View.set_slice_whole, Rect.mem_set_unit]
  exact Iff.rfl

/-- The 32 blocks tile the array: index `(b, s, j)` is in the block of point `8·b + s / 512`. -/
theorem vcover (i : S4x4096x1024.Idx) :
    ∃ t : Fin cfg0.N, (cfg0.win 7).flush t = true ∧ i ∈ ((cfg0.win 7).blk t).view.set := by
  have hi0 : (i 0).val < 4 := (i 0).isLt
  have hi1 : (i 1).val < 4096 := (i 1).isLt
  have hi2 : (i 2).val < 1024 := (i 2).isLt
  obtain ⟨t, ht⟩ : ∃ t : Fin cfg0.N, t.val = 8 * (i 0).val + (i 1).val / 512 :=
    ⟨⟨8 * (i 0).val + (i 1).val / 512, lt_of_lt_of_eq (by omega : 8 * (i 0).val + (i 1).val / 512 < 32) N_0.symm⟩, rfl⟩
  obtain ⟨-, -, -, -, -, -, -, e0, e1, e2⟩ := index_facts t
  refine ⟨t, flush0_7 t, ?_⟩
  rw [vmem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 1024 ≤ (i 2).val ∧ (i 2).val < win0_7.index t (2 : Fin 3) * 1024 + 1024; omega

end Val0

/-! ## The three arrays after the region -/

/-- The array `q` after the region: the specification's, of the arrays the region is entered with. -/
theorem arr0_5 (c : Dev nD) : (dat0 V c).arrAt 5 cfg0.N
    = Cert.Spec.qArr (V c main_arg0) (V c main_arg1) (V c main_arg2) (V c main_v1) (V c main_arg4) :=
  (dat0 V c).arrAt_eq_of_cover 5
    (Cert.Spec.qArr (V c main_arg0) (V c main_arg1) (V c main_arg2) (V c main_v1) (V c main_arg4))
    (fun t _ => Val0.qflushed_eq V c t) Val0.qcover

/-- The array `k` after the region: the specification's, of the arrays the region is entered with. -/
theorem arr0_6 (c : Dev nD) : (dat0 V c).arrAt 6 cfg0.N
    = Cert.Spec.kArr (V c main_arg0) (V c main_arg1) (V c main_arg2) (V c main_v1) (V c main_arg4) :=
  (dat0 V c).arrAt_eq_of_cover 6
    (Cert.Spec.kArr (V c main_arg0) (V c main_arg1) (V c main_arg2) (V c main_v1) (V c main_arg4))
    (fun t _ => Val0.kflushed_eq V c t) Val0.kcover

/-- The array `v` after the region: the specification's, of the arrays the region is entered with. -/
theorem arr0_7 (c : Dev nD) : (dat0 V c).arrAt 7 cfg0.N
    = Cert.Spec.vArr (V c main_arg0) (V c main_arg1) (V c main_arg2) (V c main_v1) (V c main_arg4) :=
  (dat0 V c).arrAt_eq_of_cover 7
    (Cert.Spec.vArr (V c main_arg0) (V c main_arg1) (V c main_arg2) (V c main_v1) (V c main_arg4))
    (fun t _ => Val0.vflushed_eq V c t) Val0.vcover

end Cert.KernelIdeal.Hand

end
-- ==== Proof.KI.Val1.lean ====
/-
  The second region's output array after the region, at the ideal values: per batch the product `kᵀ v` summed over all
  4096 rows, the two halves accumulated in the scratch and written back at the second.
-/
import proofs.«160551_j79027398246801_1_alg».proof.Proof.Gen.KernelIdeal.Launch
import proofs.«160551_j79027398246801_1_alg».proof.Proof.Gen.KernelIdeal.Skeleton
import proofs.«160551_j79027398246801_1_alg».proof.Proof.Gen.KernelIdeal.Points
import proofs.«160551_j79027398246801_1_alg».proof.Proof.KI.Reg1
import proofs.«160551_j79027398246801_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

/-! ## The product that contracts the row axis of both operands, read at an entry -/

/-- The left operand's row is the contraction coordinate. -/
theorem kv_lhs_row (i : S1024x1024.Idx) (q : dot_S2048x1024_S2048x1024_S1024x1024_0_0_1_1_n_n.contr.Idx) :
    (dot_S2048x1024_S2048x1024_S1024x1024_0_0_1_1_n_n.lhsIdx i q 0).val = (q ⟨0, Nat.one_pos⟩).val :=
  dot_S2048x1024_S2048x1024_S1024x1024_0_0_1_1_n_n.lhsIdx_val_of_single rfl i q

/-- The left operand's column is the entry's row. -/
theorem kv_lhs_col (i : S1024x1024.Idx) (q : dot_S2048x1024_S2048x1024_S1024x1024_0_0_1_1_n_n.contr.Idx) :
    (dot_S2048x1024_S2048x1024_S1024x1024_0_0_1_1_n_n.lhsIdx i q 1).val = (i 0).val := by
  unfold DotDims.lhsIdx
  rw [dif_neg (show ¬(1 : Fin S2048x1024.rank) ∈ dot_S2048x1024_S2048x1024_S1024x1024_0_0_1_1_n_n.lhsBatch from List.not_mem_nil),
    dif_pos (show (1 : Fin S2048x1024.rank) ∈ dot_S2048x1024_S2048x1024_S1024x1024_0_0_1_1_n_n.lhsNonContracting from List.mem_singleton.mpr rfl)]
  rfl

/-- The right operand's row is the contraction coordinate. -/
theorem kv_rhs_row (i : S1024x1024.Idx) (q : dot_S2048x1024_S2048x1024_S1024x1024_0_0_1_1_n_n.contr.Idx) :
    (dot_S2048x1024_S2048x1024_S1024x1024_0_0_1_1_n_n.rhsIdx i q 0).val = (q ⟨0, Nat.one_pos⟩).val :=
  dot_S2048x1024_S2048x1024_S1024x1024_0_0_1_1_n_n.rhsIdx_val_of_single rfl i q

/-- The right operand's column is the entry's column. -/
theorem kv_rhs_col (i : S1024x1024.Idx) (q : dot_S2048x1024_S2048x1024_S1024x1024_0_0_1_1_n_n.contr.Idx) :
    (dot_S2048x1024_S2048x1024_S1024x1024_0_0_1_1_n_n.rhsIdx i q 1).val = (i 1).val := by
  unfold DotDims.rhsIdx
  rw [dif_neg (show ¬(1 : Fin S2048x1024.rank) ∈ dot_S2048x1024_S2048x1024_S1024x1024_0_0_1_1_n_n.rhsBatch from List.not_mem_nil),
    dif_pos (show (1 : Fin S2048x1024.rank) ∈ dot_S2048x1024_S2048x1024_S1024x1024_0_0_1_1_n_n.rhsNonContracting from List.mem_singleton.mpr rfl)]
  rfl

/-- The product into the zero accumulator at entry `(c1, c2)`: the sum over the 2048 rows `s` of `l (s, c1) · r (s, c2)`. -/
theorem kv_matmul_apply (l r : FVec Ideal S2048x1024 .bf16) (c1 c2 : Fin 1024) :
    matmul dot_S2048x1024_S2048x1024_S1024x1024_0_0_1_1_n_n none l r (constant (F := Ideal) S1024x1024 .f32 0x00000000#32) (ix2 c1 c2)
      = ∑ s : Fin 2048, l (ix2 s c1) * r (ix2 s c2) := by
  refine (Ideal.matmul_constant_zero_apply dot_S2048x1024_S2048x1024_S1024x1024_0_0_1_1_n_n none l r (ix2 c1 c2)).trans ?_
  rw [← Equiv.sum_comp (contrEquiv1 dot_S2048x1024_S2048x1024_S1024x1024_0_0_1_1_n_n 2048 rfl rfl).symm]
  refine Finset.sum_congr rfl fun s _ => ?_
  have hs := contrEquiv1_symm_val dot_S2048x1024_S2048x1024_S1024x1024_0_0_1_1_n_n 2048 rfl rfl s
  have el : dot_S2048x1024_S2048x1024_S1024x1024_0_0_1_1_n_n.lhsIdx (ix2 c1 c2)
      ((contrEquiv1 dot_S2048x1024_S2048x1024_S1024x1024_0_0_1_1_n_n 2048 rfl rfl).symm s) = ix2 s c1 :=
    funext fun a => Fin.ext (by
      match a with
      | ⟨0, _⟩ => exact (kv_lhs_row _ _).trans hs
      | ⟨1, _⟩ => exact kv_lhs_col _ _)
  have er : dot_S2048x1024_S2048x1024_S1024x1024_0_0_1_1_n_n.rhsIdx (ix2 c1 c2)
      ((contrEquiv1 dot_S2048x1024_S2048x1024_S1024x1024_0_0_1_1_n_n 2048 rfl rfl).symm s) = ix2 s c2 :=
    funext fun a => Fin.ext (by
      match a with
      | ⟨0, _⟩ => exact (kv_rhs_row _ _).trans hs
      | ⟨1, _⟩ => exact kv_rhs_col _ _)
  rw [el, er]

/-! ## The body's three payloads, read at an entry -/

/-- Dropping the unit batch axis of a staged block: entry `(s, j)` reads `(0, s, j)`. -/
theorem kv_dropBatch_apply (x : Vec Ideal S1x2048x1024 .bf16) (s : Fin 2048) (j : Fin 1024) :
    shapeCast S2048x1024 x shapeCasts_S1x2048x1024_S2048x1024 (ix2 s j) = x (ix3 0 s j) := by
  refine (shapeCast_dropUnit_apply ![2048, 1024] x shapeCasts_S1x2048x1024_S2048x1024 (ix2 s j)).trans ?_
  refine congrArg x (funext fun a => ?_)
  match a with
  | ⟨0, _⟩ => rfl
  | ⟨1, _⟩ => rfl
  | ⟨2, _⟩ => rfl

/-- The reset value is zero at every entry. -/
theorem kv_pay1_apply (i : S1024x1024.Idx) : k1_pay1 (F := Ideal) i = 0 := by
  unfold k1_pay1
  refine (congrFun (shapeCast_self _ _) i).trans ?_
  exact Ideal.ofBits_zero_f32

/-- The accumulator after a half: what it held plus, over the half's 2048 rows `r`, `k (r, c1) · v (r, c2)`. -/
theorem kv_pay2_apply (x0 x1 : Vec Ideal S1x2048x1024 .bf16) (xs : Vec Ideal S1024x1024 .f32) (c1 c2 : Fin 1024) :
    k1_pay2 x0 x1 xs (ix2 c1 c2) = xs (ix2 c1 c2) + ∑ r : Fin 2048, x0 (ix3 0 r c1) * x1 (ix3 0 r c2) := by
  unfold k1_pay2
  refine (congrFun (shapeCast_self _ _) (ix2 c1 c2)).trans ?_
  refine (addf_apply _ _ _).trans ?_
  refine congrArg (xs (ix2 c1 c2) + ·) ?_
  refine (kv_matmul_apply _ _ c1 c2).trans ?_
  refine Finset.sum_congr rfl fun r _ => ?_
  rw [kv_dropBatch_apply, kv_dropBatch_apply]

/-- The stored block is the accumulator with a unit batch axis in front (the change of format is the identity). -/
theorem kv_pay3_apply (acc : Vec Ideal S1024x1024 .f32) (b : Fin 1) (c1 c2 : Fin 1024) :
    k1_pay3 acc (ix3 b c1 c2) = acc (ix2 c1 c2) := by
  unfold k1_pay3
  refine (shapeCast_addUnit_apply ![1024, 1024] _ shapeCasts_S1024x1024_S1x1024x1024 (ix3 b c1 c2)).trans ?_
  refine (truncf_apply (ψ := .bf16) acc bitsLt_bf16_f32 _).trans ?_
  refine congrArg acc (funext fun a => ?_)
  match a with
  | ⟨0, _⟩ => rfl
  | ⟨1, _⟩ => rfl

/-! ## The staged blocks, read off the arrays -/

/-- The `k` array as the region finds it, `[4, 4096, 1024]`. -/
abbrev kv_keys (c : Dev nD) : S4x4096x1024.Idx → EReal := V c main_v4_1
/-- The `v` array as the region finds it. -/
abbrev kv_vals (c : Dev nD) : S4x4096x1024.Idx → EReal := V c main_v4_2
/-- The `k` block staged at point `t`, `[1, 2048, 1024]`. -/
abbrev kv_keysBlk (c : Dev nD) (t : Fin cfg1.N) : Vec Ideal S1x2048x1024 .bf16 := iblk1 V c 0 t
/-- The `v` block staged at point `t`. -/
abbrev kv_valsBlk (c : Dev nD) (t : Fin cfg1.N) : Vec Ideal S1x2048x1024 .bf16 := iblk1 V c 1 t

/-- The index maps over the eight points: point `t` stages batch `t / 2`, half `t % 2` of the rows, all the columns;
    the output's block is batch `t / 2`, whole. -/
theorem kv_idx_facts : ∀ t : Fin cfg1.N,
    win1_0.index t (0 : Fin 3) = t.val / 2 ∧ win1_0.index t (1 : Fin 3) = t.val % 2 ∧ win1_0.index t (2 : Fin 3) = 0
    ∧ win1_1.index t (0 : Fin 3) = t.val / 2 ∧ win1_1.index t (1 : Fin 3) = t.val % 2 ∧ win1_1.index t (2 : Fin 3) = 0
    ∧ win1_2.index t (0 : Fin 3) = t.val / 2 ∧ win1_2.index t (1 : Fin 3) = 0 ∧ win1_2.index t (2 : Fin 3) = 0 :=
  (by decide +kernel : ∀ t : Fin grid1.N, _)

/-- Row `r` of the `k` block staged at point `t` is row `2048 (t % 2) + r` of batch `t / 2`. -/
theorem kv_keysBlk_apply (c : Dev nD) (t : Fin cfg1.N) (r : Fin 2048) (j : Fin 1024) (b : Fin 4) (s : Fin 4096)
    (hb : b.val = t.val / 2) (hs : s.val = 2048 * (t.val % 2) + r.val) :
    kv_keysBlk V c t (ix3 0 r j) = kv_keys V c (ix3 b s j) := by
  obtain ⟨e0, e1, e2, -, -, -, -, -, -⟩ := kv_idx_facts t
  show iblk1 V c 0 t (ix3 0 r j) = V c main_v4_1 (ix3 b s j)
  unfold iblk1
  rw [View.read_apply]
  show V c main_v4_1 _ = V c main_v4_1 _
  congr 1
  funext a
  apply Fin.ext
  match a with
  | ⟨0, _⟩ => show win1_0.index t (0 : Fin 3) * 1 + 1 * 0 = b.val; omega
  | ⟨1, _⟩ => show win1_0.index t (1 : Fin 3) * 2048 + 1 * r.val = s.val; omega
  | ⟨2, _⟩ => show win1_0.index t (2 : Fin 3) * 1024 + 1 * j.val = j.val; omega

/-- The same for the `v` block. -/
theorem kv_valsBlk_apply (c : Dev nD) (t : Fin cfg1.N) (r : Fin 2048) (j : Fin 1024) (b : Fin 4) (s : Fin 4096)
    (hb : b.val = t.val / 2) (hs : s.val = 2048 * (t.val % 2) + r.val) :
    kv_valsBlk V c t (ix3 0 r j) = kv_vals V c (ix3 b s j) := by
  obtain ⟨-, -, -, e0, e1, e2, -, -, -⟩ := kv_idx_facts t
  show iblk1 V c 1 t (ix3 0 r j) = V c main_v4_2 (ix3 b s j)
  unfold iblk1
  rw [View.read_apply]
  show V c main_v4_2 _ = V c main_v4_2 _
  congr 1
  funext a
  apply Fin.ext
  match a with
  | ⟨0, _⟩ => show win1_1.index t (0 : Fin 3) * 1 + 1 * 0 = b.val; omega
  | ⟨1, _⟩ => show win1_1.index t (1 : Fin 3) * 2048 + 1 * r.val = s.val; omega
  | ⟨2, _⟩ => show win1_1.index t (2 : Fin 3) * 1024 + 1 * j.val = j.val; omega

/-! ## The accumulator after a batch's second half -/

/-- Over the extended reals the two halves' sums are the sum over all 4096 rows. -/
theorem kv_sum_halves (f : Fin 4096 → EReal) :
    (∑ r : Fin 2048, f ⟨r.val, by have := r.isLt; omega⟩) + (∑ r : Fin 2048, f ⟨2048 + r.val, by have := r.isLt; omega⟩)
      = ∑ s : Fin 4096, f s :=
  (Fin.sum_univ_add (a := 2048) (b := 2048) f).symm

/-- After the second half of batch `b` the accumulator's entry `(c1, c2)` is `∑ s, k (b, s, c1) · v (b, s, c2)` over all
    4096 rows: zero, plus the first half's rows, plus the second half's. -/
theorem kv_accAt_odd_apply (c : Dev nD) (t : Fin cfg1.N) (h : t.val % 2 = 1) (b : Fin 4) (hb : b.val = t.val / 2)
    (c1 c2 : Fin 1024) :
    accAt V c t.val t.isLt (ix2 c1 c2) = ∑ s : Fin 4096, kv_keys V c (ix3 b s c1) * kv_vals V c (ix3 b s c2) := by
  have hlt : t.val - 1 < cfg1.N := Nat.lt_of_le_of_lt (Nat.sub_le _ _) t.isLt
  have h0 : (⟨t.val - 1, hlt⟩ : Fin cfg1.N).val % 2 = 0 := by show (t.val - 1) % 2 = 0; omega
  have e1 := accAt_next V c t h
  have e0 := accAt_first V c ⟨t.val - 1, hlt⟩ h0
  refine (congrFun e1 (ix2 c1 c2)).trans ?_
  unfold accNext
  refine (kv_pay2_apply (kv_keysBlk V c t) (kv_valsBlk V c t) (accAt V c (t.val - 1) hlt) c1 c2).trans ?_
  have ea : accAt V c (t.val - 1) hlt (ix2 c1 c2)
      = 0 + ∑ r : Fin 2048, kv_keysBlk V c ⟨t.val - 1, hlt⟩ (ix3 0 r c1) * kv_valsBlk V c ⟨t.val - 1, hlt⟩ (ix3 0 r c2) := by
    refine (congrFun e0 (ix2 c1 c2)).trans ?_
    unfold accFirst
    refine (kv_pay2_apply (kv_keysBlk V c ⟨t.val - 1, hlt⟩) (kv_valsBlk V c ⟨t.val - 1, hlt⟩) (k1_pay1 (F := Ideal)) c1 c2).trans ?_
    rw [kv_pay1_apply]
  rw [ea, zero_add, ← kv_sum_halves]
  refine congrArg₂ (· + ·) (Finset.sum_congr rfl fun r _ => ?_) (Finset.sum_congr rfl fun r _ => ?_)
  · rw [kv_keysBlk_apply V c ⟨t.val - 1, hlt⟩ r c1 b ⟨r.val, by have := r.isLt; omega⟩ (by show b.val = (t.val - 1) / 2; omega)
        (by show r.val = 2048 * ((t.val - 1) % 2) + r.val; omega),
      kv_valsBlk_apply V c ⟨t.val - 1, hlt⟩ r c2 b ⟨r.val, by have := r.isLt; omega⟩ (by show b.val = (t.val - 1) / 2; omega)
        (by show r.val = 2048 * ((t.val - 1) % 2) + r.val; omega)]
  · rw [kv_keysBlk_apply V c t r c1 b ⟨2048 + r.val, by have := r.isLt; omega⟩ hb (by show 2048 + r.val = 2048 * (t.val % 2) + r.val; omega),
      kv_valsBlk_apply V c t r c2 b ⟨2048 + r.val, by have := r.isLt; omega⟩ hb (by show 2048 + r.val = 2048 * (t.val % 2) + r.val; omega)]

/-! ## From the stored blocks to the array -/

/-- What the body stores at the second half of batch `b`, at `(0, c1, c2)` of its block, is the specification's entry
    `(b, c1, c2)`. -/
theorem kv_stored_apply (c : Dev nD) (t : Fin cfg1.N) (h : t.val % 2 = 1) (b : Fin 4) (hb : b.val = t.val / 2)
    (y : S1x1024x1024.Idx) :
    k1_pay3 (accAt V c t.val t.isLt) y = Cert.Spec.kvArr (V c main_v4_1) (V c main_v4_2) (ix3 b (y 1) (y 2)) := by
  obtain ⟨b', c1, c2, rfl⟩ : ∃ (b' : Fin 1) (c1 c2 : Fin 1024), y = ix3 b' c1 c2 := ⟨y 0, y 1, y 2, eq_ix3 y⟩
  refine (kv_pay3_apply _ b' c1 c2).trans ?_
  refine (kv_accAt_odd_apply V c t h b hb c1 c2).trans ?_
  rfl

/-- A point that writes the output back writes its block of the specification's array. -/
theorem kv_flushed_eq (c : Dev nD) (t : Fin cfg1.N) (hf : (cfg1.win 2).flush t = true) :
    (dat1 V c).flushed 2 t
      = ((cfg1.win 2).blk t).view.read (Elt Ideal) (Cert.Spec.kvArr (V c main_v4_1) (V c main_v4_2)) := by
  have h : t.val % 2 = 1 := (flush1_2 t).mp hf
  have hN : t.val < 8 := t.isLt
  obtain ⟨-, -, -, -, -, -, e0, e1, e2⟩ := kv_idx_facts t
  show (cfg1.win 2).cut (grid1.coords t) ((dat1 V c).after 2 t) = _
  rw [after1_2]
  unfold kvOut
  funext y
  refine (kv_stored_apply V c t h ⟨t.val / 2, by omega⟩ rfl ((cfg1.win 2).xinj (grid1.coords t) y)).trans ?_
  show _ = Cert.Spec.kvArr (V c main_v4_1) (V c main_v4_2) (((cfg1.win 2).blk t).view.emb y)
  refine congrArg (Cert.Spec.kvArr (V c main_v4_1) (V c main_v4_2)) (funext fun a => Fin.ext ?_)
  have hy0 : (y 0).val < 1 := (y 0).isLt
  match a with
  | ⟨0, _⟩ => show t.val / 2 = win1_2.index t (0 : Fin 3) * 1 + 1 * (y 0).val; omega
  | ⟨1, _⟩ => show (y 1).val = win1_2.index t (1 : Fin 3) * 1024 + 1 * (y 1).val; omega
  | ⟨2, _⟩ => show (y 2).val = win1_2.index t (2 : Fin 3) * 1024 + 1 * (y 2).val; omega

/-- An entry of the array is in point `t`'s block iff each coordinate is in the block's range on its axis. -/
theorem kv_mem_blk (t : Fin cfg1.N) (i : S4x1024x1024.Idx) :
    i ∈ ((cfg1.win 2).blk t).view.set ↔ ∀ a : Fin 3, win1_2.index t a * S1x1024x1024.size a ≤ (i a).val
      ∧ (i a).val < win1_2.index t a * S1x1024x1024.size a + S1x1024x1024.size a := by
  show i ∈ ((View.whole main_v5).slice (win1_2.rect t)).set ↔ _
  rw [View.set_slice_whole, Rect.mem_set_unit]
  exact Iff.rfl

/-- Batch `b` is exactly the block written back at point `2 b + 1`: the written blocks cover the array. -/
theorem kv_cover (i : S4x1024x1024.Idx) :
    ∃ t : Fin cfg1.N, (cfg1.win 2).flush t = true ∧ i ∈ ((cfg1.win 2).blk t).view.set := by
  have hi0 : (i 0).val < 4 := (i 0).isLt
  have hi1 : (i 1).val < 1024 := (i 1).isLt
  have hi2 : (i 2).val < 1024 := (i 2).isLt
  have hlt : 2 * (i 0).val + 1 < cfg1.N := by show 2 * (i 0).val + 1 < 8; omega
  obtain ⟨-, -, -, -, -, -, e0, e1, e2⟩ := kv_idx_facts ⟨2 * (i 0).val + 1, hlt⟩
  have e0' : win1_2.index ⟨2 * (i 0).val + 1, hlt⟩ (0 : Fin 3) = (2 * (i 0).val + 1) / 2 := e0
  refine ⟨⟨2 * (i 0).val + 1, hlt⟩, (flush1_2 _).mpr (by show (2 * (i 0).val + 1) % 2 = 1; omega), ?_⟩
  rw [kv_mem_blk]
  intro a
  match a with
  | ⟨0, _⟩ => show win1_2.index ⟨2 * (i 0).val + 1, hlt⟩ (0 : Fin 3) * 1 ≤ (i 0).val ∧ (i 0).val < win1_2.index ⟨2 * (i 0).val + 1, hlt⟩ (0 : Fin 3) * 1 + 1; omega
  | ⟨1, _⟩ => show win1_2.index ⟨2 * (i 0).val + 1, hlt⟩ (1 : Fin 3) * 1024 ≤ (i 1).val ∧ (i 1).val < win1_2.index ⟨2 * (i 0).val + 1, hlt⟩ (1 : Fin 3) * 1024 + 1024; omega
  | ⟨2, _⟩ => show win1_2.index ⟨2 * (i 0).val + 1, hlt⟩ (2 : Fin 3) * 1024 ≤ (i 2).val ∧ (i 2).val < win1_2.index ⟨2 * (i 0).val + 1, hlt⟩ (2 : Fin 3) * 1024 + 1024; omega

/-- After the region the output array holds, per batch, `kᵀ v` summed over all 4096 rows. -/
theorem arr1_2 (c : Dev nD) : (dat1 V c).arrAt 2 cfg1.N = Cert.Spec.kvArr (V c main_v4_1) (V c main_v4_2) :=
  (dat1 V c).arrAt_eq_of_cover 2 (Cert.Spec.kvArr (V c main_v4_1) (V c main_v4_2))
    (fun t hf => kv_flushed_eq V c t hf) kv_cover

end Cert.KernelIdeal.Hand

end
-- ==== Proof.KI.Val2.lean ====
/-
  The third region's output array after the region, at the ideal values, as the specification's function of the arrays
  the region is entered with.
-/
import proofs.«160551_j79027398246801_1_alg».proof.Proof.Gen.KernelIdeal.Launch
import proofs.«160551_j79027398246801_1_alg».proof.Proof.Gen.KernelIdeal.Skeleton
import proofs.«160551_j79027398246801_1_alg».proof.Proof.Gen.KernelIdeal.Points
import proofs.«160551_j79027398246801_1_alg».proof.Proof.KI.Reg2
import proofs.«160551_j79027398246801_1_alg».proof.Proof.Spec
import proofs.«160551_j79027398246801_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

/-! ## The payload at an index -/

/-- The first product at `(r, c)`: row `r` of the block of `q` against column `c` of the batch's matrix. -/
theorem outAttn_apply (x0 : FVec Ideal S1x512x1024 .bf16) (x1 : FVec Ideal S1x1024x1024 .bf16) (r : Fin 512) (c : Fin 1024) :
    matmul dot_S512x1024_S1024x1024_S512x1024_1_0_0_1_n_n none (shapeCast S512x1024 x0 shapeCasts_S1x512x1024_S512x1024)
        (shapeCast S1024x1024 x1 shapeCasts_S1x1024x1024_S1024x1024) (constant S512x1024 .f32 0x00000000#32) (ix2 r c)
      = ∑ c1 : Fin 1024, x0 (ix3 (0 : Fin 1) r c1) * x1 (ix3 (0 : Fin 1) c1 c) := by
  show matmul (DotDims.plain 512 1024 1024) none _ _ _ _ = _
  refine (PlainDot.matmul_zero_apply 512 1024 1024 none _ _ (ix2 r c)).trans ?_
  refine Finset.sum_congr rfl fun c1 _ => ?_
  exact congrArg₂ (· * ·) (shapeCast_1ab_ab_apply x0 _ r c1) (shapeCast_1ab_ab_apply x1 _ c1 c)

/-- The second product at `(r, j)`: row `r` of its left operand against column `j` of the projection's matrix. -/
theorem outProj_apply (o : FVec Ideal S512x1024 .bf16) (x2 : FVec Ideal S1024x1024 .bf16) (r : Fin 512) (j : Fin 1024) :
    matmul dot_S512x1024_S1024x1024_S512x1024_1_0_0_1_n_n none o (shapeCast S1024x1024 x2 shapeCasts_S1024x1024_S1024x1024)
        (constant S512x1024 .f32 0x00000000#32) (ix2 r j)
      = ∑ c : Fin 1024, o (ix2 r c) * x2 (ix2 c j) := by
  show matmul (DotDims.plain 512 1024 1024) none _ _ _ _ = _
  rw [shapeCast_self]
  exact PlainDot.matmul_zero_apply 512 1024 1024 none o x2 (ix2 r j)

/-- The bias, as one row laid under every row, at `(r, j)`. -/
theorem outBias_apply (x3 : FVec Ideal S1024 .f32) (r : Fin 512) (j : Fin 1024) :
    broadcastTo S512x1024 (shapeCast S1x1024 x3 shapeCasts_S1024_S1x1024) broadcasts_S1x1024_S512x1024 (ix2 r j) = x3 (ix1 j) :=
  (broadcastTo_1b_ab_apply _ _ r j).trans (shapeCast_a_1a_apply x3 _ 0 j)

/-- What the body stores at `(u, r, j)` of its block: row `r` of `q` times the batch's matrix, scaled by the literal
    `1/32`, times the projection's matrix, then the bias, then the entry of `x`. -/
theorem outPay_apply (x0 : FVec Ideal S1x512x1024 .bf16) (x1 : FVec Ideal S1x1024x1024 .bf16) (x2 : FVec Ideal S1024x1024 .bf16)
    (x3 : FVec Ideal S1024 .f32) (x4 : FVec Ideal S1x512x1024 .f32) (u : Fin 1) (r : Fin 512) (j : Fin 1024) :
    (k2_pay1 (F := Ideal) x0 x1 x2 x3 x4 (ix3 u r j) : EReal)
      = ((∑ c : Fin 1024, ((∑ c1 : Fin 1024, x0 (ix3 (0 : Fin 1) r c1) * x1 (ix3 (0 : Fin 1) c1 c)) * Cert.Spec.cScale) * x2 (ix2 c j))
          + x3 (ix1 j)) + x4 (ix3 (0 : Fin 1) r j) := by
  unfold k2_pay1
  refine (shapeCast_ab_1ab_apply _ _ u r j).trans ?_
  refine (addf_apply _ _ _).trans ?_
  refine congrArg₂ (· + ·) ?_ (shapeCast_1ab_ab_apply x4 _ r j)
  refine (addf_apply _ _ _).trans ?_
  refine congrArg₂ (· + ·) ?_ (outBias_apply x3 r j)
  refine (outProj_apply _ x2 r j).trans ?_
  refine Finset.sum_congr rfl fun c _ => ?_
  refine congrArg (· * x2 (ix2 c j)) ?_
  exact congrArg (· * Cert.Spec.cScale) (outAttn_apply x0 x1 r c)

/-- Over any blocks and arrays: where the five blocks read the five arrays at batch `b` and row `s`, what the body stores
    at `(u, r, j)` is the specification's entry `(b, s, j)`. -/
theorem outPay_eq_spec (x0 : FVec Ideal S1x512x1024 .bf16) (x1 : FVec Ideal S1x1024x1024 .bf16) (x2 : FVec Ideal S1024x1024 .bf16)
    (x3 : FVec Ideal S1024 .f32) (x4 : FVec Ideal S1x512x1024 .f32)
    (Q : Cert.Spec.A3) (KV : Cert.Spec.AKV) (PWT : Cert.Spec.A2 1024 1024) (PB : Cert.Spec.A1 1024) (X : Cert.Spec.A3)
    (u : Fin 1) (r : Fin 512) (j : Fin 1024) (b : Fin 4) (s : Fin 4096)
    (h0 : ∀ c1 : Fin 1024, x0 (ix3 (0 : Fin 1) r c1) = Q (ix3 b s c1))
    (h1 : ∀ c1 c' : Fin 1024, x1 (ix3 (0 : Fin 1) c1 c') = KV (ix3 b c1 c'))
    (h2 : ∀ c' : Fin 1024, x2 (ix2 c' j) = PWT (ix2 c' j))
    (h3 : x3 (ix1 j) = PB (ix1 j))
    (h4 : x4 (ix3 (0 : Fin 1) r j) = X (ix3 b s j)) :
    (k2_pay1 (F := Ideal) x0 x1 x2 x3 x4 (ix3 u r j) : EReal) = Cert.Spec.outArr Q KV PWT PB X (ix3 b s j) := by
  refine (outPay_apply x0 x1 x2 x3 x4 u r j).trans ?_
  show _ = ((∑ c' : Fin 1024, ((∑ c1 : Fin 1024, Q (ix3 b s c1) * KV (ix3 b c1 c')) * Cert.Spec.cScale) * PWT (ix2 c' j)) + PB (ix1 j))
      + X (ix3 b s j)
  rw [h3, h4]
  refine congrArg (· + X (ix3 b s j)) (congrArg (· + PB (ix1 j)) (Finset.sum_congr rfl fun c' _ => ?_))
  rw [h2 c']
  refine congrArg (· * PWT (ix2 c' j)) (congrArg (· * Cert.Spec.cScale) (Finset.sum_congr rfl fun c1 _ => ?_))
  rw [h0 c1, h1 c1 c']

/-! ## The blocks -/

/-- The arrays the region is entered with, at their literal types. -/
abbrev outQArr (c : Dev nD) : Cert.Spec.A3 := V c main_v4_0
abbrev outKvArr (c : Dev nD) : Cert.Spec.AKV := V c main_v5
abbrev outPwArr (c : Dev nD) : Cert.Spec.A2 1024 1024 := V c main_v3
abbrev outPbArr (c : Dev nD) : Cert.Spec.A1 1024 := V c main_arg6
abbrev outXArr (c : Dev nD) : Cert.Spec.A3 := V c main_arg0

/-- The five input blocks at point `t`, at their literal types. -/
abbrev outQBlk (c : Dev nD) (t : Fin cfg2.N) : FVec Ideal S1x512x1024 .bf16 := iblk2 V c 0 t
abbrev outKvBlk (c : Dev nD) (t : Fin cfg2.N) : FVec Ideal S1x1024x1024 .bf16 := iblk2 V c 1 t
abbrev outPwBlk (c : Dev nD) (t : Fin cfg2.N) : FVec Ideal S1024x1024 .bf16 := iblk2 V c 2 t
abbrev outPbBlk (c : Dev nD) (t : Fin cfg2.N) : FVec Ideal S1024 .f32 := iblk2 V c 3 t
abbrev outXBlk (c : Dev nD) (t : Fin cfg2.N) : FVec Ideal S1x512x1024 .f32 := iblk2 V c 4 t

/-- Where every window's block sits at point `t` against the output's block `(b, tt, 0)`, decided over the 32 points:
    `q` and `x` move with the output, the batch's matrix with the output's batch, the projection's matrix and the bias
    stay. -/
theorem outIdx_facts : ∀ t : Fin cfg2.N,
    win2_0.index t (0 : Fin 3) = win2_5.index t (0 : Fin 3) ∧ win2_0.index t (1 : Fin 3) = win2_5.index t (1 : Fin 3)
    ∧ win2_0.index t (2 : Fin 3) = 0
    ∧ win2_1.index t (0 : Fin 3) = win2_5.index t (0 : Fin 3) ∧ win2_1.index t (1 : Fin 3) = 0 ∧ win2_1.index t (2 : Fin 3) = 0
    ∧ win2_2.index t (0 : Fin 2) = 0 ∧ win2_2.index t (1 : Fin 2) = 0
    ∧ win2_3.index t (0 : Fin 1) = 0
    ∧ win2_4.index t (0 : Fin 3) = win2_5.index t (0 : Fin 3) ∧ win2_4.index t (1 : Fin 3) = win2_5.index t (1 : Fin 3)
    ∧ win2_4.index t (2 : Fin 3) = 0
    ∧ win2_5.index t (2 : Fin 3) = 0 ∧ win2_5.index t (0 : Fin 3) ≤ 3 ∧ win2_5.index t (1 : Fin 3) ≤ 7 :=
  (by decide +kernel : ∀ t : Fin grid2.N, _)

/-- Every block `(b, tt, 0)` of the output is some point's. -/
theorem outIdx_onto : ∀ (b : Fin 4) (tt : Fin 8), ∃ t : Fin cfg2.N, win2_5.index t = ![b.val, tt.val, 0] :=
  (by decide +kernel : ∀ (b : Fin 4) (tt : Fin 8), ∃ t : Fin grid2.N, win2_5.index t = ![b.val, tt.val, 0])

/-- The block of `q` at point `t` reads the array at the output block's batch and rows. -/
theorem outQBlk_apply (c : Dev nD) (t : Fin cfg2.N) (r : Fin 512) (c1 : Fin 1024) (b : Fin 4) (s : Fin 4096)
    (hb : b.val = win2_5.index t (0 : Fin 3)) (hs : s.val = win2_5.index t (1 : Fin 3) * 512 + r.val) :
    outQBlk V c t (ix3 (0 : Fin 1) r c1) = outQArr V c (ix3 b s c1) := by
  obtain ⟨e0, e1, e2, -⟩ := outIdx_facts t
  show V c main_v4_0 (((cfg2.win 0).blk t).view.emb (ix3 (0 : Fin 1) r c1)) = V c main_v4_0 (ix3 b s c1)
  refine congrArg (V c main_v4_0) ?_
  funext a; apply Fin.ext
  match a with
  | ⟨0, _⟩ => show win2_0.index t (0 : Fin 3) * 1 + 1 * 0 = b.val; omega
  | ⟨1, _⟩ => show win2_0.index t (1 : Fin 3) * 512 + 1 * r.val = s.val; omega
  | ⟨2, _⟩ => show win2_0.index t (2 : Fin 3) * 1024 + 1 * c1.val = c1.val; omega

/-- The block of the per-batch matrix at point `t` is the matrix of the output block's batch. -/
theorem outKvBlk_apply (c : Dev nD) (t : Fin cfg2.N) (c1 c' : Fin 1024) (b : Fin 4) (hb : b.val = win2_5.index t (0 : Fin 3)) :
    outKvBlk V c t (ix3 (0 : Fin 1) c1 c') = outKvArr V c (ix3 b c1 c') := by
  obtain ⟨-, -, -, e0, e1, e2, -⟩ := outIdx_facts t
  show V c main_v5 (((cfg2.win 1).blk t).view.emb (ix3 (0 : Fin 1) c1 c')) = V c main_v5 (ix3 b c1 c')
  refine congrArg (V c main_v5) ?_
  funext a; apply Fin.ext
  match a with
  | ⟨0, _⟩ => show win2_1.index t (0 : Fin 3) * 1 + 1 * 0 = b.val; omega
  | ⟨1, _⟩ => show win2_1.index t (1 : Fin 3) * 1024 + 1 * c1.val = c1.val; omega
  | ⟨2, _⟩ => show win2_1.index t (2 : Fin 3) * 1024 + 1 * c'.val = c'.val; omega

/-- The block of the projection's matrix is the whole matrix. -/
theorem outPwBlk_apply (c : Dev nD) (t : Fin cfg2.N) (c' j : Fin 1024) :
    outPwBlk V c t (ix2 c' j) = outPwArr V c (ix2 c' j) := by
  obtain ⟨-, -, -, -, -, -, e0, e1, -⟩ := outIdx_facts t
  show V c main_v3 (((cfg2.win 2).blk t).view.emb (ix2 c' j)) = V c main_v3 (ix2 c' j)
  refine congrArg (V c main_v3) ?_
  funext a; apply Fin.ext
  match a with
  | ⟨0, _⟩ => show win2_2.index t (0 : Fin 2) * 1024 + 1 * c'.val = c'.val; omega
  | ⟨1, _⟩ => show win2_2.index t (1 : Fin 2) * 1024 + 1 * j.val = j.val; omega

/-- The block of the bias is the whole bias. -/
theorem outPbBlk_apply (c : Dev nD) (t : Fin cfg2.N) (j : Fin 1024) :
    outPbBlk V c t (ix1 j) = outPbArr V c (ix1 j) := by
  obtain ⟨-, -, -, -, -, -, -, -, e0, -⟩ := outIdx_facts t
  show V c main_arg6 (((cfg2.win 3).blk t).view.emb (ix1 j)) = V c main_arg6 (ix1 j)
  refine congrArg (V c main_arg6) ?_
  funext a; apply Fin.ext
  match a with
  | ⟨0, _⟩ => show win2_3.index t (0 : Fin 1) * 1024 + 1 * j.val = j.val; omega

/-- The block of `x` at point `t` reads the array at the output block's batch and rows. -/
theorem outXBlk_apply (c : Dev nD) (t : Fin cfg2.N) (r : Fin 512) (j : Fin 1024) (b : Fin 4) (s : Fin 4096)
    (hb : b.val = win2_5.index t (0 : Fin 3)) (hs : s.val = win2_5.index t (1 : Fin 3) * 512 + r.val) :
    outXBlk V c t (ix3 (0 : Fin 1) r j) = outXArr V c (ix3 b s j) := by
  obtain ⟨-, -, -, -, -, -, -, -, -, e0, e1, e2, -⟩ := outIdx_facts t
  show V c main_arg0 (((cfg2.win 4).blk t).view.emb (ix3 (0 : Fin 1) r j)) = V c main_arg0 (ix3 b s j)
  refine congrArg (V c main_arg0) ?_
  funext a; apply Fin.ext
  match a with
  | ⟨0, _⟩ => show win2_4.index t (0 : Fin 3) * 1 + 1 * 0 = b.val; omega
  | ⟨1, _⟩ => show win2_4.index t (1 : Fin 3) * 512 + 1 * r.val = s.val; omega
  | ⟨2, _⟩ => show win2_4.index t (2 : Fin 3) * 1024 + 1 * j.val = j.val; omega

/-- What point `t` writes back is block `t` of the specification's array. -/
theorem outFlushed_eq (c : Dev nD) (t : Fin cfg2.N) :
    (dat2 V c).flushed 5 t = ((cfg2.win 5).blk t).view.read (Elt Ideal)
      (Cert.Spec.outArr (V c main_v4_0) (V c main_v5) (V c main_v3) (V c main_arg6) (V c main_arg0)) := by
  show (cfg2.win 5).cut (grid2.coords t) ((dat2 V c).after 5 t) = _
  rw [after2_5]
  unfold out2_5
  obtain ⟨-, -, -, -, -, -, -, -, -, -, -, -, e2, hb0, hb1⟩ := outIdx_facts t
  funext y
  obtain ⟨u, r, j, rfl⟩ : ∃ (u : Fin 1) (r : Fin 512) (j : Fin 1024), y = ix3 u r j := ⟨y 0, y 1, y 2, eq_ix3 y⟩
  have hu : u.val = 0 := by omega
  have hr : r.val < 512 := r.isLt
  obtain ⟨b, hb⟩ : ∃ b : Fin 4, b.val = win2_5.index t (0 : Fin 3) := ⟨⟨win2_5.index t (0 : Fin 3), by omega⟩, rfl⟩
  obtain ⟨s, hs⟩ : ∃ s : Fin 4096, s.val = win2_5.index t (1 : Fin 3) * 512 + r.val :=
    ⟨⟨win2_5.index t (1 : Fin 3) * 512 + r.val, by omega⟩, rfl⟩
  have hi : ((cfg2.win 5).blk t).view.emb (ix3 u r j) = ix3 b s j := by
    funext a; apply Fin.ext
    match a with
    | ⟨0, _⟩ => show win2_5.index t (0 : Fin 3) * 1 + 1 * u.val = b.val; omega
    | ⟨1, _⟩ => show win2_5.index t (1 : Fin 3) * 512 + 1 * r.val = s.val; omega
    | ⟨2, _⟩ => show win2_5.index t (2 : Fin 3) * 1024 + 1 * j.val = j.val; omega
  show (k2_pay1 (F := Ideal) (outQBlk V c t) (outKvBlk V c t) (outPwBlk V c t) (outPbBlk V c t) (outXBlk V c t) (ix3 u r j) : EReal)
      = Cert.Spec.outArr (outQArr V c) (outKvArr V c) (outPwArr V c) (outPbArr V c) (outXArr V c) (((cfg2.win 5).blk t).view.emb (ix3 u r j))
  rw [hi]
  exact outPay_eq_spec (outQBlk V c t) (outKvBlk V c t) (outPwBlk V c t) (outPbBlk V c t) (outXBlk V c t)
    (outQArr V c) (outKvArr V c) (outPwArr V c) (outPbArr V c) (outXArr V c) u r j b s
    (fun c1 => outQBlk_apply V c t r c1 b s hb hs) (fun c1 c' => outKvBlk_apply V c t c1 c' b hb)
    (fun c' => outPwBlk_apply V c t c' j) (outPbBlk_apply V c t j) (outXBlk_apply V c t r j b s hb hs)

/-- An index of the array is in point `t`'s block iff each coordinate is in the block's range on its axis. -/
theorem outMem_blk (t : Fin cfg2.N) (i : S4x4096x1024.Idx) :
    i ∈ ((cfg2.win 5).blk t).view.set
      ↔ ∀ a : Fin 3, win2_5.index t a * S1x512x1024.size a ≤ (i a).val ∧ (i a).val < win2_5.index t a * S1x512x1024.size a + S1x512x1024.size a := by
  show i ∈ ((View.whole main_v6).slice (win2_5.rect t)).set ↔ _
  rw [View.set_slice_whole, Rect.mem_set_unit]
  exact Iff.rfl

/-- Every index of the array is in some point's block: the point of batch `i 0` and row block `i 1 / 512`. -/
theorem outCover (i : S4x4096x1024.Idx) :
    ∃ t : Fin cfg2.N, (cfg2.win 5).flush t = true ∧ i ∈ ((cfg2.win 5).blk t).view.set := by
  have hi0 : (i 0).val < 4 := (i 0).isLt
  have hi1 : (i 1).val < 4096 := (i 1).isLt
  have hi2 : (i 2).val < 1024 := (i 2).isLt
  obtain ⟨t, ht⟩ := outIdx_onto ⟨(i 0).val, hi0⟩ ⟨(i 1).val / 512, by omega⟩
  have q0 : win2_5.index t (0 : Fin 3) = (i 0).val := congrFun ht 0
  have q1 : win2_5.index t (1 : Fin 3) = (i 1).val / 512 := congrFun ht 1
  have q2 : win2_5.index t (2 : Fin 3) = 0 := congrFun ht 2
  refine ⟨t, flush2_5 t, ?_⟩
  rw [outMem_blk]
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 512 ≤ (i 1).val ∧ (i 1).val < win2_5.index t (1 : Fin 3) * 512 + 512; omega
  | ⟨2, _⟩ => show win2_5.index t (2 : Fin 3) * 1024 ≤ (i 2).val ∧ (i 2).val < win2_5.index t (2 : Fin 3) * 1024 + 1024; omega

/-- The output array after the region is the specification's function of the arrays the region is entered with. -/
theorem arr2_5 (c : Dev nD) : (dat2 V c).arrAt 5 cfg2.N
    = Cert.Spec.outArr (V c main_v4_0) (V c main_v5) (V c main_v3) (V c main_arg6) (V c main_arg0) :=
  (dat2 V c).arrAt_eq_of_cover 5 (Cert.Spec.outArr (V c main_v4_0) (V c main_v5) (V c main_v3) (V c main_arg6) (V c main_arg0))
    (fun t _ => outFlushed_eq V c t) (outCover)

end Cert.KernelIdeal.Hand

end
-- ==== Proof.KI.Value.lean ====
/-
  The idealized kernel's result: the contents of the result array at the end of the run, as the specification's function
  of the seven argument arrays. Walking back through the boundaries: the result is the third region's output, a function of
  q (the first region's first output), of the per-batch matrix (the second region's output, itself a function of the first
  region's second and third outputs), of the last projection's matrix as the host operations leave it (the input read
  transposed; the change of format is the identity on the extended reals), of the bias and of x; and the first region's
  outputs are functions of x, the scale, the shift, the first projection's matrix read transposed, and its bias.
-/
import proofs.«160551_j79027398246801_1_alg».proof.Proof.Gen.KernelIdeal.Launch
import proofs.«160551_j79027398246801_1_alg».proof.Proof.Gen.KernelIdeal.Skeleton
import proofs.«160551_j79027398246801_1_alg».proof.Proof.Gen.KernelIdeal.Points
import proofs.«160551_j79027398246801_1_alg».proof.Proof.KI.Frame
import proofs.«160551_j79027398246801_1_alg».proof.Proof.KI.Val0
import proofs.«160551_j79027398246801_1_alg».proof.Proof.KI.Val1
import proofs.«160551_j79027398246801_1_alg».proof.Proof.KI.Val2
import proofs.«160551_j79027398246801_1_alg».proof.Proof.Spec
import Idealize.ShloMosaic.Lib.StableHlo.Run
import Idealize.ShloMosaic.Lib.ValueLayout
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.StableHlo

variable (m : (ℓ : Loc nD τ sig) → Buf (Elt Ideal) ℓ)

/-! ## What the host operations leave -/

/-- The first projection's matrix as the first region finds it: the input read transposed. -/
theorem V1_main_v1 (c : Dev nD) : V1 m c main_v1 = Cert.Spec.tr (m ((c : Thread nD τ).loc main_arg3)) := by
  have e : (V1 m c main_v1 : FVec Ideal S1024x3072 .bf16) = truncf (F := Ideal) .bf16 (transpose S1024x3072 [1, 0]
      ((m ((c : Thread nD τ).loc main_arg3)) : FVec Ideal S3072x1024 .f32) Facts₀.transposes_S3072x1024_S1024x3072_1_0) Facts₀.bitsLt_bf16_f32 := by
    show StableHlo.after hostOps0 (fun b => m (c, b)) (Proc.devRef .tc main_v1) = _
    after_results
  rw [e]; funext i
  obtain ⟨a, b, rfl⟩ : ∃ a b, i = ix2 a b := ⟨i 0, i 1, eq_ix2 i⟩
  rw [truncf_apply, transpose_ix2_apply]; rfl

/-- The last projection's matrix as the regions find it: the input read transposed. -/
theorem V1_main_v3 (c : Dev nD) : V1 m c main_v3 = Cert.Spec.tr (m ((c : Thread nD τ).loc main_arg5)) := by
  have e : (V1 m c main_v3 : FVec Ideal S1024x1024 .bf16) = truncf (F := Ideal) .bf16 (transpose S1024x1024 [1, 0]
      ((m ((c : Thread nD τ).loc main_arg5)) : FVec Ideal S1024x1024 .f32) Facts₀.transposes_S1024x1024_S1024x1024_1_0) Facts₀.bitsLt_bf16_f32 := by
    show StableHlo.after hostOps0 (fun b => m (c, b)) (Proc.devRef .tc main_v3) = _
    after_results
  rw [e]; funext i
  obtain ⟨a, b, rfl⟩ : ∃ a b, i = ix2 a b := ⟨i 0, i 1, eq_ix2 i⟩
  rw [truncf_apply, transpose_ix2_apply]; rfl

/-! ## The first region's outputs, from the launch memory -/

theorem V2_q (c : Dev nD) : V2 m c main_v4_0
    = Cert.Spec.qArr (m ((c : Thread nD τ).loc main_arg0)) (m ((c : Thread nD τ).loc main_arg1)) (m ((c : Thread nD τ).loc main_arg2)) (Cert.Spec.tr (m ((c : Thread nD τ).loc main_arg3))) (m ((c : Thread nD τ).loc main_arg4)) := by
  rw [show V2 m c main_v4_0 = (dat0 (V1 m) c).arrAt 5 cfg0.N from W2_arr m c 5, arr0_5, V1_main_v1,
    show V1 m c main_arg0 = _ from W1_of m c main_arg0 (by decide), show V1 m c main_arg1 = _ from W1_of m c main_arg1 (by decide),
    show V1 m c main_arg2 = _ from W1_of m c main_arg2 (by decide), show V1 m c main_arg4 = _ from W1_of m c main_arg4 (by decide)]
theorem V2_k (c : Dev nD) : V2 m c main_v4_1
    = Cert.Spec.kArr (m ((c : Thread nD τ).loc main_arg0)) (m ((c : Thread nD τ).loc main_arg1)) (m ((c : Thread nD τ).loc main_arg2)) (Cert.Spec.tr (m ((c : Thread nD τ).loc main_arg3))) (m ((c : Thread nD τ).loc main_arg4)) := by
  rw [show V2 m c main_v4_1 = (dat0 (V1 m) c).arrAt 6 cfg0.N from W2_arr m c 6, arr0_6, V1_main_v1,
    show V1 m c main_arg0 = _ from W1_of m c main_arg0 (by decide), show V1 m c main_arg1 = _ from W1_of m c main_arg1 (by decide),
    show V1 m c main_arg2 = _ from W1_of m c main_arg2 (by decide), show V1 m c main_arg4 = _ from W1_of m c main_arg4 (by decide)]
theorem V2_v (c : Dev nD) : V2 m c main_v4_2
    = Cert.Spec.vArr (m ((c : Thread nD τ).loc main_arg0)) (m ((c : Thread nD τ).loc main_arg1)) (m ((c : Thread nD τ).loc main_arg2)) (Cert.Spec.tr (m ((c : Thread nD τ).loc main_arg3))) (m ((c : Thread nD τ).loc main_arg4)) := by
  rw [show V2 m c main_v4_2 = (dat0 (V1 m) c).arrAt 7 cfg0.N from W2_arr m c 7, arr0_7, V1_main_v1,
    show V1 m c main_arg0 = _ from W1_of m c main_arg0 (by decide), show V1 m c main_arg1 = _ from W1_of m c main_arg1 (by decide),
    show V1 m c main_arg2 = _ from W1_of m c main_arg2 (by decide), show V1 m c main_arg4 = _ from W1_of m c main_arg4 (by decide)]

/-! ## What the third region is entered with -/

theorem V3_q (c : Dev nD) : V3 m c main_v4_0 = V2 m c main_v4_0 := W3_of_ne m c main_v4_0 (by decide)
theorem V3_kv (c : Dev nD) : V3 m c main_v5 = Cert.Spec.kvArr (V2 m c main_v4_1) (V2 m c main_v4_2) := by
  rw [show V3 m c main_v5 = (dat1 (V2 m) c).arrAt 2 cfg1.N from W3_arr m c 2, arr1_2]
theorem V3_pw (c : Dev nD) : V3 m c main_v3 = Cert.Spec.tr (m ((c : Thread nD τ).loc main_arg5)) :=
  ((W3_of_ne m c main_v3 (by decide)).trans (W2_of_ne m c main_v3 (by decide))).trans (V1_main_v3 m c)
theorem V3_pb (c : Dev nD) : V3 m c main_arg6 = (m ((c : Thread nD τ).loc main_arg6)) :=
  ((W3_of_ne m c main_arg6 (by decide)).trans (W2_of_ne m c main_arg6 (by decide))).trans (W1_of m c main_arg6 (by decide))
theorem V3_x (c : Dev nD) : V3 m c main_arg0 = (m ((c : Thread nD τ).loc main_arg0)) :=
  ((W3_of_ne m c main_arg0 (by decide)).trans (W2_in m c 0 rfl)).trans (W1_of m c main_arg0 (by decide))

/-! ## The result -/

/-- The result array at the last boundary is the specification's array of the seven arguments. -/
theorem value_v6 (c : Dev nD) : W4 m c (Proc.devRef .tc main_v6)
    = Cert.Spec.kernelArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [show W4 m c (Proc.devRef .tc main_v6) = (dat2 (V3 m) c).arrAt 5 cfg2.N from W4_arr m c 5, arr2_5,
    V3_q, V3_kv, V3_pw, V3_pb, V3_x, V2_q, V2_k, V2_v]
  rfl

/-- Every weakly fair execution of the idealized kernel ends with its result at `Spec.kernelArr` of the arguments, the
    arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v6) = Cert.Spec.kernelArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v6 (by decide))).trans (value_v6 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

end Cert.KernelIdeal.Hand

end
-- ==== Proof.RefSpec.lean ====
/-
  The reference program's run, its result named as the specification's array of the seven inputs.

  The reference is read one operation at a time, at explicit coordinates `(b, t, c)`: the row mean and the mean square
  deviation (two sums over the 1024 columns, each from the zero literal, each divided by the literal 1024), the
  normalised row (the deviation from the mean — the program subtracts the mean a second time for it — times the
  inverse square root of the variance plus the small constant, times the weight, plus the bias), the projection to 3072
  columns (the matrix read transposed) and its three blocks of 1024 columns, the 4096 by 4096 matrix of row products
  divided by the square root of the literal 1024, its product with the third block, the last projection, its bias, and
  the row itself added in front. Each stage is the specification's function of the same name; nothing is reassociated.
-/
import proofs.«160551_j79027398246801_1_alg».proof.Proof.Gen.ReferenceIdeal.Run
import proofs.«160551_j79027398246801_1_alg».proof.Proof.Gen.ReferenceIdeal.Read
import proofs.«160551_j79027398246801_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefSpec

open Cert.ReferenceIdeal Cert.ReferenceIdeal.Gen Idealize.ShloMosaic Idealize.ShloMosaic.TcCoe Idealize.SL.Sem Idealize.ShloMosaic.StableHlo
open Idealize.ShloMosaic.ValueIdx

/-! ## The inputs' types -/

/-- A 4 × 4096 × 1024 array of extended reals, as the reference's stages take it. -/
abbrev T3 : Type := (⟨S4x4096x1024, .f32⟩ : BufTy).Contents (Elt Ideal)
/-- A vector of 1024 extended reals. -/
abbrev T1 : Type := (⟨S1024, .f32⟩ : BufTy).Contents (Elt Ideal)
/-- The 3072 × 1024 projection matrix. -/
abbrev TW : Type := (⟨S3072x1024, .f32⟩ : BufTy).Contents (Elt Ideal)
/-- The projection's bias, 3072 long. -/
abbrev TB : Type := (⟨S3072, .f32⟩ : BufTy).Contents (Elt Ideal)
/-- The last projection's 1024 × 1024 matrix. -/
abbrev TP : Type := (⟨S1024x1024, .f32⟩ : BufTy).Contents (Elt Ideal)

variable (x0 : T3) (x1 x2 : T1) (x3 : TW) (x4 : TB) (x5 : TP) (x6 : T1)

/-! ## Mean and variance of a row -/

/-- The quotient of the row sum by 1024, at row `(b, t)`, is the specification's mean. -/
theorem mean_at (b : Fin 4) (t : Fin 4096) (z : Fin 1) :
    Read.val_main_v3 (F := Ideal) x0 (ix3 b t z) = Spec.mean (Spec.cur3 x0) b t := by
  rw [Read.val_main_v3_apply, Read.val_main_v1_apply, Read.val_main_v0_apply, Read.val_main_v2_apply,
    Read.val_main_cst_0_apply, Read.val_main_cst_apply]
  simp only [Ideal.hostDivf_def, Ideal.ofBits_def, Ideal.ofBits_zero_f32, zero_add]
  unfold Spec.mean
  refine congrArg (Ideal.div · _) (Finset.sum_congr rfl fun k _ => congrArg x0 ?_)
  exact funext fun a => Fin.ext (by match a with | ⟨0, _⟩ => rfl | ⟨1, _⟩ => rfl | ⟨2, _⟩ => rfl)

/-- The first subtraction of the mean (the one that is squared). -/
theorem dev_sq_at (b : Fin 4) (t : Fin 4096) (c : Fin 1024) :
    Read.val_main_v5 (F := Ideal) x0 (ix3 b t c) = x0 (ix3 b t c) - Spec.mean (Spec.cur3 x0) b t := by
  have hi : Read.idx_main_v4 (ix3 b t c) = ix3 b t (⟨0, Nat.one_pos⟩ : Fin 1) :=
    funext fun a => Fin.ext (by match a with | ⟨0, _⟩ => rfl | ⟨1, _⟩ => rfl | ⟨2, _⟩ => rfl)
  rw [Read.val_main_v5_apply, Read.val_main_v4_apply, hi, mean_at, Ideal.subf_def]

/-- The second subtraction of the mean (the one that is normalised). -/
theorem dev_at (b : Fin 4) (t : Fin 4096) (c : Fin 1024) :
    Read.val_main_v12 (F := Ideal) x0 (ix3 b t c) = x0 (ix3 b t c) - Spec.mean (Spec.cur3 x0) b t := by
  have hi : Read.idx_main_v11 (ix3 b t c) = ix3 b t (⟨0, Nat.one_pos⟩ : Fin 1) :=
    funext fun a => Fin.ext (by match a with | ⟨0, _⟩ => rfl | ⟨1, _⟩ => rfl | ⟨2, _⟩ => rfl)
  rw [Read.val_main_v12_apply, Read.val_main_v11_apply, hi, mean_at, Ideal.subf_def]

/-- The quotient of the sum of squared deviations by 1024 is the specification's variance. -/
theorem var_at (b : Fin 4) (t : Fin 4096) (z : Fin 1) :
    Read.val_main_v10 (F := Ideal) x0 (ix3 b t z) = Spec.var (Spec.cur3 x0) b t := by
  rw [Read.val_main_v10_apply, Read.val_main_v8_apply, Read.val_main_v7_apply, Read.val_main_v9_apply,
    Read.val_main_cst_2_apply, Read.val_main_cst_1_apply]
  simp only [Ideal.hostDivf_def, Ideal.ofBits_def, Ideal.ofBits_zero_f32, zero_add]
  unfold Spec.var
  refine congrArg (Ideal.div · _) (Finset.sum_congr rfl fun k _ => ?_)
  have hk : Read.idx_main_v7 (Read.idx_main_v8 (ix3 b t z)) k = ix3 b t k :=
    funext fun a => Fin.ext (by match a with | ⟨0, _⟩ => rfl | ⟨1, _⟩ => rfl | ⟨2, _⟩ => rfl)
  rw [hk, Read.val_main_v6_apply, dev_sq_at, Ideal.mulf_def]

/-! ## The normalised row -/

/-- The deviation times the inverse square root of the variance plus the small constant, times the weight, plus the
    bias. -/
theorem ln_at (b : Fin 4) (t : Fin 4096) (c : Fin 1024) :
    Read.val_main_v23 (F := Ideal) x0 x1 x2 (ix3 b t c)
      = Spec.ln (Spec.cur3 x0) (Spec.cur1 x1) (Spec.cur1 x2) b t c := by
  have h16 : Read.idx_main_v16 (ix3 b t c) = ix3 b t (⟨0, Nat.one_pos⟩ : Fin 1) :=
    funext fun a => Fin.ext (by match a with | ⟨0, _⟩ => rfl | ⟨1, _⟩ => rfl | ⟨2, _⟩ => rfl)
  have h18 : Read.idx_main_v18 (Read.idx_main_v19 (ix3 b t c)) = ix1 c :=
    funext fun a => Fin.ext (by match a with | ⟨0, _⟩ => rfl)
  have h21 : Read.idx_main_v21 (Read.idx_main_v22 (ix3 b t c)) = ix1 c :=
    funext fun a => Fin.ext (by match a with | ⟨0, _⟩ => rfl)
  rw [Read.val_main_v23_apply, Read.val_main_v20_apply, Read.val_main_v17_apply, Read.val_main_v16_apply,
    Read.val_main_v15_apply, Read.val_main_v14_apply, Read.val_main_v13_apply, Read.val_main_cst_3_apply,
    Read.val_main_v19_apply, Read.val_main_v18_apply, Read.val_main_v22_apply, Read.val_main_v21_apply,
    h16, h18, h21, dev_at, var_at]
  simp only [Ideal.addf_def, Ideal.mulf_def, Ideal.hostUnary_rsqrt_def, Ideal.ofBits_def]
  rfl

/-! ## The projection to 3072 columns and its three blocks -/

/-- The normalised row times the matrix read transposed, plus the bias. -/
theorem qkv_at (b : Fin 4) (t : Fin 4096) (o : Fin 3072) :
    Read.val_main_v27 (F := Ideal) x0 x1 x2 x3 x4 (ix3 b t o)
      = Spec.qkv (Spec.cur3 x0) (Spec.cur1 x1) (Spec.cur1 x2) (Spec.cur2 (Spec.tr x3)) (Spec.cur1 x4) b t o := by
  have h25 : Read.idx_main_v25 (Read.idx_main_v26 (ix3 b t o)) = ix1 o :=
    funext fun a => Fin.ext (by match a with | ⟨0, _⟩ => rfl)
  rw [Read.val_main_v27_apply, Read.val_main_v24_apply, Read.val_main_v26_apply, Read.val_main_v25_apply, h25,
    Ideal.addf_def]
  unfold Spec.qkv
  refine congrArg (· + _) (Finset.sum_congr rfl fun k _ => ?_)
  have hl : Read.lidx_main_v24 (ix3 b t o) k = ix3 b t k :=
    funext fun a => Fin.ext (by match a with | ⟨0, _⟩ => rfl | ⟨1, _⟩ => rfl | ⟨2, _⟩ => rfl)
  have hr : Read.ridx_main_v24 (ix3 b t o) k = ix2 o k :=
    funext fun a => Fin.ext (by match a with | ⟨0, _⟩ => rfl | ⟨1, _⟩ => rfl)
  rw [hl, hr, ln_at]
  rfl

/-- The first block of 1024 columns. -/
theorem q_at (b : Fin 4) (t : Fin 4096) (c : Fin 1024) :
    Read.val_main_v28 (F := Ideal) x0 x1 x2 x3 x4 (ix3 b t c)
      = Spec.qS (Spec.cur3 x0) (Spec.cur1 x1) (Spec.cur1 x2) (Spec.cur2 (Spec.tr x3)) (Spec.cur1 x4) b t c := by
  have hi : Read.idx_main_v28 (ix3 b t c)
      = ix3 b t (⟨c.val, Nat.lt_of_lt_of_le c.isLt (by decide)⟩ : Fin 3072) :=
    funext fun a => Fin.ext (by match a with | ⟨0, _⟩ => rfl | ⟨1, _⟩ => rfl | ⟨2, _⟩ => rfl)
  rw [Read.val_main_v28_apply, hi, qkv_at]
  rfl

/-- The second block: columns 1024 to 2047. -/
theorem k_at (b : Fin 4) (t : Fin 4096) (c : Fin 1024) :
    Read.val_main_v29 (F := Ideal) x0 x1 x2 x3 x4 (ix3 b t c)
      = Spec.kS (Spec.cur3 x0) (Spec.cur1 x1) (Spec.cur1 x2) (Spec.cur2 (Spec.tr x3)) (Spec.cur1 x4) b t c := by
  have hi : Read.idx_main_v29 (ix3 b t c)
      = ix3 b t (⟨1024 + c.val, by have := c.isLt; omega⟩ : Fin 3072) :=
    funext fun a => Fin.ext (by match a with | ⟨0, _⟩ => rfl | ⟨1, _⟩ => rfl | ⟨2, _⟩ => rfl)
  rw [Read.val_main_v29_apply, hi, qkv_at]
  rfl

/-- The third block: columns 2048 to 3071. -/
theorem v_at (b : Fin 4) (t : Fin 4096) (c : Fin 1024) :
    Read.val_main_v30 (F := Ideal) x0 x1 x2 x3 x4 (ix3 b t c)
      = Spec.vS (Spec.cur3 x0) (Spec.cur1 x1) (Spec.cur1 x2) (Spec.cur2 (Spec.tr x3)) (Spec.cur1 x4) b t c := by
  have hi : Read.idx_main_v30 (ix3 b t c)
      = ix3 b t (⟨2048 + c.val, by have := c.isLt; omega⟩ : Fin 3072) :=
    funext fun a => Fin.ext (by match a with | ⟨0, _⟩ => rfl | ⟨1, _⟩ => rfl | ⟨2, _⟩ => rfl)
  rw [Read.val_main_v30_apply, hi, qkv_at]
  rfl

/-! ## The row products, scaled, times the third block -/

/-- Entry `(t, s)` of batch `b`: the product of row `t` of the first block with row `s` of the second, divided by the
    square root of the literal 1024. -/
theorem score_at (b : Fin 4) (t s : Fin 4096) :
    Read.val_main_v34 (F := Ideal) x0 x1 x2 x3 x4 (ix3 b t s)
      = Ideal.div (∑ c : Fin 1024,
          Spec.qS (Spec.cur3 x0) (Spec.cur1 x1) (Spec.cur1 x2) (Spec.cur2 (Spec.tr x3)) (Spec.cur1 x4) b t c
            * Spec.kS (Spec.cur3 x0) (Spec.cur1 x1) (Spec.cur1 x2) (Spec.cur2 (Spec.tr x3)) (Spec.cur1 x4) b s c)
          (Ideal.sqrt Spec.cN) := by
  rw [Read.val_main_v34_apply, Read.val_main_v31_apply, Read.val_main_v33_apply, Read.val_main_v32_apply,
    Read.val_main_cst_4_apply, Ideal.hostDivf_def, Ideal.hostUnary_sqrt_def, Ideal.ofBits_def]
  refine congrArg (Ideal.div · _) (Finset.sum_congr rfl fun k _ => ?_)
  have hl : Read.lidx_main_v31 (ix3 b t s) k = ix3 b t k :=
    funext fun a => Fin.ext (by match a with | ⟨0, _⟩ => rfl | ⟨1, _⟩ => rfl | ⟨2, _⟩ => rfl)
  have hr : Read.ridx_main_v31 (ix3 b t s) k = ix3 b s k :=
    funext fun a => Fin.ext (by match a with | ⟨0, _⟩ => rfl | ⟨1, _⟩ => rfl | ⟨2, _⟩ => rfl)
  rw [hl, hr, q_at, k_at]

/-- Row `t` of the scaled products times column `c` of the third block, summed over the 4096 rows. -/
theorem o_at (b : Fin 4) (t : Fin 4096) (c : Fin 1024) :
    Read.val_main_v35 (F := Ideal) x0 x1 x2 x3 x4 (ix3 b t c)
      = Spec.oR (Spec.qS (Spec.cur3 x0) (Spec.cur1 x1) (Spec.cur1 x2) (Spec.cur2 (Spec.tr x3)) (Spec.cur1 x4))
          (Spec.kS (Spec.cur3 x0) (Spec.cur1 x1) (Spec.cur1 x2) (Spec.cur2 (Spec.tr x3)) (Spec.cur1 x4))
          (Spec.vS (Spec.cur3 x0) (Spec.cur1 x1) (Spec.cur1 x2) (Spec.cur2 (Spec.tr x3)) (Spec.cur1 x4)) b t c := by
  rw [Read.val_main_v35_apply]
  unfold Spec.oR
  refine Finset.sum_congr rfl fun s _ => ?_
  have hl : Read.lidx_main_v35 (ix3 b t c) s = ix3 b t s :=
    funext fun a => Fin.ext (by match a with | ⟨0, _⟩ => rfl | ⟨1, _⟩ => rfl | ⟨2, _⟩ => rfl)
  have hr : Read.ridx_main_v35 (ix3 b t c) s = ix3 b s c :=
    funext fun a => Fin.ext (by match a with | ⟨0, _⟩ => rfl | ⟨1, _⟩ => rfl | ⟨2, _⟩ => rfl)
  rw [hl, hr, score_at, v_at]

/-! ## The last projection, its bias, the row in front -/

/-- The row of `x` plus (the last projection, the matrix read transposed, plus its bias). -/
theorem out_at (b : Fin 4) (t : Fin 4096) (j : Fin 1024) :
    Read.val_main_v40 (F := Ideal) x0 x1 x2 x3 x4 x5 x6 (ix3 b t j)
      = Spec.outR
          (Spec.oR (Spec.qS (Spec.cur3 x0) (Spec.cur1 x1) (Spec.cur1 x2) (Spec.cur2 (Spec.tr x3)) (Spec.cur1 x4))
            (Spec.kS (Spec.cur3 x0) (Spec.cur1 x1) (Spec.cur1 x2) (Spec.cur2 (Spec.tr x3)) (Spec.cur1 x4))
            (Spec.vS (Spec.cur3 x0) (Spec.cur1 x1) (Spec.cur1 x2) (Spec.cur2 (Spec.tr x3)) (Spec.cur1 x4)))
          (Spec.cur3 x0) (Spec.cur2 (Spec.tr x5)) (Spec.cur1 x6) b t j := by
  have h37 : Read.idx_main_v37 (Read.idx_main_v38 (ix3 b t j)) = ix1 j :=
    funext fun a => Fin.ext (by match a with | ⟨0, _⟩ => rfl)
  rw [Read.val_main_v40_apply, Read.val_main_v39_apply, Read.val_main_v36_apply, Read.val_main_v38_apply,
    Read.val_main_v37_apply, h37, Ideal.addf_def, Ideal.addf_def]
  unfold Spec.outR
  refine congrArg (_ + ·) (congrArg (· + _) (Finset.sum_congr rfl fun k _ => ?_))
  have hl : Read.lidx_main_v36 (ix3 b t j) k = ix3 b t k :=
    funext fun a => Fin.ext (by match a with | ⟨0, _⟩ => rfl | ⟨1, _⟩ => rfl | ⟨2, _⟩ => rfl)
  have hr : Read.ridx_main_v36 (ix3 b t j) k = ix2 j k :=
    funext fun a => Fin.ext (by match a with | ⟨0, _⟩ => rfl | ⟨1, _⟩ => rfl)
  rw [hl, hr, o_at]
  rfl

/-! ## The whole array -/

/-- The three blocks as whole arrays, read back by coordinates, are the blocks by coordinates. -/
theorem cur3_qArr (X : Spec.A3) (NW NB : Spec.A1 1024) (WT : Spec.A2 1024 3072) (QB : Spec.A1 3072) :
    Spec.cur3 (Spec.qArr X NW NB WT QB)
      = Spec.qS (Spec.cur3 X) (Spec.cur1 NW) (Spec.cur1 NB) (Spec.cur2 WT) (Spec.cur1 QB) := rfl
theorem cur3_kArr (X : Spec.A3) (NW NB : Spec.A1 1024) (WT : Spec.A2 1024 3072) (QB : Spec.A1 3072) :
    Spec.cur3 (Spec.kArr X NW NB WT QB)
      = Spec.kS (Spec.cur3 X) (Spec.cur1 NW) (Spec.cur1 NB) (Spec.cur2 WT) (Spec.cur1 QB) := rfl
theorem cur3_vArr (X : Spec.A3) (NW NB : Spec.A1 1024) (WT : Spec.A2 1024 3072) (QB : Spec.A1 3072) :
    Spec.cur3 (Spec.vArr X NW NB WT QB)
      = Spec.vS (Spec.cur3 X) (Spec.cur1 NW) (Spec.cur1 NB) (Spec.cur2 WT) (Spec.cur1 QB) := rfl

/-- The reference's last stage is the specification's array of the seven inputs. -/
theorem result_eq : Read.val_main_v40 (F := Ideal) x0 x1 x2 x3 x4 x5 x6 = Spec.refArr x0 x1 x2 x3 x4 x5 x6 := by
  funext i
  obtain ⟨b, t, j, rfl⟩ : ∃ (b : Fin 4) (t : Fin 4096) (j : Fin 1024), i = ix3 b t j := ⟨i 0, i 1, i 2, eq_ix3 i⟩
  rw [out_at]
  unfold Spec.refArr
  rw [cur3_qArr, cur3_kArr, cur3_vArr]

/-- Every weakly fair execution of the reference ends with its result at `Spec.refArr` of the inputs, the inputs unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v40)
        = Cert.Spec.refArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run (defs (F := Ideal)) _ _).mono (fun _ h c => ⟨(h c).1.trans ?_, (h c).2⟩)
    (Cert.ReferenceIdeal.Value.run (F := Ideal) m ρ)
  exact (Read.val_main_v40_eq (F := Ideal) m c).trans (result_eq _ _ _ _ _ _ _)

end Cert.ReferenceIdeal.RefSpec

end
-- ==== Proof.SpecLaw.lean ====
/-
  The two orders of the attention product agree on finite inputs.

  Every intermediate value of a finite input is a real number: the three literals are the reals 1024, a positive constant
  and 1/32; a division by 1024 is a product with 1/1024; the variance is a sum of squares over 1024, so the variance plus
  the positive constant is positive and its inverse square root is real; sums and products of reals are real. On real
  numbers the sum over rows and the sum over columns of `q · k · v` exchange and the factor 1/32 moves out of both; the
  division by `sqrt 1024 = 32` is the product with 1/32. The last addition commutes on the extended reals as it stands.
-/
import proofs.«160551_j79027398246801_1_alg».proof.Proof.Spec

noncomputable section

open scoped BigOperators

namespace Cert.Spec

open Idealize.ShloMosaic Idealize.ShloMosaic.ValueIdx

/-! ## Real values among the extended reals -/

/-- An extended real that is the image of a real number. -/
def IsR (a : EReal) : Prop := ∃ r : ℝ, a = (r : EReal)

theorem IsR.coe (r : ℝ) : IsR (r : EReal) := ⟨r, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

/-- The image of a finite sum of reals is the sum of the images. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.sum {ι : Type} (s : Finset ι) (f : ι → EReal) (h : ∀ i, IsR (f i)) : IsR (∑ i ∈ s, f i) := by
  choose g hg using h
  exact ⟨∑ i ∈ s, g i, by rw [coe_sum]; exact Finset.sum_congr rfl fun i _ => hg i⟩

/-! ## The three literals -/

theorem cN_eq : cN = ((1024 : ℝ) : EReal) := by
  simp [Ideal.ofBits, Ideal.ieee, -EReal.coe_mul]; norm_num

theorem cScale_eq : cScale = ((1 / 32 : ℝ) : EReal) := by
  simp [Ideal.ofBits, Ideal.ieee, -EReal.coe_mul]; norm_num

theorem cEps_pos : ∃ e : ℝ, 0 < e ∧ cEps = (e : EReal) :=
  ⟨10995116 * (2 : ℝ) ^ (-40 : ℤ), by positivity, by simp [Ideal.ofBits, Ideal.ieee, -EReal.coe_mul]⟩

/-- `sqrt 1024 = 32`. -/
theorem sqrt_cN : Ideal.sqrt cN = ((32 : ℝ) : EReal) := by
  rw [cN_eq, Ideal.sqrt_coe, if_neg (by norm_num)]
  refine congrArg (fun z : ℝ => (z : EReal)) ?_
  rw [show (1024 : ℝ) = 32 ^ 2 by norm_num]
  exact Real.sqrt_sq (by norm_num)

/-- The division by the literal 1024 is the product with the real `1/1024`. -/
theorem div_cN (a : EReal) : Ideal.div a cN = a * ((1 / 1024 : ℝ) : EReal) := by
  rw [cN_eq]; exact Ideal.div_coe (by norm_num) a

/-- The inverse square root of a positive real is real. -/
theorem rsqrt_isR {r : ℝ} (h : 0 < r) : IsR (Ideal.rsqrt (r : EReal)) := by
  rw [Ideal.rsqrt_coe, if_neg (not_lt.2 h.le), if_neg h.ne']
  exact IsR.coe _

/-! ## Every intermediate value of a finite input is real -/

section Finite

variable {x : Fin 4 → Fin 4096 → Fin 1024 → EReal} {w bb : Fin 1024 → EReal} {WT : Fin 1024 → Fin 3072 → EReal}
  {B : Fin 3072 → EReal}

theorem mean_isR (hx : ∀ b t j, IsR (x b t j)) (b : Fin 4) (t : Fin 4096) : IsR (mean x b t) := by
  unfold mean
  rw [div_cN]
  exact (IsR.sum _ _ fun j => hx b t j).mul (IsR.coe _)

/-- The variance of a real row is a nonnegative real: a sum of squares times `1/1024`. -/
theorem var_nonneg (hx : ∀ b t j, IsR (x b t j)) (b : Fin 4) (t : Fin 4096) :
    ∃ r : ℝ, 0 ≤ r ∧ var x b t = (r : EReal) := by
  obtain ⟨m, hm⟩ := mean_isR hx b t
  choose y hy using fun j => hx b t j
  refine ⟨(∑ j : Fin 1024, (y j - m) * (y j - m)) * (1 / 1024),
    mul_nonneg (Finset.sum_nonneg fun j _ => mul_self_nonneg _) (by norm_num), ?_⟩
  unfold var
  rw [div_cN, hm, EReal.coe_mul, coe_sum]
  refine congrArg (fun z : EReal => z * ((1 / 1024 : ℝ) : EReal)) ?_
  refine Finset.sum_congr rfl fun j _ => ?_
  rw [hy j, ← EReal.coe_sub, ← EReal.coe_mul]

theorem ln_isR (hx : ∀ b t j, IsR (x b t j)) (hw : ∀ c, IsR (w c)) (hbb : ∀ c, IsR (bb c)) (b : Fin 4) (t : Fin 4096)
    (c : Fin 1024) : IsR (ln x w bb b t c) := by
  obtain ⟨v, hv0, hv⟩ := var_nonneg hx b t
  obtain ⟨e, he0, he⟩ := cEps_pos
  unfold ln
  rw [hv, he, ← EReal.coe_add]
  exact ((((hx b t c).sub (mean_isR hx b t)).mul (rsqrt_isR (add_pos_of_nonneg_of_pos hv0 he0))).mul (hw c)).add (hbb c)

theorem qkv_isR (hx : ∀ b t j, IsR (x b t j)) (hw : ∀ c, IsR (w c)) (hbb : ∀ c, IsR (bb c)) (hW : ∀ c o, IsR (WT c o))
    (hB : ∀ o, IsR (B o)) (b : Fin 4) (t : Fin 4096) (o : Fin 3072) : IsR (qkv x w bb WT B b t o) := by
  unfold qkv
  exact (IsR.sum _ _ fun c => (ln_isR hx hw hbb b t c).mul (hW c o)).add (hB o)

end Finite

/-! ## The exchange of the two sums, on real numbers -/

theorem law_real (q : Fin 1024 → ℝ) (k : Fin 4096 → Fin 1024 → ℝ) (v : Fin 4096 → ℝ) :
    (∑ c1 : Fin 1024, q c1 * ∑ s : Fin 4096, k s c1 * v s) * (1 / 32)
      = ∑ s : Fin 4096, ((∑ c : Fin 1024, q c * k s c) * (1 / 32)) * v s := by
  simp only [Finset.mul_sum, Finset.sum_mul]
  rw [Finset.sum_comm]
  refine Finset.sum_congr rfl fun s _ => Finset.sum_congr rfl fun c _ => ?_
  ring

/-- On real entries, a row of `q` times `kᵀ v` scaled by `1/32` is `q kᵀ / sqrt 1024` times `v`. -/
theorem oK_eq_oR {q k v : Fin 4 → Fin 4096 → Fin 1024 → EReal} (hq : ∀ b t c, IsR (q b t c)) (hk : ∀ b t c, IsR (k b t c))
    (hv : ∀ b t c, IsR (v b t c)) (b : Fin 4) (t : Fin 4096) (c2 : Fin 1024) :
    oK q (kvK k v) b t c2 = oR q k v b t c2 := by
  choose q' hq' using fun c => hq b t c
  choose k' hk' using fun s c => hk b s c
  choose v' hv' using fun s => hv b s c2
  have hL : (∑ c1 : Fin 1024, q b t c1 * ∑ s : Fin 4096, k b s c1 * v b s c2) * ((1 / 32 : ℝ) : EReal)
      = (((∑ c1 : Fin 1024, q' c1 * ∑ s : Fin 4096, k' s c1 * v' s) * (1 / 32) : ℝ) : EReal) := by
    rw [EReal.coe_mul, coe_sum]
    refine congrArg (fun z : EReal => z * ((1 / 32 : ℝ) : EReal)) ?_
    refine Finset.sum_congr rfl fun c1 _ => ?_
    rw [EReal.coe_mul, coe_sum, hq' c1]
    refine congrArg (fun z : EReal => (q' c1 : EReal) * z) ?_
    refine Finset.sum_congr rfl fun s _ => ?_
    rw [EReal.coe_mul, hk' s c1, hv' s]
  have hR : ∑ s : Fin 4096, Ideal.div (∑ c : Fin 1024, q b t c * k b s c) ((32 : ℝ) : EReal) * v b s c2
      = ((∑ s : Fin 4096, ((∑ c : Fin 1024, q' c * k' s c) * (1 / 32)) * v' s : ℝ) : EReal) := by
    rw [coe_sum]
    refine Finset.sum_congr rfl fun s _ => ?_
    rw [Ideal.div_coe (by norm_num : (32 : ℝ) ≠ 0), EReal.coe_mul, EReal.coe_mul, coe_sum, hv' s]
    refine congrArg (fun z : EReal => z * ((1 / 32 : ℝ) : EReal) * (v' s : EReal)) ?_
    refine Finset.sum_congr rfl fun c _ => ?_
    rw [EReal.coe_mul, hq' c, hk' s c]
  show (∑ c1 : Fin 1024, q b t c1 * ∑ s : Fin 4096, k b s c1 * v b s c2) * cScale
      = ∑ s : Fin 4096, Ideal.div (∑ c : Fin 1024, q b t c * k b s c) (Ideal.sqrt cN) * v b s c2
  rw [cScale_eq, sqrt_cN, hL, hR, law_real]

/-- The last addition in either order. -/
theorem outK_eq_outR (o x : Fin 4 → Fin 4096 → Fin 1024 → EReal) (PWT : Fin 1024 → Fin 1024 → EReal) (PB : Fin 1024 → EReal)
    (b : Fin 4) (t : Fin 4096) (j : Fin 1024) : outK o x PWT PB b t j = outR o x PWT PB b t j := by
  unfold outK outR; exact add_comm _ _

/-- For finite inputs both sides end with the same array: every intermediate value is then a real number, the sum over rows
    and the sum over columns of `q · k · v` exchange, the division by `sqrt 1024 = 32` is the product with `1/32` and moves
    out of the sums, and the last addition commutes. -/
theorem kernelArr_eq_refArr (X : A3) (NW NB : A1 1024) (QW : A2 3072 1024) (QB : A1 3072) (PW : A2 1024 1024) (PB : A1 1024)
    (hX : ∀ i, ∃ r : ℝ, X i = (r : EReal)) (hNW : ∀ i, ∃ r : ℝ, NW i = (r : EReal)) (hNB : ∀ i, ∃ r : ℝ, NB i = (r : EReal))
    (hQW : ∀ i, ∃ r : ℝ, QW i = (r : EReal)) (hQB : ∀ i, ∃ r : ℝ, QB i = (r : EReal))
    (hPW : ∀ i, ∃ r : ℝ, PW i = (r : EReal)) (hPB : ∀ i, ∃ r : ℝ, PB i = (r : EReal)) :
    kernelArr X NW NB QW QB PW PB = refArr X NW NB QW QB PW PB := by
  have hx : ∀ b t j, IsR (cur3 X b t j) := fun b t j => hX _
  have hw : ∀ c, IsR (cur1 NW c) := fun c => hNW _
  have hbb : ∀ c, IsR (cur1 NB c) := fun c => hNB _
  have hW : ∀ c o, IsR (cur2 (tr QW) c o) := fun c o => hQW _
  have hB : ∀ o, IsR (cur1 QB o) := fun o => hQB _
  have hq : ∀ b t c, IsR (cur3 (qArr X NW NB (tr QW) QB) b t c) := fun b t c => qkv_isR hx hw hbb hW hB _ _ _
  have hk : ∀ b t c, IsR (cur3 (kArr X NW NB (tr QW) QB) b t c) := fun b t c => qkv_isR hx hw hbb hW hB _ _ _
  have hv : ∀ b t c, IsR (cur3 (vArr X NW NB (tr QW) QB) b t c) := fun b t c => qkv_isR hx hw hbb hW hB _ _ _
  have h : oK (cur3 (qArr X NW NB (tr QW) QB)) (cur3 (kvArr (kArr X NW NB (tr QW) QB) (vArr X NW NB (tr QW) QB)))
      = oR (cur3 (qArr X NW NB (tr QW) QB)) (cur3 (kArr X NW NB (tr QW) QB)) (cur3 (vArr X NW NB (tr QW) QB)) := by
    funext b t c2
    exact oK_eq_oR hq hk hv b t c2
  funext i
  simp only [kernelArr, refArr, outArr]
  rw [h]
  exact outK_eq_outR _ _ _ _ _ _ _

end Cert.Spec

end
-- ==== Proof.PreFinite.lean ====
/-
  Under the precondition every entry of every input is a real number.

  The precondition is the conjunction, over the seven input arrays, of "every entry x has |x| < +∞",
  each conjunct being the and-reduction over the whole array of the elementwise comparison. An extended
  real whose absolute value is below +∞ is neither −∞ nor +∞, hence the coercion of a real.
-/
import proofs.«160551_j79027398246801_1_alg».proof.Defs
import proofs.«160551_j79027398246801_1_alg».proof.Proof.Gen.Pre_finite_inputs
import Idealize.ShloMosaic.Lib.ReduceAll
import Idealize.ShloMosaic.Lib.ValueIdx

noncomputable section

namespace Cert.Proof

open Idealize.ShloMosaic Idealize.SL.Sem

/-- The shape of a scalar has exactly one index. -/
instance subsingleton_scalar_idx : Subsingleton Cert.Pre_finite_inputs.S_.Idx :=
  ⟨fun a b => funext fun d => d.elim0⟩

/-- An extended real `x` with `|x| < +∞` (the pattern `0x7F800000` denotes `+∞`) is a real number:
    for `x = −∞` and for `x = +∞` the absolute value `max x (−x)` is `+∞`, which is not below `+∞`. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have hinf : Ideal.ofBits .f32 0x7F800000#32 = ⊤ := by simp [Ideal.ofBits, Ideal.ieee]
  induction x using EReal.rec with
  | bot =>
    exfalso
    change Ideal.cmp .olt (max (⊥ : EReal) (-⊥)) (Ideal.ofBits .f32 0x7F800000#32) = 1#1 at h
    rw [hinf] at h
    simp [Ideal.cmp] at h
  | top =>
    exfalso
    change Ideal.cmp .olt (max (⊤ : EReal) (-⊤)) (Ideal.ofBits .f32 0x7F800000#32) = 1#1 at h
    rw [hinf] at h
    simp [Ideal.cmp] at h
  | coe r => exact ⟨r, rfl⟩

/-- For an array of any shape: if the and-reduction over all axes of the elementwise `|x| < +∞`
    (the bound broadcast from a scalar) is true, then every entry of the array is a real number. -/
theorem real_of_all_abs_lt_inf {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
        (cmpf .olt (Host.absf x)
          (broadcastInDim s ![] hb (constant (F := Ideal) Cert.Pre_finite_inputs.S_ .f32 0x7F800000#32)))
        (constantI Cert.Pre_finite_inputs.S_ 1 1#1) hr hu j = 1#1) (i : s.Idx) :
    ∃ r : ℝ, x i = (r : EReal) :=
  real_of_abs_lt_inf (x i) (Host.reduce_andi_all _ _ hr hu j e i)

/-- The precondition says `|x| < +∞` of every entry of the seven inputs, so each entry is a real number. -/
theorem finite_of_pre [hPre_finite_inputs : Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal)) := by
  -- the one entry of the scalar result, with the predicate's chain of operations in view
  have h0 := congrFun (h c) ValueIdx.ix0
  dsimp only [Cert.Pre_finite_inputs.fn, Cert.Pre_finite_inputs.fn_part1, Idealize.ShloMosaic.andi] at h0
  -- a conjunction of bits is 1 exactly when both are: peel the seven conjuncts off, last first
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all_abs_lt_inf _ _ _ _ _ e0, real_of_all_abs_lt_inf _ _ _ _ _ e1,
    real_of_all_abs_lt_inf _ _ _ _ _ e2, real_of_all_abs_lt_inf _ _ _ _ _ e3,
    real_of_all_abs_lt_inf _ _ _ _ _ e4, real_of_all_abs_lt_inf _ _ _ _ _ e5,
    real_of_all_abs_lt_inf _ _ _ _ _ e6⟩

end Cert.Proof

end
-- ==== Proof.lean ====
/-
  The certificate's five claims.

  Both printed kernels are three kernel regions after four host operations; each runs to the end with its argument arrays
  unchanged, because a region changes only its output windows' arrays and a host operation only its own result (the frame
  modules, one text for any float instance, laid out for each program). The reference is host operations only, and its
  frame is its run with the result dropped. The idealization rewrote nothing, so its claim is trivial.

  At the ideal values the kernel's result is the specification's `kernelArr` of the arguments — normalise each row, project
  to q, k, v, form per batch the matrix kᵀ v over all rows, multiply each row of q by it and scale by 1/32, project, add
  the bias and the row — and the reference's is `refArr`: the same except that it forms q kᵀ first, divides by
  sqrt 1024 and multiplies by v. Under the precondition every input entry is a real number, and then the two arrays are
  equal: the double sum over rows and columns is reassociated and the division by 32 is the product with 1/32.
-/
import proofs.«160551_j79027398246801_1_alg».proof.Defs
import proofs.«160551_j79027398246801_1_alg».proof.Proof.Gen.Kernel
import proofs.«160551_j79027398246801_1_alg».proof.Proof.Gen.KernelIdeal
import proofs.«160551_j79027398246801_1_alg».proof.Proof.Gen.ReferenceIdeal
import proofs.«160551_j79027398246801_1_alg».proof.Proof.Gen.Pre_finite_inputs
import proofs.«160551_j79027398246801_1_alg».proof.Proof.Gen.ReferenceIdeal.Run
import proofs.«160551_j79027398246801_1_alg».proof.Proof.K.Frame
import proofs.«160551_j79027398246801_1_alg».proof.Proof.KI.Value
import proofs.«160551_j79027398246801_1_alg».proof.Proof.RefSpec
import proofs.«160551_j79027398246801_1_alg».proof.Proof.SpecLaw
import proofs.«160551_j79027398246801_1_alg».proof.Proof.PreFinite
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments the kernel ends at `kernelArr` of them and the reference at `refArr` of them;
    the arguments are finite, so the two are one array. -/
theorem algebraic : Cert.algebraic_KernelIdeal_ReferenceIdeal := by
  intro m ρ m' ρ' hpre hagree
  refine ⟨_, Cert.KernelIdeal.Hand.run_value m ρ, ?_⟩
  refine (θ_run Cert.ReferenceIdeal.defs _ _).mono (fun r h c => ⟨?_, (h c).2⟩) (Cert.ReferenceIdeal.RefSpec.run m' ρ')
  obtain ⟨h0, h1, h2, h3, h4, h5, h6⟩ := hagree c
  obtain ⟨f0, f1, f2, f3, f4, f5, f6⟩ := finite_of_pre m hpre c
  rw [(h c).1, h0, h1, h2, h3, h4, h5, h6]
  exact (Cert.Spec.kernelArr_eq_refArr _ _ _ _ _ _ _ f0 f1 f2 f3 f4 f5 f6).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
